-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S64x16 .f32) (main_arg5 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x64 .f32) (main_arg3 : FVec F S64 .f32) (main_arg4 : FVec F S64x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S1x16 : Shape := ⟨2, ![1, 16]⟩
abbrev S10000x16 : Shape := ⟨2, ![10000, 16]⟩
abbrev S400x10000 : Shape := ⟨2, ![400, 10000]⟩
abbrev S400x16 : Shape := ⟨2, ![400, 16]⟩
abbrev S400x64 : Shape := ⟨2, ![400, 64]⟩
abbrev S400 : Shape := ⟨1, ![400]⟩
abbrev S400x1 : Shape := ⟨2, ![400, 1]⟩

abbrev nBuf : Space → Nat
  | .hbm => 10
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S10000x64, .f32⟩
  | .hbm, ⟨7, _⟩ => ⟨S1x64, .f32⟩
  | .hbm, ⟨8, _⟩ => ⟨S1x16, .f32⟩
  | .hbm, ⟨9, _⟩ => ⟨S10000x16, .f32⟩
  | .local _ .vmem, ⟨0, _⟩ => ⟨S10000x128, .f32⟩
  | .local _ .vmem, ⟨1, _⟩ => ⟨S128x64, .f32⟩
  | .local _ .vmem, ⟨2, _⟩ => ⟨S10000x64, .f32⟩
  | .local _ .vmem, ⟨3, _⟩ => ⟨S10000x64, .f32⟩
  | .local _ .vmem, ⟨4, _⟩ => ⟨S400x10000, .f32⟩
  | .local _ .vmem, ⟨5, _⟩ => ⟨S400x10000, .f32⟩
  | .local _ .vmem, ⟨6, _⟩ => ⟨S1x64, .f32⟩
  | .local _ .vmem, ⟨7, _⟩ => ⟨S64x16, .f32⟩
  | .local _ .vmem, ⟨8, _⟩ => ⟨S1x16, .f32⟩
  | .local _ .vmem, ⟨9, _⟩ => ⟨S400x16, .f32⟩
  | .local _ .vmem, ⟨10, _⟩ => ⟨S400x16, .f32⟩
  | .local _ .vmem, ⟨11, _⟩ => ⟨S10000x16, .f32⟩
  | .local _ .vmem, ⟨12, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc1_scratch0 : Ref sig .tc := ⟨.vmem, 11, rfl⟩
abbrev cc1_scratch1 : Ref sig .tc := ⟨.vmem, 12, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 25], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 2 → Nat :=
  let arg1 : BitVec 32 := BitVec.ofNat 32 (i 1).val
  let c400_i32 : BitVec 32 := 400#32
  let v30 : BitVec 32 := Scalar.muli arg1 c400_i32
  let v31 : Index := Scalar.indexCast v30
  let c0_17 : Index := 0#32
  ![v31.toNat, 0]
def k1_cond3 (i : grid1.Coords) : BitVec 1 :=
  let arg0 : BitVec 32 := BitVec.ofNat 32 (i 0).val
  let c1_i32 : BitVec 32 := 1#32
  let v8 : BitVec 1 := Scalar.cmpi .eq arg0 c1_i32
  let arg1 : BitVec 32 := BitVec.ofNat 32 (i 1).val
  let c1_i32_3 : BitVec 32 := 1#32
  let v9 : BitVec 1 := Scalar.cmpi .ne arg1 c1_i32_3
  let v10 : BitVec 1 := Scalar.andi v8 v9
  let v11 : BitVec 32 := Scalar.extui v10
  let c0_i32_4 : BitVec 32 := 0#32
  let v12 : BitVec 1 := Scalar.cmpi .ne v11 c0_i32_4
  v12

def k1_cond4 (i : grid1.Coords) : BitVec 1 :=
  let arg0 : BitVec 32 := BitVec.ofNat 32 (i 0).val
  let c1_i32_5 : BitVec 32 := 1#32
  let v13 : BitVec 1 := Scalar.cmpi .eq arg0 c1_i32_5
  let arg1 : BitVec 32 := BitVec.ofNat 32 (i 1).val
  let c1_i32_6 : BitVec 32 := 1#32
  let v14 : BitVec 1 := Scalar.cmpi .eq arg1 c1_i32_6
  let v15 : BitVec 1 := Scalar.andi v13 v14
  let v16 : BitVec 32 := Scalar.extui v15
  let c0_i32_7 : BitVec 32 := 0#32
  let v17 : BitVec 1 := Scalar.cmpi .ne v16 c0_i32_7
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sle arg1 c1_i32
  let c24_i32 : BitVec 32 := 24#32
  let v1 : BitVec 32 := Scalar.subi c24_i32 arg1
  let c24_i32_0 : BitVec 32 := 24#32
  let v2 : BitVec 32 := Scalar.select v0 c24_i32_0 v1
  let c1_i32_1 : BitVec 32 := 1#32
  let v3 : BitVec 32 := Scalar.subi c1_i32_1 arg0
  let v4 : BitVec 32 := Scalar.muli v3 arg1
  let v5 : BitVec 32 := Scalar.muli arg0 v2
  let v6 : BitVec 32 := Scalar.addi v4 v5
  let c0_i32 : BitVec 32 := 0#32
  let c0_i32_2 : BitVec 32 := 0#32
  ![v6.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let v0 : BitVec 32 := Scalar.muli arg0 arg1
  let c24_i32 : BitVec 32 := 24#32
  let v1 : BitVec 32 := Scalar.subi c24_i32 v0
  let c0_i32 : BitVec 32 := 0#32
  let c0_i32_0 : BitVec 32 := 0#32
  ![v1.toNat, c0_i32.toNat]

abbrev stage1_0 : Fin 1 → Memref sig .tc .vmem S10000x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S400x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S400x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S64_S1x64 : S64.ShapeCasts S1x64
  shapeCasts_S16_S1x16 : S16.ShapeCasts S1x16
  inb_S400x10000_S400x10000_0_0 : ∀ a, (![0, 0] : Fin 2 → Nat) a + S400x10000.size a ≤ S400x10000.size a
  h_S400x10000 : 0 < S400x10000.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S64x16_S64x16_0_0 : ∀ a, (![0, 0] : Fin 2 → Nat) a + S64x16.size a ≤ S64x16.size a
  h_S64x16 : 0 < S64x16.numel
  h_S400x16 : 0 < S400x16.numel
  shapeCasts_S400x16_S400x16 : S400x16.ShapeCasts S400x16
  shapeCasts_S400x10000_S400x10000 : S400x10000.ShapeCasts S400x10000
  inb_S10000x16_S10000x16_0_0 : ∀ a, (![0, 0] : Fin 2 → Nat) a + S10000x16.size a ≤ S10000x16.size a
  h_S10000x16 : 0 < S10000x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  reduces_S400x16_S400 : S400x16.Reduces [1] S400
  shapeCasts_S400_S400x1 : S400.ShapeCasts S400x1
  broadcasts_S400x1_S400x16 : S400x1.Broadcasts S400x16
  inb_S400x16_S400x16_0_0 : ∀ a, (![0, 0] : Fin 2 → Nat) a + S400x16.size a ≤ S400x16.size a
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x16_S400x16_1_0_0_1_n_n_wf : DotDims.WF S400x64 S64x16 S400x16 [1] [0] [0] [1] [] []
  dot_S400x10000_S10000x16_S400x16_1_0_0_1_n_n_wf : DotDims.WF S400x10000 S10000x16 S400x16 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  k1_off1_inb : ∀ i : grid1.Coords, ∀ (k1_h1 : k1_cond1 i = 1#1), ∀ a, (k1_off1 i) a + S400x16.size a ≤ S10000x16.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S10000x64.size a
  hwx1_0 : ∀ i : grid1.Coords, EltTy.bits .f32 = 32 ∨ (Rect.block (s := S10000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x10000.size a ≤ S10000x10000.size a
  hwx1_1 : ∀ i : grid1.Coords, EltTy.bits .f32 = 32 ∨ (Rect.block (s := S10000x10000) S400x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x16.size a ≤ S10000x16.size a
  hwx1_5 : ∀ i : grid1.Coords, EltTy.bits .f32 = 32 ∨ (Rect.block (s := S10000x16) S400x16.size (cc1_transform_5 i) (hinb1_5 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x16_S400x16_1_0_0_1_n_n : DotDims S400x64 S64x16 S400x16 where
  lhsContracting := [1]
  rhsContracting := [0]
  lhsNonContracting := [0]
  rhsNonContracting := [1]
  lhsBatch := []
  rhsBatch := []
  wf := dot_S400x64_S64x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S10000x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S400x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S400x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond3 i == 1#1) && !(k1_cond4 i == 1#1) | ⟨_ + 6, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S10000x64, .f32⟩
  | .hbm, ⟨7, _⟩ => ⟨S10000x64, .f32⟩
  | .hbm, ⟨8, _⟩ => ⟨S1x64, .f32⟩
  | .hbm, ⟨9, _⟩ => ⟨S10000x64, .f32⟩
  | .hbm, ⟨10, _⟩ => ⟨S10000x64, .f32⟩
  | .hbm, ⟨11, _⟩ => ⟨S_, .f32⟩
  | .hbm, ⟨12, _⟩ => ⟨S10000x64, .f32⟩
  | .hbm, ⟨13, _⟩ => ⟨S10000x64, .f32⟩
  | .hbm, ⟨14, _⟩ => ⟨S10000x16, .f32⟩
  | .hbm, ⟨15, _⟩ => ⟨S10000x16, .f32⟩
  | .hbm, ⟨16, _⟩ => ⟨S1x16, .f32⟩
  | .hbm, ⟨17, _⟩ => ⟨S10000x16, .f32⟩
  | .hbm, ⟨18, _⟩ => ⟨S10000x16, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x16, .f32⟩
  | .hbm, ⟨26, _⟩ => ⟨S10000x16, .f32⟩
  | .hbm, ⟨27, _⟩ => ⟨S10000x16, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x16, .f32⟩
  | .hbm, ⟨32, _⟩ => ⟨S10000x16, .f32⟩
  | .hbm, ⟨33, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.K.XW.lean ====
/-
  The first pallas_call has no grid: one point, at which the whole of `x` and of `W1` are staged, the body stores their
  product into the whole output block, and the block is written back to `A`'s array.  This module names that product
  as a function of the buffers the region is entered with (`V`), proves the body's triple, and gives the pipeline's
  proof data and body obligation.
-/
import proofs.«146261_g85014582657441_cont_9to1_m_926_22_alg».proof.Proof.Gen.Kernel.Launch
import proofs.«146261_g85014582657441_cont_9to1_m_926_22_alg».proof.Proof.Gen.Kernel.Skeleton
import proofs.«146261_g85014582657441_cont_9to1_m_926_22_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.XW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the one point: its whole array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- `x`, whole. -/
abbrev xblk (c : Dev nD) (t : Fin cfg0.N) : Vec F S10000x128 .f32 := iblk0 V c 0 t
/-- `W1`, whole. -/
abbrev w1blk (c : Dev nD) (t : Fin cfg0.N) : Vec F S128x64 .f32 := iblk0 V c 1 t

/-- What the body leaves in the output block: the product `x · W1` into a zero accumulator. -/
def Aout (c : Dev nD) (t : Fin cfg0.N) : Vec F S10000x64 .f32 := k0_pay1 (xblk V c t) (w1blk V c t)

set_option maxHeartbeats 1000000 in
/-- The body on whole memrefs: the inputs stay, the output is the product. -/
theorem run_xw (c : Dev nD) (E : Set ℕ) (arg0 : Memref sig .tc .vmem S10000x128 .f32) (harg0 : arg0.IsWhole)
    (arg1 : Memref sig .tc .vmem S128x64 .f32) (harg1 : arg1.IsWhole) (arg2 : Memref sig .tc .vmem S10000x64 .f32) (harg2 : arg2.IsWhole)
    (x0 : Vec F S10000x128 .f32) (x1 : Vec F S128x64 .f32) (K : PUnit → sProp 𝕄) :
    iprop(owns (c : Thread nD τ) arg0 fullShare x0 ∗ owns (c : Thread nD τ) arg1 fullShare x1 ∗ (∃ o, owns (c : Thread nD τ) arg2 fullShare o)
        ∗ (iprop(owns (c : Thread nD τ) arg0 fullShare x0 ∗ owns (c : Thread nD τ) arg1 fullShare x1
            ∗ owns (c : Thread nD τ) arg2 fullShare (k0_pay1 x0 x1)) -∗ K ⟨⟩))
      ⊢ wp frame (wpE (defs₀ (F := F)) Variants.none c none) E (cc0__xw_body arg0 harg0 arg1 harg1 arg2 harg2) K := by
  simp only [cc0__xw_body_eq_skeleton]; unfold cc0__xw_body_skel
  unfold owns
  iintro ⟨⟨%f0, %hf0, H0⟩, ⟨%f1, %hf1, H1⟩, ⟨%o, %f2, -, H2⟩, Hk⟩
  subst hf0
  subst hf1
  sl_exec
  sl_step
  iapply Hk
  have hz : (![0, 0] : Fin 2 → Nat) = fun _ => 0 := by funext a; match a with | ⟨0, _⟩ => rfl | ⟨1, _⟩ => rfl
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (View.cover_of_tiled [⟨_, _⟩] S10000x64.size (by rfl)),
    View.canon_unit_zero hz, View.readAt_eq_ld, View.readAt_eq_ld,
    View.ld_unit_zero (S := S10000x128) hz, View.ld_unit_zero (S := S128x64) hz]

/-- The proof data: the arrays as the region finds them; after the body each input's buffer at its block and the
    output's at the product; the invariant the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => Aout V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = Aout V c t := by dsimp only [dat0]

/-- Each input's staging buffer holds its whole array when the body runs. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- What the body is handed at the one point: the invariant, what the core owes, and the three staging buffers, the
    inputs' at what they then hold and the output's at anything. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back: the same invariant and debt, `x` and `W1` where they were, and the product in the output's buffer. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at the one point: the inputs' buffers hold `x` and `W1` whole, so `run_xw` applies and leaves `x · W1`;
    the invariant and the debt are not read. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (run_xw c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at the one point. -/
theorem body_obligation0 (c : Dev nD) : BodyObligation (dat0 (F := F) V c) (defs₀ (F := F)) Variants.none () Set.univ := fun t => by
  rw [bigSep_W0, bigSep_W0]
  exact sound_body0 V c t

end Cert.Kernel.XW

end
-- ==== Proof.K.Gcn.lean ====
/-
  The second pallas_call: a grid of 2 phases by 25 row-blocks of 400 rows.  Phase 0, at block `i`, computes
  `B[400 i .. 400 i + 400, :] = relu(norm[400 i .., :] · A + b1) · W2` into a scratch that every later point keeps, and at
  `i = 23` copies that norm block into a second scratch.  Phase 1 at step `i` writes output block `24 - i` as the
  row-wise log-softmax of `norm[block 24 - i] · B + b2`; at `i = 1` the norm rows come from the copy made in phase 0.
  This module names those values as functions of the buffers the region is entered with (`V`), states what the two
  scratch buffers are known to hold before each point, and gives the pipeline's proof data.
-/
import proofs.«146261_g85014582657441_cont_9to1_m_926_22_alg».proof.Proof.Gen.Kernel.Launch
import proofs.«146261_g85014582657441_cont_9to1_m_926_22_alg».proof.Proof.Gen.Kernel.Skeleton
import proofs.«146261_g85014582657441_cont_9to1_m_926_22_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## The grid's points and the four branch conditions in closed form -/

theorem N50 : cfg1.N = 50 := N_1

/-- Point number `n` of the 50 (phase `n / 25`, step `n % 25`). -/
def pt (n : ℕ) (h : n < 50) : Fin cfg1.N := ⟨n, lt_of_lt_of_eq h N50.symm⟩

/-- The second branch's condition (phase 0 and step 23), which the printed body computes inline. -/
abbrev cond2 (i : grid1.Coords) : Prop :=
  Scalar.cmpi .ne (Scalar.extui (Scalar.andi (Scalar.cmpi .eq (BitVec.ofNat 32 (i 0).val) 0#32) (Scalar.cmpi .eq (BitVec.ofNat 32 (i 1).val) 23#32))) 0#32 = 1#1

/-- Phase 0 is the first 25 points. -/
theorem hcond1 : ∀ t : Fin cfg1.N, k1_cond1 (grid1.coords t) = 1#1 ↔ t.val < 25 :=
  (by decide +kernel : ∀ t : Fin grid1.N, k1_cond1 (grid1.coords t) = 1#1 ↔ t.val < 25)
/-- The copy of the norm block is made at point 23. -/
theorem hcond2 : ∀ t : Fin cfg1.N, cond2 (grid1.coords t) ↔ t.val = 23 :=
  (by decide +kernel : ∀ t : Fin grid1.N, cond2 (grid1.coords t) ↔ t.val = 23)
/-- Phase 1 off its step 1 is the points from 25 on, but 26. -/
theorem hcond3 : ∀ t : Fin cfg1.N, k1_cond3 (grid1.coords t) = 1#1 ↔ (25 ≤ t.val ∧ t.val ≠ 26) :=
  (by decide +kernel : ∀ t : Fin grid1.N, k1_cond3 (grid1.coords t) = 1#1 ↔ (25 ≤ t.val ∧ t.val ≠ 26))
/-- Phase 1's step 1 is point 26. -/
theorem hcond4 : ∀ t : Fin cfg1.N, k1_cond4 (grid1.coords t) = 1#1 ↔ t.val = 26 :=
  (by decide +kernel : ∀ t : Fin grid1.N, k1_cond4 (grid1.coords t) = 1#1 ↔ t.val = 26)

/-- In phase 0 the scratch rows written at point `t` start at row `400 t`. -/
theorem off1_eq : ∀ t : Fin cfg1.N, t.val < 25 → k1_off1 (grid1.coords t) = ![400 * t.val, 0] :=
  (by decide +kernel : ∀ t : Fin grid1.N, t.val < 25 → k1_off1 (grid1.coords t) = ![400 * t.val, 0])

/-! ## Where the output window is idle, and where it is written back -/

theorem live_in : ∀ (w : Fin cfg1.W), w.val < 5 → ∀ t : Fin cfg1.N, cfg1.idle w (grid1.coords t) = false := by decide +kernel
theorem idle_out : ∀ t : Fin cfg1.N, t.val < 25 → cfg1.idle 5 (grid1.coords t) = true := by decide +kernel
theorem noflush_out : ∀ t : Fin cfg1.N, t.val < 25 → (cfg1.win 5).flush t = false := by decide +kernel
theorem live_out : ∀ t : Fin cfg1.N, 25 ≤ t.val → cfg1.idle 5 (grid1.coords t) = false := by decide +kernel
theorem flush_out : ∀ t : Fin cfg1.N, 25 ≤ t.val → (cfg1.win 5).flush t = true := by decide +kernel

/-! ## The windows' blocks, under their literal types -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first layer's product `A = x · W1`, whole. -/
abbrev ablk (c : Dev nD) (t : Fin cfg1.N) : Vec F S10000x64 .f32 := iblk1 V c 0 t
/-- The 400 rows of `norm` the window holds at point `t`. -/
abbrev nblk (c : Dev nD) (t : Fin cfg1.N) : Vec F S400x10000 .f32 := iblk1 V c 1 t
/-- `b1` as a row. -/
abbrev b1blk (c : Dev nD) (t : Fin cfg1.N) : Vec F S1x64 .f32 := iblk1 V c 2 t
/-- `W2`. -/
abbrev w2blk (c : Dev nD) (t : Fin cfg1.N) : Vec F S64x16 .f32 := iblk1 V c 3 t
/-- `b2` as a row. -/
abbrev b2blk (c : Dev nD) (t : Fin cfg1.N) : Vec F S1x16 .f32 := iblk1 V c 4 t

/-! ## What the two scratch buffers come to hold -/

/-- The 400 rows of `B` computed at a phase-0 point: `relu(norm rows · A + b1) · W2`. -/
def Bat (c : Dev nD) (t : Fin cfg1.N) : Vec F S400x16 .f32 :=
  k1_pay1 (nblk V c t) (ablk V c t) (b1blk V c t) (w2blk V c t)

/-- `B`, whole: row `r` is row `r % 400` of the block computed at point `r / 400`. -/
def Bfull (c : Dev nD) : Vec F S10000x16 .f32 := fun j =>
  Bat V c (pt ((j 0).val / 400) (by have := idx2_lt0 j; omega)) (ix2 ⟨(j 0).val % 400, Nat.mod_lt _ (by decide)⟩ ⟨(j 1).val, idx2_lt1 j⟩)

/-- The rows of `norm` phase 1 multiplies at point `t`: the window's own, but at point 26 the copy made at point 23. -/
def srcPt (t : Fin cfg1.N) : Fin cfg1.N := if t.val = 26 then pt 23 (by decide) else t

/-- The output block a phase-1 point writes: the row-wise log-softmax of `norm rows · B + b2`. -/
def outAt (c : Dev nD) (t : Fin cfg1.N) : Vec F S400x16 .f32 :=
  k1_pay3 (nblk V c (srcPt t)) (Bfull V c) (b2blk V c t)

/-- The rectangle of scratch rows a phase-0 point writes. -/
abbrev rectB (i : grid1.Coords) (h1 : k1_cond1 i = 1#1) : Rect S10000x16 :=
  Rect.unit (s := S10000x16) (k1_off1 i) S400x16.size (k1_off1_inb i h1)

/-- What is known of the scratch contents `d` (for `B`) and `e` (the norm copy) before point `n`: the rows of `B`
    below `400 n` are in place, and from point 24 on the copy is the norm block of point 23. -/
def Inv (c : Dev nD) (n : ℕ) (d : Vec F S10000x16 .f32) (e : Vec F S400x10000 .f32) : Prop :=
  (∀ j : S10000x16.Idx, (j 0).val < 400 * n → d j = Bfull V c j) ∧ (24 ≤ n → e = nblk V c (pt 23 (by decide)))

theorem Inv_zero (c : Dev nD) (d : Vec F S10000x16 .f32) (e : Vec F S400x10000 .f32) : Inv V c 0 d e :=
  ⟨fun j h => absurd h (by omega), fun h => absurd h (by omega)⟩

/-- From point 25 on the scratch IS `B`. -/
theorem Inv_full (c : Dev nD) (n : ℕ) (hn : 25 ≤ n) (d : Vec F S10000x16 .f32) (e : Vec F S400x10000 .f32) (h : Inv V c n d e) :
    d = Bfull V c ∧ e = nblk V c (pt 23 (by decide)) :=
  ⟨funext fun j => h.1 j (by have := idx2_lt0 j; omega), h.2 (by omega)⟩

/-- Phase 1 changes neither scratch. -/
theorem Inv_keep (c : Dev nD) (n : ℕ) (hn : 25 ≤ n) (d : Vec F S10000x16 .f32) (e : Vec F S400x10000 .f32) (h : Inv V c n d e) :
    Inv V c (n + 1) d e :=
  ⟨fun j _ => (Inv_full V c n hn d e h).1 ▸ rfl, fun _ => (Inv_full V c n hn d e h).2⟩

/-! ## The scratch operands as memrefs, and the region invariant -/

abbrev scB : Memref sig .tc .vmem S10000x16 .f32 := Memref.whole cc1_scratch0
abbrev scN : Memref sig .tc .vmem S400x10000 .f32 := Memref.whole cc1_scratch1

/-- Before point `n`: the two scratch buffers at contents the invariant describes, every other scoped buffer that is
    no staging buffer of this call at anything, the generator register at some state. -/
def PhiS (c : Dev nD) (n : ℕ) : sProp 𝕄 :=
  iprop((∃ d e, ⌜Inv V c n d e⌝ ∗ owns (c : Thread nD τ) scB fullShare d ∗ owns (c : Thread nD τ) scN fullShare e)
    ∗ Pipeline.scopedRestBut (Ix := Unit) (Name := ℕ) (U := UR sig nD τ) (Lvl := ℕ) (Val := Elt F) spec1 c [cc1_scratch0, cc1_scratch1]
    ∗ ∃ r, prngReg c r)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t
  Φ t := PhiS V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t := by dsimp only [dat1]

theorem Phi_eq (c : Dev nD) (t : Fin (cfg1.N + 1)) : (dat1 V c).Φ t = PhiS V c t.val := by dsimp only [dat1]

end Cert.Kernel.Gcn

end
-- ==== Proof.K.Boundary.lean ====
/-
  The buffers' contents at the boundaries of @main: the launch memory; after the first pallas_call, its arrays at what
  its write-backs leave and every other buffer as entered; after the two reshapes of the biases; after the second
  pallas_call likewise.  What the second region finds in each of its operands is read back through these: `A`'s array
  at the first region's result, `norm` and `W2` as launched, the two bias rows the reshapes of the launched biases.
-/
import proofs.«146261_g85014582657441_cont_9to1_m_926_22_alg».proof.Proof.K.XW
import proofs.«146261_g85014582657441_cont_9to1_m_926_22_alg».proof.Proof.K.Gcn

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 : Dev nD → Valuation τ sig (Elt F) := fun c b => m (c, b)
/-- The same read at the TensorCore's references. -/
abbrev Vin0 : (c : Dev nD) → (b : Ref sig .tc) → Buf (Elt F) ((c : Thread nD τ).loc b) := fun c b => W0 m c b
/-- At the first region's exit: its arrays at what the pipeline leaves, every other buffer as entered. -/
def W1 (c : Dev nD) : Valuation τ sig (Elt F) :=
  Pipeline.withArrays spec0 c (W0 m c) fun w => (XW.dat0 (Vin0 m) c).arrAt w cfg0.N
/-- After the two reshapes (the second region's entry). -/
abbrev W2 : Dev nD → Valuation τ sig (Elt F) := fun c => StableHlo.after hostOps1 (W1 m c)
/-- The same read at the TensorCore's references. -/
abbrev Vin1 : (c : Dev nD) → (b : Ref sig .tc) → Buf (Elt F) ((c : Thread nD τ).loc b) := fun c b => W2 m c b
/-- At the second region's exit. -/
def W3 (c : Dev nD) : Valuation τ sig (Elt F) :=
  Pipeline.withArrays spec1 c (W2 m c) fun w => (Gcn.dat1 (Vin1 m) c).arrAt w cfg1.N

/-! ## The boundary contents at a region's arrays and off them -/

theorem W1_arr (c : Dev nD) (w : Fin cfg0.W) :
    W1 m c (Proc.devRef .tc (Pipeline.arrRef spec0 w)) = (XW.dat0 (Vin0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W3_arr (c : Dev nD) (w : Fin cfg1.W) :
    W3 m c (Proc.devRef .tc (Pipeline.arrRef spec1 w)) = (Gcn.dat1 (Vin1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- The two reshapes write only the two rows: any other buffer keeps its contents through them. -/
theorem reshapes_keep (V : Valuation τ sig (Elt F)) (b : Ref sig .tc) (h1 : b ≠ main_v1) (h2 : b ≠ main_v2) :
    StableHlo.after (hostOps1 (F := F)) V (Proc.devRef .tc b) = V (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2⟩))

/-! ## What the second region finds in its operands -/

theorem Vin0_main_arg0 (c : Dev nD) : Vin0 m c main_arg0 = m ((c : Thread nD τ).loc main_arg0) := rfl
theorem Vin0_main_arg2 (c : Dev nD) : Vin0 m c main_arg2 = m ((c : Thread nD τ).loc main_arg2) := rfl

/-- `A`'s array holds what the first region's write-back left. -/
theorem Vin1_main_v0 (c : Dev nD) : Vin1 m c main_v0 = (XW.dat0 (Vin0 m) c).arrAt 2 cfg0.N :=
  (reshapes_keep (W1 m c) main_v0 (by decide) (by decide)).trans (W1_arr m c 2)
theorem Vin1_main_arg1 (c : Dev nD) : Vin1 m c main_arg1 = m ((c : Thread nD τ).loc main_arg1) :=
  (reshapes_keep (W1 m c) main_arg1 (by decide) (by decide)).trans (W1_of_ne m c main_arg1 (by decide))
theorem Vin1_main_arg4 (c : Dev nD) : Vin1 m c main_arg4 = m ((c : Thread nD τ).loc main_arg4) :=
  (reshapes_keep (W1 m c) main_arg4 (by decide) (by decide)).trans (W1_of_ne m c main_arg4 (by decide))
/-- `b1` as a row: the reshape of the argument. -/
theorem Vin1_main_v1 (c : Dev nD) :
    (Vin1 m c main_v1 : S1x64.Idx → Elt F .f32) = shapeCast S1x64 (m ((c : Thread nD τ).loc main_arg3) : S64.Idx → Elt F .f32) shapeCasts_S64_S1x64 := by
  dsimp only [Vin1, W2, hostOps1]
  after_results
  rw [W1_of_ne m c main_arg3 (by decide)]
  rfl
/-- `b2` as a row. -/
theorem Vin1_main_v2 (c : Dev nD) :
    (Vin1 m c main_v2 : S1x16.Idx → Elt F .f32) = shapeCast S1x16 (m ((c : Thread nD τ).loc main_arg5) : S16.Idx → Elt F .f32) shapeCasts_S16_S1x16 := by
  dsimp only [Vin1, W2, hostOps1]
  after_results
  rw [W1_of_ne m c main_arg5 (by decide)]
  rfl

end Cert.Kernel.Whole

end
-- ==== Proof.K.GcnWindows.lean ====
/-
  The second pallas_call's windows and invariant.  Each input window's staging buffer holds, when the body runs at a
  point, the block the point's index map names: fetched there, or left in place since the index did not move.  The
  region's invariant starts from the scoped rest at anything (nothing is known of the scratch before the first point)
  and can always forget what it knows.
-/
import proofs.«146261_g85014582657441_cont_9to1_m_926_22_alg».proof.Proof.K.Gcn

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- The scoped rest split at the two scratch buffers, each as its memref owned at some contents. -/
theorem scoped1_split (c : Dev nD) :
    (Pipeline.scopedRest (Ix := Unit) (Name := ℕ) (U := UR sig nD τ) (Lvl := ℕ) (Val := Elt F) spec1 c : sProp 𝕄)
      = iprop(((∃ d, owns (c : Thread nD τ) scB fullShare d) ∗ (∃ e, owns (c : Thread nD τ) scN fullShare e))
          ∗ Pipeline.scopedRestBut (Ix := Unit) (Name := ℕ) (U := UR sig nD τ) (Lvl := ℕ) (Val := Elt F) spec1 c [cc1_scratch0, cc1_scratch1]) := by
  rw [Pipeline.scopedRest_split_of_list spec1 c [cc1_scratch0, cc1_scratch1] (by decide) (by decide)]
  simp only [scB, scN, owns_whole]; try rfl

/-- What the launch hands the region is the invariant before the first point. -/
theorem Phi_in (c : Dev nD) : (Pipeline.ΦA spec1 c : sProp 𝕄) ⊢ PhiS V c 0 := by
  unfold Pipeline.ΦA PhiS
  rw [scoped1_split]
  iintro ⟨⟨⟨⟨%d, Hd⟩, ⟨%e, He⟩⟩, Hrest⟩, Hr⟩
  isplitl [Hd He]
  · iexists d; iexists e
    isplitr; · ipureintro; exact Inv_zero V c d e
    isplitl [Hd]; · iexact Hd
    iexact He
  isplitl [Hrest]; · iexact Hrest
  iexact Hr

/-- Before or after any point the invariant gives the scoped rest back: what it knows of the scratch is forgotten. -/
theorem Phi_out (c : Dev nD) (n : ℕ) : PhiS V c n ⊢ (Pipeline.ΦA spec1 c : sProp 𝕄) := by
  unfold Pipeline.ΦA PhiS
  rw [scoped1_split]
  iintro ⟨⟨%d, %e, %_h, Hd, He⟩, Hrest, Hr⟩
  isplitr [Hr]
  · isplitl [Hd He]
    · isplitl [Hd]; · iexists d; iexact Hd
      iexists e; iexact He
    iexact Hrest
  iexact Hr

end Cert.Kernel.Gcn

end
-- ==== Proof.K.GcnStep.lean ====
/-
  One phase-0 point stores its 400 rows of `B` at rows `400 t .. 400 t + 400` of the scratch: the rows below are
  untouched and already in place, the rows stored are by definition `B`'s, so the rows below `400 (t + 1)` are in
  place afterwards.  At point 23 the norm block is copied too, and the copy is the block itself.
-/
import proofs.«146261_g85014582657441_cont_9to1_m_926_22_alg».proof.Proof.K.Gcn
import Idealize.ShloMosaic.Lib.Pipeline.Value

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The offset of the rows stored at a phase-0 point, one axis at a time. -/
theorem off1_0 (t : Fin cfg1.N) (ht : t.val < 25) : k1_off1 (grid1.coords t) 0 = 400 * t.val := by
  rw [off1_eq t ht]; rfl

theorem off1_1 (t : Fin cfg1.N) (ht : t.val < 25) : k1_off1 (grid1.coords t) 1 = 0 := by
  rw [off1_eq t ht]; rfl

/-- Element `x` of the block stored at point `t` lands at row `400 t + x₀`, column `x₁`; `B` read there is
    row `x₀` of the block of point `(400 t + x₀) / 400 = t`: the element stored. -/
theorem Bfull_emb (c : Dev nD) (t : Fin cfg1.N) (ht : t.val < 25) (h1 : k1_cond1 (grid1.coords t) = 1#1)
    (x : (rectB (grid1.coords t) h1).shape.Idx) :
    Bfull V c ((rectB (grid1.coords t) h1).emb x) = Bat V c t x := by
  have hx0 : (x 0).val < 400 := (x 0).isLt
  have hx1 : (x 1).val < 16 := (x 1).isLt
  have e0 : (((rectB (grid1.coords t) h1).emb x) 0).val = 400 * t.val + (x 0).val := by
    rw [Rect.emb_apply, Rect.off_unit, Rect.stride_unit, off1_0 t ht, Nat.one_mul]
  have e1 : (((rectB (grid1.coords t) h1).emb x) 1).val = (x 1).val := by
    rw [Rect.emb_apply, Rect.off_unit, Rect.stride_unit, off1_1 t ht, Nat.one_mul, Nat.zero_add]
  unfold Bfull
  refine congrArg₂ (fun a b => Bat V c a b) (Fin.ext ?_) (funext fun a => ?_)
  · show (((rectB (grid1.coords t) h1).emb x) 0).val / 400 = t.val
    rw [e0]; omega
  · match a with
    | ⟨0, _⟩ =>
      refine Fin.ext ?_
      show (((rectB (grid1.coords t) h1).emb x) 0).val % 400 = (x 0).val
      rw [e0]; omega
    | ⟨1, _⟩ =>
      refine Fin.ext ?_
      show (((rectB (grid1.coords t) h1).emb x) 1).val = (x 1).val
      exact e1

/-- After the store the rows below `400 (t + 1)` are `B`'s: those stored by the computation above, those below
    `400 t` because the store leaves them alone. -/
theorem rows_step (c : Dev nD) (t : Fin cfg1.N) (ht : t.val < 25) (h1 : k1_cond1 (grid1.coords t) = 1#1)
    (d : Vec F S10000x16 .f32) (h : ∀ j : S10000x16.Idx, (j 0).val < 400 * t.val → d j = Bfull V c j) :
    ∀ j : S10000x16.Idx, (j 0).val < 400 * (t.val + 1) →
      (rectB (grid1.coords t) h1).overlay d (Bat V c t) j = Bfull V c j := by
  intro j hj
  by_cases hmem : j ∈ (rectB (grid1.coords t) h1).set
  · obtain ⟨x, rfl⟩ := (rectB (grid1.coords t) h1).exists_idx_of_mem hmem
    show (rectB (grid1.coords t) h1).overlay d (Bat V c t) ((rectB (grid1.coords t) h1).emb x) = _
    rw [Rect.overlay_emb]
    exact (Bfull_emb V c t ht h1 x).symm
  · rw [Rect.overlay_of_not_mem _ _ _ hmem]
    refine h j ?_
    by_contra hge
    refine hmem (Rect.mem_set_unit.mpr fun a => ?_)
    have hj1 : (j 1).val < 16 := idx2_lt1 j
    match a with
    | ⟨0, _⟩ =>
      show k1_off1 (grid1.coords t) 0 ≤ (j 0).val ∧ (j 0).val < k1_off1 (grid1.coords t) 0 + 400
      rw [off1_0 t ht]; omega
    | ⟨1, _⟩ =>
      show k1_off1 (grid1.coords t) 1 ≤ (j 1).val ∧ (j 1).val < k1_off1 (grid1.coords t) 1 + 16
      rw [off1_1 t ht]; omega

theorem Inv_step (c : Dev nD) (t : Fin cfg1.N) (ht : t.val < 25) (h1 : k1_cond1 (grid1.coords t) = 1#1)
    (d : Vec F S10000x16 .f32) (e : Vec F S400x10000 .f32) (h : Inv V c t.val d e) (ht23 : t.val ≠ 23) :
    Inv V c (t.val + 1) ((rectB (grid1.coords t) h1).overlay d (Bat V c t)) e :=
  ⟨rows_step V c t ht h1 d h.1, fun h24 => h.2 (by omega)⟩

theorem Inv_step23 (c : Dev nD) (t : Fin cfg1.N) (ht : t.val = 23) (h1 : k1_cond1 (grid1.coords t) = 1#1)
    (d : Vec F S10000x16 .f32) (e : Vec F S400x10000 .f32) (h : Inv V c t.val d e) :
    Inv V c (t.val + 1) ((rectB (grid1.coords t) h1).overlay d (Bat V c t)) (k1_pay2 (nblk V c t)) := by
  refine ⟨rows_step V c t (by omega) h1 d h.1, fun _ => ?_⟩
  have htp : t = pt 23 (by decide) := Fin.ext ht
  show shapeCast S400x10000 (nblk V c t) shapeCasts_S400x10000_S400x10000 = nblk V c (pt 23 (by decide))
  rw [shapeCast_self, htp]

end Cert.Kernel.Gcn

end
-- ==== Proof.K.GcnFill.lean ====
/-
  The body at a phase-0 point, on any whole memrefs: it reads the norm rows, `A`, `b1` and `W2`, and stores
  `relu(norm rows · A + b1) · W2` into 400 rows of the `B` scratch, leaving every other row of it; at step 23 it also
  stores the norm rows into the second scratch.  Nothing else is written.
-/
import proofs.«146261_g85014582657441_cont_9to1_m_926_22_alg».proof.Proof.K.Gcn

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Three facts about loads and stores through a whole memref -/

theorem zero2 : (![0, 0] : Fin 2 → ℕ) = fun _ => 0 := funext fun a => by fin_cases a <;> rfl

section Whole

variable {Val : EltTy → Type} {κ : Kind} {sp : Space} {s : Shape} {e : EltTy}

/-- A load of the whole shape (the unit rectangle at zero offsets) through a whole memref held at the contents that
    read `X` reads `X`. -/
theorem readAt_full {m : Memref sig κ sp s e} (h : m.IsWhole) (X : s.Idx → Val e) {off : Fin s.rank → ℕ}
    (ho : off = fun _ => 0) (inb : ∀ a, off a + s.size a ≤ s.size a) :
    View.readAt Val m.view (Rect.unit (s := s) off s.size inb).toLoadRect (h.unread X) = X := by
  subst ho
  rw [View.readAt_eq_ld, h.read_unread]
  funext x; show X ((Rect.whole s).emb x) = X x; rw [Rect.emb_whole_apply]

/-- After one store through the rectangle `r`, a whole memref that read `X` reads `X` with its part on `r` replaced by
    the payload: under the rectangle the payload, elsewhere what was there. -/
theorem read_writes_one {m : Memref sig κ sp s e} (h : m.IsWhole) (X : s.Idx → Val e) (r : Rect s) (w : r.shape.Idx → Val e) :
    m.view.read Val (m.view.writes Val (h.unread X) [(⟨r, w⟩ : View.Piece Val s e)]) = r.overlay X w := by
  funext y
  by_cases hy : y ∈ r.set
  · obtain ⟨x, rfl⟩ : ∃ x, r.emb x = y := r.exists_idx_of_mem hy
    rw [View.read_writes_cons_emb, Rect.overlay_emb]
  · rw [View.read_writes_apply_of_forall_not_mem _ _ y _ (fun p hp => by rw [List.mem_singleton.mp hp]; exact hy),
      h.read_unread, Rect.overlay_of_not_mem _ _ _ hy]

/-- One store of the whole shape leaves its payload, whatever the buffer held. -/
theorem read_writes_full (v : View sig κ sp s e) (f : v.ty.Contents Val) {off : Fin s.rank → ℕ} (ho : off = fun _ => 0)
    (inb : ∀ a, off a + s.size a ≤ s.size a) (w : s.Idx → Val e) :
    v.read Val (v.writes Val f [(⟨Rect.unit (s := s) off s.size inb, w⟩ : View.Piece Val s e)]) = w := by
  subst ho; funext y
  have hr := View.read_writes_cons_emb v f (Rect.whole s) w [] y
  rw [Rect.emb_whole_apply] at hr; exact hr

end Whole

set_option maxHeartbeats 1000000 in
/-- Phase 0 off step 23: only the first branch is taken. -/
theorem run_fill (c : Dev nD) (E : Set ℕ) (i : grid1.Coords) (h1 : k1_cond1 i = 1#1) (h2 : ¬ cond2 i) (h3 : ¬ k1_cond3 i = 1#1) (h4 : ¬ k1_cond4 i = 1#1)
    (arg2 : Memref sig .tc .vmem S10000x64 .f32) (harg2 : arg2.IsWhole) (arg3 : Memref sig .tc .vmem S400x10000 .f32) (harg3 : arg3.IsWhole)
    (arg4 : Memref sig .tc .vmem S1x64 .f32) (harg4 : arg4.IsWhole) (arg5 : Memref sig .tc .vmem S64x16 .f32) (harg5 : arg5.IsWhole)
    (arg6 : Memref sig .tc .vmem S1x16 .f32) (harg6 : arg6.IsWhole) (arg7 : Memref sig .tc .vmem S400x16 .f32) (harg7 : arg7.IsWhole)
    (arg8 : Memref sig .tc .vmem S10000x16 .f32) (harg8 : arg8.IsWhole) (arg9 : Memref sig .tc .vmem S400x10000 .f32) (harg9 : arg9.IsWhole)
    (x2 : Vec F S10000x64 .f32) (x3 : Vec F S400x10000 .f32) (x4 : Vec F S1x64 .f32) (x5 : Vec F S64x16 .f32) (d : Vec F S10000x16 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg8 fullShare d
        ∗ (iprop(owns (c : Thread nD τ) arg2 fullShare x2 ∗ owns (c : Thread nD τ) arg3 fullShare x3 ∗ owns (c : Thread nD τ) arg4 fullShare x4
            ∗ owns (c : Thread nD τ) arg5 fullShare x5
            ∗ owns (c : Thread nD τ) arg8 fullShare ((rectB i h1).overlay d (k1_pay1 x3 x2 x4 x5))) -∗ K ⟨⟩))
      ⊢ wp frame (wpE (defs₀ (F := F)) Variants.none c none) E (cc1__gcn_body i arg2 harg2 arg3 harg3 arg4 harg4 arg5 harg5 arg6 harg6 arg7 harg7 arg8 harg8 arg9 harg9) K := by
  simp only [cc1__gcn_body_eq_skeleton]; unfold cc1__gcn_body_skel
  unfold owns
  iintro ⟨⟨%f2, %hf2, H2⟩, ⟨%f3, %hf3, H3⟩, ⟨%f4, %hf4, H4⟩, ⟨%f5, %hf5, H5⟩, ⟨%f8, %hf8, H8⟩, Hk⟩
  obtain rfl := harg2.eq_unread hf2; obtain rfl := harg3.eq_unread hf3; obtain rfl := harg4.eq_unread hf4
  obtain rfl := harg5.eq_unread hf5; obtain rfl := harg8.eq_unread hf8
  sl_exec (disch := first | exact h1 | exact h2 | exact h3 | exact h4)
  -- each whole-shape load read the contents its memref holds
  rw [readAt_full harg3 x3 zero2, readAt_full harg2 x2 zero2, readAt_full harg4 x4 zero2, readAt_full harg5 x5 zero2]
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; · ipureintro; exact read_writes_one harg8 d (rectB i h1) (k1_pay1 x3 x2 x4 x5)
  iexact H8

set_option maxHeartbeats 1000000 in
/-- Phase 0 at step 23: the first two branches are taken. -/
theorem run_fill_copy (c : Dev nD) (E : Set ℕ) (i : grid1.Coords) (h1 : k1_cond1 i = 1#1) (h2 : cond2 i) (h3 : ¬ k1_cond3 i = 1#1) (h4 : ¬ k1_cond4 i = 1#1)
    (arg2 : Memref sig .tc .vmem S10000x64 .f32) (harg2 : arg2.IsWhole) (arg3 : Memref sig .tc .vmem S400x10000 .f32) (harg3 : arg3.IsWhole)
    (arg4 : Memref sig .tc .vmem S1x64 .f32) (harg4 : arg4.IsWhole) (arg5 : Memref sig .tc .vmem S64x16 .f32) (harg5 : arg5.IsWhole)
    (arg6 : Memref sig .tc .vmem S1x16 .f32) (harg6 : arg6.IsWhole) (arg7 : Memref sig .tc .vmem S400x16 .f32) (harg7 : arg7.IsWhole)
    (arg8 : Memref sig .tc .vmem S10000x16 .f32) (harg8 : arg8.IsWhole) (arg9 : Memref sig .tc .vmem S400x10000 .f32) (harg9 : arg9.IsWhole)
    (x2 : Vec F S10000x64 .f32) (x3 : Vec F S400x10000 .f32) (x4 : Vec F S1x64 .f32) (x5 : Vec F S64x16 .f32) (d : Vec F S10000x16 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg8 fullShare d ∗ (∃ e, owns (c : Thread nD τ) arg9 fullShare e)
        ∗ (iprop(owns (c : Thread nD τ) arg2 fullShare x2 ∗ owns (c : Thread nD τ) arg3 fullShare x3 ∗ owns (c : Thread nD τ) arg4 fullShare x4
            ∗ owns (c : Thread nD τ) arg5 fullShare x5
            ∗ owns (c : Thread nD τ) arg8 fullShare ((rectB i h1).overlay d (k1_pay1 x3 x2 x4 x5))
            ∗ owns (c : Thread nD τ) arg9 fullShare (k1_pay2 x3)) -∗ K ⟨⟩))
      ⊢ wp frame (wpE (defs₀ (F := F)) Variants.none c none) E (cc1__gcn_body i arg2 harg2 arg3 harg3 arg4 harg4 arg5 harg5 arg6 harg6 arg7 harg7 arg8 harg8 arg9 harg9) K := by
  simp only [cc1__gcn_body_eq_skeleton]; unfold cc1__gcn_body_skel
  unfold owns
  iintro ⟨⟨%f2, %hf2, H2⟩, ⟨%f3, %hf3, H3⟩, ⟨%f4, %hf4, H4⟩, ⟨%f5, %hf5, H5⟩, ⟨%f8, %hf8, H8⟩, ⟨%e9, %f9, -, H9⟩, Hk⟩
  obtain rfl := harg2.eq_unread hf2; obtain rfl := harg3.eq_unread hf3; obtain rfl := harg4.eq_unread hf4
  obtain rfl := harg5.eq_unread hf5; obtain rfl := harg8.eq_unread hf8
  sl_exec (disch := first | exact h1 | exact h2 | exact h3 | exact h4)
  -- each whole-shape load read the contents its memref holds
  rw [readAt_full harg3 x3 zero2, readAt_full harg2 x2 zero2, readAt_full harg4 x4 zero2, readAt_full harg5 x5 zero2]
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr; · ipureintro; exact read_writes_one harg8 d (rectB i h1) (k1_pay1 x3 x2 x4 x5)
    iexact H8
  iexists _; isplitr; · ipureintro; exact read_writes_full arg9.view f9 zero2 inb_S400x10000_S400x10000_0_0 (k1_pay2 x3)
  iexact H9

end Cert.Kernel.Gcn

end
-- ==== Proof.K.GcnEmit.lean ====
/-
  The body at a phase-1 point, on any whole memrefs: it reads 400 rows of `norm` (the window's, or at step 1 the copy
  in the second scratch), the whole `B` scratch and `b2`, and stores the row-wise log-softmax of `rows · B + b2` into the
  output block.  Neither scratch is written.
-/
import proofs.«146261_g85014582657441_cont_9to1_m_926_22_alg».proof.Proof.K.Gcn
import Idealize.ShloMosaic.Lib.Pipeline.Value

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Full-rectangle loads and stores -/

namespace Emit

/-- The offsets `![0, 0]` are the zero offsets. -/
theorem zeros2 : (![0, 0] : Fin 2 → ℕ) = fun _ => 0 := by
  funext a; match a with
  | ⟨0, _⟩ => rfl
  | ⟨1, _⟩ => rfl

/-- A load through the full rectangle of a whole memref held at the contents that read `X` reads `X`. -/
theorem readAt_full {s : Shape} {e : EltTy} {m : Memref sig .tc .vmem s e} (h : m.IsWhole) (X : s.Idx → Elt F e)
    {off : Fin s.rank → ℕ} (hz : off = fun _ => 0) (inb : ∀ a, off a + s.size a ≤ s.size a) :
    View.readAt (Elt F) m.view (Rect.unit (s := s) off s.size inb).toLoadRect (h.unread X) = X := by
  rw [View.readAt_eq_ld, h.read_unread]; exact View.ld_unit_zero hz inb X

/-- One store through the full rectangle of a buffer leaves its payload there, whatever the buffer held. -/
theorem read_writes_full {s : Shape} {e : EltTy} {κ : Kind} {sp : Space} (v : View sig κ sp s e) (f : v.ty.Contents (Elt F))
    {off : Fin s.rank → ℕ} (hz : off = fun _ => 0) (inb : ∀ a, off a + s.size a ≤ s.size a) (w : s.Idx → Elt F e) :
    v.read (Elt F) (v.writes (Elt F) f [(⟨Rect.unit (s := s) off s.size inb, w⟩ : View.Piece (Elt F) s e)]) = w := by
  rw [View.read_writes_eq_canon v f _ (fun y => ⟨_, List.mem_singleton_self _, View.mem_set_unit_zero hz inb y⟩),
    View.canon_unit_zero hz]

end Emit

/-! ## The body at a phase-1 point -/

set_option maxHeartbeats 1000000 in
/-- Phase 1 off step 1: only the third branch is taken. -/
theorem run_emit (c : Dev nD) (E : Set ℕ) (i : grid1.Coords) (h1 : ¬ k1_cond1 i = 1#1) (h2 : ¬ cond2 i) (h3 : k1_cond3 i = 1#1) (h4 : ¬ k1_cond4 i = 1#1)
    (arg2 : Memref sig .tc .vmem S10000x64 .f32) (harg2 : arg2.IsWhole) (arg3 : Memref sig .tc .vmem S400x10000 .f32) (harg3 : arg3.IsWhole)
    (arg4 : Memref sig .tc .vmem S1x64 .f32) (harg4 : arg4.IsWhole) (arg5 : Memref sig .tc .vmem S64x16 .f32) (harg5 : arg5.IsWhole)
    (arg6 : Memref sig .tc .vmem S1x16 .f32) (harg6 : arg6.IsWhole) (arg7 : Memref sig .tc .vmem S400x16 .f32) (harg7 : arg7.IsWhole)
    (arg8 : Memref sig .tc .vmem S10000x16 .f32) (harg8 : arg8.IsWhole) (arg9 : Memref sig .tc .vmem S400x10000 .f32) (harg9 : arg9.IsWhole)
    (x3 : Vec F S400x10000 .f32) (x6 : Vec F S1x16 .f32) (d : Vec F S10000x16 .f32)
    (K : PUnit → sProp 𝕄) :
    iprop(owns (c : Thread nD τ) arg3 fullShare x3 ∗ owns (c : Thread nD τ) arg6 fullShare x6 ∗ owns (c : Thread nD τ) arg8 fullShare d
        ∗ (∃ o, owns (c : Thread nD τ) arg7 fullShare o)
        ∗ (iprop(owns (c : Thread nD τ) arg3 fullShare x3 ∗ owns (c : Thread nD τ) arg6 fullShare x6 ∗ owns (c : Thread nD τ) arg8 fullShare d
            ∗ owns (c : Thread nD τ) arg7 fullShare (k1_pay3 x3 d x6)) -∗ K ⟨⟩))
      ⊢ wp frame (wpE (defs₀ (F := F)) Variants.none c none) E (cc1__gcn_body i arg2 harg2 arg3 harg3 arg4 harg4 arg5 harg5 arg6 harg6 arg7 harg7 arg8 harg8 arg9 harg9) K := by
  simp only [cc1__gcn_body_eq_skeleton]; unfold cc1__gcn_body_skel
  unfold owns
  iintro ⟨⟨%f3, %hf3, H3⟩, ⟨%f6, %hf6, H6⟩, ⟨%f8, %hf8, H8⟩, ⟨%o, %fo, -, H7⟩, Hk⟩
  obtain rfl := harg3.eq_unread hf3; obtain rfl := harg6.eq_unread hf6; obtain rfl := harg8.eq_unread hf8
  sl_exec (disch := first | exact h1 | exact h2 | exact h3 | exact h4)
  sl_step
  iapply Hk
  isplitl [H3]
  · iexists _; isplitr; · ipureintro; exact harg3.read_unread _
    iexact H3
  isplitl [H6]
  · iexists _; isplitr; · ipureintro; exact harg6.read_unread _
    iexact H6
  isplitl [H8]
  · iexists _; isplitr; · ipureintro; exact harg8.read_unread _
    iexact H8
  iexists _; isplitr
  swap; · iexact H7
  ipureintro
  rw [Emit.read_writes_full (s := S400x16) _ _ Emit.zeros2, Emit.readAt_full harg3 x3 Emit.zeros2, Emit.readAt_full harg8 d Emit.zeros2,
    Emit.readAt_full harg6 x6 Emit.zeros2]

set_option maxHeartbeats 1000000 in
/-- Phase 1 at step 1: only the fourth branch is taken; the norm rows are read from the second scratch. -/
theorem run_emit_cached (c : Dev nD) (E : Set ℕ) (i : grid1.Coords) (h1 : ¬ k1_cond1 i = 1#1) (h2 : ¬ cond2 i) (h3 : ¬ k1_cond3 i = 1#1) (h4 : k1_cond4 i = 1#1)
    (arg2 : Memref sig .tc .vmem S10000x64 .f32) (harg2 : arg2.IsWhole) (arg3 : Memref sig .tc .vmem S400x10000 .f32) (harg3 : arg3.IsWhole)
    (arg4 : Memref sig .tc .vmem S1x64 .f32) (harg4 : arg4.IsWhole) (arg5 : Memref sig .tc .vmem S64x16 .f32) (harg5 : arg5.IsWhole)
    (arg6 : Memref sig .tc .vmem S1x16 .f32) (harg6 : arg6.IsWhole) (arg7 : Memref sig .tc .vmem S400x16 .f32) (harg7 : arg7.IsWhole)
    (arg8 : Memref sig .tc .vmem S10000x16 .f32) (harg8 : arg8.IsWhole) (arg9 : Memref sig .tc .vmem S400x10000 .f32) (harg9 : arg9.IsWhole)
    (e : Vec F S400x10000 .f32) (x6 : Vec F S1x16 .f32) (d : Vec F S10000x16 .f32)
    (K : PUnit → sProp 𝕄) :
    iprop(owns (c : Thread nD τ) arg9 fullShare e ∗ owns (c : Thread nD τ) arg6 fullShare x6 ∗ owns (c : Thread nD τ) arg8 fullShare d
        ∗ (∃ o, owns (c : Thread nD τ) arg7 fullShare o)
        ∗ (iprop(owns (c : Thread nD τ) arg9 fullShare e ∗ owns (c : Thread nD τ) arg6 fullShare x6 ∗ owns (c : Thread nD τ) arg8 fullShare d
            ∗ owns (c : Thread nD τ) arg7 fullShare (k1_pay4 e d x6)) -∗ K ⟨⟩))
      ⊢ wp frame (wpE (defs₀ (F := F)) Variants.none c none) E (cc1__gcn_body i arg2 harg2 arg3 harg3 arg4 harg4 arg5 harg5 arg6 harg6 arg7 harg7 arg8 harg8 arg9 harg9) K := by
  simp only [cc1__gcn_body_eq_skeleton]; unfold cc1__gcn_body_skel
  unfold owns
  iintro ⟨⟨%f9, %hf9, H9⟩, ⟨%f6, %hf6, H6⟩, ⟨%f8, %hf8, H8⟩, ⟨%o, %fo, -, H7⟩, Hk⟩
  obtain rfl := harg9.eq_unread hf9; obtain rfl := harg6.eq_unread hf6; obtain rfl := harg8.eq_unread hf8
  sl_exec (disch := first | exact h1 | exact h2 | exact h3 | exact h4)
  sl_step
  iapply Hk
  isplitl [H9]
  · iexists _; isplitr; · ipureintro; exact harg9.read_unread _
    iexact H9
  isplitl [H6]
  · iexists _; isplitr; · ipureintro; exact harg6.read_unread _
    iexact H6
  isplitl [H8]
  · iexists _; isplitr; · ipureintro; exact harg8.read_unread _
    iexact H8
  iexists _; isplitr
  swap; · iexact H7
  ipureintro
  rw [Emit.read_writes_full (s := S400x16) _ _ Emit.zeros2, Emit.readAt_full harg9 e Emit.zeros2, Emit.readAt_full harg8 d Emit.zeros2,
    Emit.readAt_full harg6 x6 Emit.zeros2]

end Cert.Kernel.Gcn

end
-- ==== Proof.K.GcnBody.lean ====
/-
  The second pallas_call's body obligation.  The point's number decides which branch of the body runs; in phase 0 the
  output window is idle and its buffer goes back as found, and the `B` scratch gains 400 rows (at point 23 the norm
  block is copied as well); in phase 1 both scratches are known, so the block written is the log-softmax block the
  proof data names.
-/
import proofs.«146261_g85014582657441_cont_9to1_m_926_22_alg».proof.Proof.K.Gcn
import proofs.«146261_g85014582657441_cont_9to1_m_926_22_alg».proof.Proof.K.GcnStep
import proofs.«146261_g85014582657441_cont_9to1_m_926_22_alg».proof.Proof.K.GcnFill
import proofs.«146261_g85014582657441_cont_9to1_m_926_22_alg».proof.Proof.K.GcnEmit
import proofs.«146261_g85014582657441_cont_9to1_m_926_22_alg».proof.Proof.K.GcnWindows

set_option maxRecDepth 16384

noncomputable section

namespace Cert.Kernel.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [Phi_eq V c t.castSucc, Phi_eq V c t.succ, Fin.coe_castSucc, Fin.val_succ]
  rw [show (dat1 V c).leavesExact 0 t = owns (c : Thread nD τ) (st1_0 t) fullShare (iblk1 V c 0 t) from by
    unfold Dat.leavesExact; rw [live_in 0 (by decide) t, after1_0]]
  rw [show (dat1 V c).leavesExact 1 t = owns (c : Thread nD τ) (st1_1 t) fullShare (iblk1 V c 1 t) from by
    unfold Dat.leavesExact; rw [live_in 1 (by decide) t, after1_1]]
  rw [show (dat1 V c).leavesExact 2 t = owns (c : Thread nD τ) (st1_2 t) fullShare (iblk1 V c 2 t) from by
    unfold Dat.leavesExact; rw [live_in 2 (by decide) t, after1_2]]
  rw [show (dat1 V c).leavesExact 3 t = owns (c : Thread nD τ) (st1_3 t) fullShare (iblk1 V c 3 t) from by
    unfold Dat.leavesExact; rw [live_in 3 (by decide) t, after1_3]]
  rw [show (dat1 V c).leavesExact 4 t = owns (c : Thread nD τ) (st1_4 t) fullShare (iblk1 V c 4 t) from by
    unfold Dat.leavesExact; rw [live_in 4 (by decide) t, after1_4]]
  unfold PhiS
  by_cases h25 : t.val < 25
  · rw [Dat.leavesExact_idle (dat1 V c) 5 t (idle_out t h25) (noflush_out t h25)]
    have h1 : k1_cond1 (grid1.coords t) = 1#1 := (hcond1 t).mpr h25
    have h3 : ¬ k1_cond3 (grid1.coords t) = 1#1 := fun h => absurd ((hcond3 t).mp h).1 (by omega)
    have h4 : ¬ k1_cond4 (grid1.coords t) = 1#1 := fun h => absurd ((hcond4 t).mp h) (by omega)
    by_cases h23 : t.val = 23
    · have h2 : cond2 (grid1.coords t) := (hcond2 t).mpr h23
      iintro ⟨⟨⟨%d, %e, %hInv, HB, HN⟩, Hrest, Hg⟩, Ho, ⟨%d0, H0⟩, ⟨%d1, H1⟩, ⟨%d2, H2⟩, ⟨%d3, H3⟩, ⟨%d4, H4⟩, H5⟩
      iapply (run_fill_copy c Set.univ (grid1.coords t) h1 h2 h3 h4 _ _ _ _ _ _ _ _ _ _ _ _ _ _ _ _
        (ablk V c t) (nblk V c t) (b1blk V c t) (w2blk V c t) d _)
      isplitl [H0]; · iexact H0
      isplitl [H1]; · iexact H1
      isplitl [H2]; · iexact H2
      isplitl [H3]; · iexact H3
      isplitl [HB]; · iexact HB
      isplitl [HN]; · iexists e; iexact HN
      iintro ⟨H0, H1, H2, H3, HB, HN⟩
      isplitl [HB HN Hrest Hg]
      · isplitl [HB HN]
        · iexists ((rectB (grid1.coords t) h1).overlay d (Bat V c t)), (k1_pay2 (nblk V c t))
          isplitr
          · ipureintro; exact Inv_step23 V c t h23 h1 d e hInv
          isplitl [HB]; · iexact HB
          iexact HN
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · have h2 : ¬ cond2 (grid1.coords t) := fun h => h23 ((hcond2 t).mp h)
      iintro ⟨⟨⟨%d, %e, %hInv, HB, HN⟩, Hrest, Hg⟩, Ho, ⟨%d0, H0⟩, ⟨%d1, H1⟩, ⟨%d2, H2⟩, ⟨%d3, H3⟩, ⟨%d4, H4⟩, H5⟩
      iapply (run_fill c Set.univ (grid1.coords t) h1 h2 h3 h4 _ _ _ _ _ _ _ _ _ _ _ _ _ _ _ _
        (ablk V c t) (nblk V c t) (b1blk V c t) (w2blk V c t) d _)
      isplitl [H0]; · iexact H0
      isplitl [H1]; · iexact H1
      isplitl [H2]; · iexact H2
      isplitl [H3]; · iexact H3
      isplitl [HB]; · iexact HB
      iintro ⟨H0, H1, H2, H3, HB⟩
      isplitl [HB HN Hrest Hg]
      · isplitl [HB HN]
        · iexists ((rectB (grid1.coords t) h1).overlay d (Bat V c t)), e
          isplitr
          · ipureintro; exact Inv_step V c t h25 h1 d e hInv h23
          isplitl [HB]; · iexact HB
          iexact HN
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
  · have h25' : 25 ≤ t.val := by omega
    rw [show (dat1 V c).leavesExact 5 t = owns (c : Thread nD τ) (st1_5 t) fullShare (outAt V c t) from by
      unfold Dat.leavesExact; rw [live_out t h25', after1_5]]
    have h1 : ¬ k1_cond1 (grid1.coords t) = 1#1 := fun h => h25 ((hcond1 t).mp h)
    have h2 : ¬ cond2 (grid1.coords t) := fun h => absurd ((hcond2 t).mp h) (by omega)
    by_cases h26 : t.val = 26
    · have h3 : ¬ k1_cond3 (grid1.coords t) = 1#1 := fun h => ((hcond3 t).mp h).2 h26
      have h4 : k1_cond4 (grid1.coords t) = 1#1 := (hcond4 t).mpr h26
      have hout : outAt V c t = k1_pay4 (nblk V c (pt 23 (by decide))) (Bfull V c) (b2blk V c t) := by
        unfold outAt srcPt; rw [if_pos h26]; rfl
      rw [hout]
      iintro ⟨⟨⟨%d, %e, %hInv, HB, HN⟩, Hrest, Hg⟩, Ho, ⟨%d0, H0⟩, ⟨%d1, H1⟩, ⟨%d2, H2⟩, ⟨%d3, H3⟩, ⟨%d4, H4⟩, ⟨%d5, H5⟩⟩
      obtain ⟨rfl, rfl⟩ := Inv_full V c t.val h25' d e hInv
      iapply (run_emit_cached c Set.univ (grid1.coords t) h1 h2 h3 h4 _ _ _ _ _ _ _ _ _ _ _ _ _ _ _ _
        (nblk V c (pt 23 (by decide))) (b2blk V c t) (Bfull V c) _)
      isplitl [HN]; · iexact HN
      isplitl [H4]; · iexact H4
      isplitl [HB]; · iexact HB
      isplitl [H5]; · iexists _; iexact H5
      iintro ⟨HN, H4, HB, H5⟩
      isplitl [HB HN Hrest Hg]
      · isplitl [HB HN]
        · iexists (Bfull V c), (nblk V c (pt 23 (by decide)))
          isplitr
          · ipureintro; exact Inv_keep V c t.val h25' _ _ hInv
          isplitl [HB]; · iexact HB
          iexact HN
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · have h3 : k1_cond3 (grid1.coords t) = 1#1 := (hcond3 t).mpr ⟨h25', h26⟩
      have h4 : ¬ k1_cond4 (grid1.coords t) = 1#1 := fun h => h26 ((hcond4 t).mp h)
      have hout : outAt V c t = k1_pay3 (nblk V c t) (Bfull V c) (b2blk V c t) := by
        unfold outAt srcPt; rw [if_neg h26]
      rw [hout]
      iintro ⟨⟨⟨%d, %e, %hInv, HB, HN⟩, Hrest, Hg⟩, Ho, ⟨%d0, H0⟩, ⟨%d1, H1⟩, ⟨%d2, H2⟩, ⟨%d3, H3⟩, ⟨%d4, H4⟩, ⟨%d5, H5⟩⟩
      obtain ⟨rfl, rfl⟩ := Inv_full V c t.val h25' d e hInv
      iapply (run_emit c Set.univ (grid1.coords t) h1 h2 h3 h4 _ _ _ _ _ _ _ _ _ _ _ _ _ _ _ _
        (nblk V c t) (b2blk V c t) (Bfull V c) _)
      isplitl [H1]; · iexact H1
      isplitl [H4]; · iexact H4
      isplitl [HB]; · iexact HB
      isplitl [H5]; · iexists _; iexact H5
      iintro ⟨H1, H4, HB, H5⟩
      isplitl [HB HN Hrest Hg]
      · isplitl [HB HN]
        · iexists (Bfull V c), (nblk V c (pt 23 (by decide)))
          isplitr
          · ipureintro; exact Inv_keep V c t.val h25' _ _ hInv
          isplitl [HB]; · iexact HB
          iexact HN
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gcn

end
-- ==== Proof.K.WholeRun.lean ====
/-
  @main, whole: the first pallas_call, the two reshapes of the biases, the second pallas_call.  The buffers' contents at
  the three boundaries are named (the launch memory; each region's arrays at what its write-backs leave, every other
  buffer as entered; a host stretch's results), each region is a segment of the run entered from the contents before it
  and left at the contents after it, and the last contents are read against the final memory: the result array holds
  what the second region's proof data compute, and no argument array has changed.
-/
import proofs.«146261_g85014582657441_cont_9to1_m_926_22_alg».proof.Proof.K.Boundary
import proofs.«146261_g85014582657441_cont_9to1_m_926_22_alg».proof.Proof.K.GcnWindows
import proofs.«146261_g85014582657441_cont_9to1_m_926_22_alg».proof.Proof.K.GcnBody

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

/-- The contents at each region's exit, read at the TensorCore's references. -/
abbrev Vout0 : (c : Dev nD) → (b : Ref sig .tc) → Buf (Elt F) ((c : Thread nD τ).loc b) := fun c b => W1 m c b
abbrev Vout1 : (c : Dev nD) → (b : Ref sig .tc) → Buf (Elt F) ((c : Thread nD τ).loc b) := fun c b => W3 m c b

/-- At a region's exit each of its arrays holds what the pipeline leaves and every other buffer what it held at entry. -/
theorem hF0 (c : Dev nD) (w : Fin cfg0.W) : (XW.dat0 (Vin0 m) c).arrAt w cfg0.N = Vout0 m c (Pipeline.arrRef spec0 w) :=
  (W1_arr m c w).symm
theorem hrest0 (c : Dev nD) : ∀ b, b ∉ Finset.univ.image (Pipeline.arrRef spec0) → Vout0 m c b = Vin0 m c b :=
  fun b hb => W1_of_ne m c b fun w e => hb (Finset.mem_image.mpr ⟨w, Finset.mem_univ _, e⟩)
theorem hF1 (c : Dev nD) (w : Fin cfg1.W) : (Gcn.dat1 (Vin1 m) c).arrAt w cfg1.N = Vout1 m c (Pipeline.arrRef spec1 w) :=
  (W3_arr m c w).symm
theorem hrest1 (c : Dev nD) : ∀ b, b ∉ Finset.univ.image (Pipeline.arrRef spec1) → Vout1 m c b = Vin1 m c b :=
  fun b hb => W3_of_ne m c b fun w e => hb (Finset.mem_image.mpr ⟨w, Finset.mem_univ _, e⟩)

/-! ### The last contents at the result and at each argument

The result is the second region's output array.  No host operation and no region writes an argument: a region reads
it through an input window, whose array ends as entered, or does not touch it, and the reshapes write the two rows
only; so the last contents at an argument walk back to the launch memory. -/

theorem W3_main_v3 (c : Dev nD) : W3 m c (Proc.devRef .tc main_v3) = (Gcn.dat1 (Vin1 m) c).arrAt 5 cfg1.N :=
  W3_arr m c 5

/-- A buffer neither region has as an array and no reshape writes ends as launched. -/
theorem W3_untouched (c : Dev nD) (b : Ref sig .tc) (h0 : ∀ w, Pipeline.arrRef spec0 w ≠ b) (h1 : ∀ w, Pipeline.arrRef spec1 w ≠ b)
    (hv1 : b ≠ main_v1) (hv2 : b ≠ main_v2) : W3 m c (Proc.devRef .tc b) = m ((c : Thread nD τ).loc b) :=
  calc W3 m c (Proc.devRef .tc b)
    _ = W2 m c (Proc.devRef .tc b) := W3_of_ne m c b h1
    _ = W1 m c (Proc.devRef .tc b) := reshapes_keep (W1 m c) b hv1 hv2
    _ = W0 m c (Proc.devRef .tc b) := W1_of_ne m c b h0
    _ = m ((c : Thread nD τ).loc b) := rfl

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := reshapes_keep (W1 m c) main_arg0 (by decide) (by decide)
    _ = W0 m c (Proc.devRef .tc main_arg0) := (W1_arr m c 0).trans (((XW.dat0 (Vin0 m) c).arrAt_in 0 rfl _).trans (XW.A_eq0 (Vin0 m) c 0))
    _ = m ((c : Thread nD τ).loc main_arg0) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := reshapes_keep (W1 m c) main_arg2 (by decide) (by decide)
    _ = W0 m c (Proc.devRef .tc main_arg2) := (W1_arr m c 1).trans (((XW.dat0 (Vin0 m) c).arrAt_in 1 rfl _).trans (XW.A_eq0 (Vin0 m) c 1))
    _ = m ((c : Thread nD τ).loc main_arg2) := rfl
theorem W3_main_arg1 (c : Dev nD) : W3 m c (Proc.devRef .tc main_arg1) = m ((c : Thread nD τ).loc main_arg1) :=
  ((W3_arr m c 1).trans (((Gcn.dat1 (Vin1 m) c).arrAt_in 1 rfl _).trans (Gcn.A_eq1 (Vin1 m) c 1))).trans (Vin1_main_arg1 m c)
theorem W3_main_arg4 (c : Dev nD) : W3 m c (Proc.devRef .tc main_arg4) = m ((c : Thread nD τ).loc main_arg4) :=
  ((W3_arr m c 3).trans (((Gcn.dat1 (Vin1 m) c).arrAt_in 3 rfl _).trans (Gcn.A_eq1 (Vin1 m) c 3))).trans (Vin1_main_arg4 m c)
theorem W3_main_arg3 (c : Dev nD) : W3 m c (Proc.devRef .tc main_arg3) = m ((c : Thread nD τ).loc main_arg3) :=
  W3_untouched m c main_arg3 (by decide) (by decide) (by decide) (by decide)
theorem W3_main_arg5 (c : Dev nD) : W3 m c (Proc.devRef .tc main_arg5) = m ((c : Thread nD τ).loc main_arg5) :=
  W3_untouched m c main_arg5 (by decide) (by decide) (by decide) (by decide)

/-! ## The proof data family and the thread state -/

/-- The prefetched tables' admissible contents: no pipeline has a table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => XW.dat0 (Vin0 m) c
  | ⟨1, _⟩ => fun c => Gcn.dat1 (Vin1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- Neither reshape allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The two reshapes as a segment: from every unscoped buffer at the first region's exit contents to the same buffers
    at the reshapes' results. -/
abbrev reshapeSeg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

/-- The last thread state without the debt: every unscoped buffer at the last contents, the generator register at
    some state. -/
abbrev Tlast (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first pallas_call: entered from the launch memory, left at its arrays' final contents beside every other
    buffer as entered.  Its arrays are split out of the unscoped buffers and put back; the generator register goes
    into the invariant and comes out; nothing is owed. -/
def regXW : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (XW.body_obligation0 (Vin0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered from the reshapes' results, left at the last contents.  Its invariant is entered
    from the scoped rest at anything (nothing is known of the scratch before the first point) and, after the last
    point, forgets what it knows of the scratch. -/
def regGcn : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Gcn.body_obligation1 (Vin1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Gcn.PhiS (Vin1 m) c 0 from rfl]
    refine .trans ?_ (Gcn.Phi_in (Vin1 m) c)
    unfold Pipeline.ΦA
    iintro ⟨Hp, -, Hr⟩
    isplitl [Hr]; · iexact Hr
    iexact Hp
  hout c := by
    rw [Pipeline.ownSems0_none, show (pdats m 1 c).Φ (Fin.last _) = Gcn.PhiS (Vin1 m) c (Fin.last cfg1.N).val from rfl]
    refine (Gcn.Phi_out (Vin1 m) c _).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the first pallas_call, the two reshapes, the second pallas_call. -/
abbrev segs : List (Pipeline.Seg (pcfgs (F := F)) adm (pdats m) () defs₀ 𝒱₀ L lv) :=
  [ .region (regXW m), .host (reshapeSeg m), .region (regGcn m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting; the result
    array ends at what the second region's proof data compute from its entry contents, and every argument as launched. -/
theorem run_all : θ_run defs (onTc (τ := τ) (main (F := F))) ⟨m, fun _ => 0, ρ⟩ (fun r => ∀ c : Dev nD,
      r.2.mem ((c.tc : Thread nD τ).loc main_v3) = (Gcn.dat1 (Vin1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v3 (by decide))).trans (W3_main_v3 m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c),
       (h c _ (mem_uc main_arg5 (by decide))).trans (W3_main_arg5 m c)⟩)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_all m ρ)

end Cert.Kernel.Whole

end
-- ==== Proof.KI.XW.lean ====
/-
  The first pallas_call has no grid: one point, at which the whole of `x` and of `W1` are staged, the body stores their
  product into the whole output block, and the block is written back to `A`'s array.  This module names that product
  as a function of the buffers the region is entered with (`V`), proves the body's triple, and gives the pipeline's
  proof data and body obligation.
-/
import proofs.«146261_g85014582657441_cont_9to1_m_926_22_alg».proof.Proof.Gen.KernelIdeal.Launch
import proofs.«146261_g85014582657441_cont_9to1_m_926_22_alg».proof.Proof.Gen.KernelIdeal.Skeleton
import proofs.«146261_g85014582657441_cont_9to1_m_926_22_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.XW

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the one point: its whole array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- `x`, whole. -/
abbrev xblk (c : Dev nD) (t : Fin cfg0.N) : Vec F S10000x128 .f32 := iblk0 V c 0 t
/-- `W1`, whole. -/
abbrev w1blk (c : Dev nD) (t : Fin cfg0.N) : Vec F S128x64 .f32 := iblk0 V c 1 t

/-- What the body leaves in the output block: the product `x · W1` into a zero accumulator. -/
def Aout (c : Dev nD) (t : Fin cfg0.N) : Vec F S10000x64 .f32 := k0_pay1 (xblk V c t) (w1blk V c t)

set_option maxHeartbeats 1000000 in
/-- The body on whole memrefs: the inputs stay, the output is the product. -/
theorem run_xw (c : Dev nD) (E : Set ℕ) (arg0 : Memref sig .tc .vmem S10000x128 .f32) (harg0 : arg0.IsWhole)
    (arg1 : Memref sig .tc .vmem S128x64 .f32) (harg1 : arg1.IsWhole) (arg2 : Memref sig .tc .vmem S10000x64 .f32) (harg2 : arg2.IsWhole)
    (x0 : Vec F S10000x128 .f32) (x1 : Vec F S128x64 .f32) (K : PUnit → sProp 𝕄) :
    iprop(owns (c : Thread nD τ) arg0 fullShare x0 ∗ owns (c : Thread nD τ) arg1 fullShare x1 ∗ (∃ o, owns (c : Thread nD τ) arg2 fullShare o)
        ∗ (iprop(owns (c : Thread nD τ) arg0 fullShare x0 ∗ owns (c : Thread nD τ) arg1 fullShare x1
            ∗ owns (c : Thread nD τ) arg2 fullShare (k0_pay1 x0 x1)) -∗ K ⟨⟩))
      ⊢ wp frame (wpE (defs₀ (F := F)) Variants.none c none) E (cc0__xw_body arg0 harg0 arg1 harg1 arg2 harg2) K := by
  simp only [cc0__xw_body_eq_skeleton]; unfold cc0__xw_body_skel
  unfold owns
  iintro ⟨⟨%f0, %hf0, H0⟩, ⟨%f1, %hf1, H1⟩, ⟨%o, %f2, -, H2⟩, Hk⟩
  subst hf0
  subst hf1
  sl_exec
  sl_step
  iapply Hk
  have hz : (![0, 0] : Fin 2 → Nat) = fun _ => 0 := by funext a; match a with | ⟨0, _⟩ => rfl | ⟨1, _⟩ => rfl
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (View.cover_of_tiled [⟨_, _⟩] S10000x64.size (by rfl)),
    View.canon_unit_zero hz, View.readAt_eq_ld, View.readAt_eq_ld,
    View.ld_unit_zero (S := S10000x128) hz, View.ld_unit_zero (S := S128x64) hz]

/-- The proof data: the arrays as the region finds them; after the body each input's buffer at its block and the
    output's at the product; the invariant the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => Aout V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = Aout V c t := by dsimp only [dat0]

/-- Each input's staging buffer holds its whole array when the body runs. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- What the body is handed at the one point: the invariant, what the core owes, and the three staging buffers, the
    inputs' at what they then hold and the output's at anything. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back: the same invariant and debt, `x` and `W1` where they were, and the product in the output's buffer. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at the one point: the inputs' buffers hold `x` and `W1` whole, so `run_xw` applies and leaves `x · W1`;
    the invariant and the debt are not read. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (run_xw c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at the one point. -/
theorem body_obligation0 (c : Dev nD) : BodyObligation (dat0 (F := F) V c) (defs₀ (F := F)) Variants.none () Set.univ := fun t => by
  rw [bigSep_W0, bigSep_W0]
  exact sound_body0 V c t

end Cert.KernelIdeal.XW

end
-- ==== Proof.KI.Gcn.lean ====
/-
  The second pallas_call: a grid of 2 phases by 25 row-blocks of 400 rows.  Phase 0, at block `i`, computes
  `B[400 i .. 400 i + 400, :] = relu(norm[400 i .., :] · A + b1) · W2` into a scratch that every later point keeps, and at
  `i = 23` copies that norm block into a second scratch.  Phase 1 at step `i` writes output block `24 - i` as the
  row-wise log-softmax of `norm[block 24 - i] · B + b2`; at `i = 1` the norm rows come from the copy made in phase 0.
  This module names those values as functions of the buffers the region is entered with (`V`), states what the two
  scratch buffers are known to hold before each point, and gives the pipeline's proof data.
-/
import proofs.«146261_g85014582657441_cont_9to1_m_926_22_alg».proof.Proof.Gen.KernelIdeal.Launch
import proofs.«146261_g85014582657441_cont_9to1_m_926_22_alg».proof.Proof.Gen.KernelIdeal.Skeleton
import proofs.«146261_g85014582657441_cont_9to1_m_926_22_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-! ## The grid's points and the four branch conditions in closed form -/

theorem N50 : cfg1.N = 50 := N_1

/-- Point number `n` of the 50 (phase `n / 25`, step `n % 25`). -/
def pt (n : ℕ) (h : n < 50) : Fin cfg1.N := ⟨n, lt_of_lt_of_eq h N50.symm⟩

/-- The second branch's condition (phase 0 and step 23), which the printed body computes inline. -/
abbrev cond2 (i : grid1.Coords) : Prop :=
  Scalar.cmpi .ne (Scalar.extui (Scalar.andi (Scalar.cmpi .eq (BitVec.ofNat 32 (i 0).val) 0#32) (Scalar.cmpi .eq (BitVec.ofNat 32 (i 1).val) 23#32))) 0#32 = 1#1

/-- Phase 0 is the first 25 points. -/
theorem hcond1 : ∀ t : Fin cfg1.N, k1_cond1 (grid1.coords t) = 1#1 ↔ t.val < 25 :=
  (by decide +kernel : ∀ t : Fin grid1.N, k1_cond1 (grid1.coords t) = 1#1 ↔ t.val < 25)
/-- The copy of the norm block is made at point 23. -/
theorem hcond2 : ∀ t : Fin cfg1.N, cond2 (grid1.coords t) ↔ t.val = 23 :=
  (by decide +kernel : ∀ t : Fin grid1.N, cond2 (grid1.coords t) ↔ t.val = 23)
/-- Phase 1 off its step 1 is the points from 25 on, but 26. -/
theorem hcond3 : ∀ t : Fin cfg1.N, k1_cond3 (grid1.coords t) = 1#1 ↔ (25 ≤ t.val ∧ t.val ≠ 26) :=
  (by decide +kernel : ∀ t : Fin grid1.N, k1_cond3 (grid1.coords t) = 1#1 ↔ (25 ≤ t.val ∧ t.val ≠ 26))
/-- Phase 1's step 1 is point 26. -/
theorem hcond4 : ∀ t : Fin cfg1.N, k1_cond4 (grid1.coords t) = 1#1 ↔ t.val = 26 :=
  (by decide +kernel : ∀ t : Fin grid1.N, k1_cond4 (grid1.coords t) = 1#1 ↔ t.val = 26)

/-- In phase 0 the scratch rows written at point `t` start at row `400 t`. -/
theorem off1_eq : ∀ t : Fin cfg1.N, t.val < 25 → k1_off1 (grid1.coords t) = ![400 * t.val, 0] :=
  (by decide +kernel : ∀ t : Fin grid1.N, t.val < 25 → k1_off1 (grid1.coords t) = ![400 * t.val, 0])

/-! ## Where the output window is idle, and where it is written back -/

theorem live_in : ∀ (w : Fin cfg1.W), w.val < 5 → ∀ t : Fin cfg1.N, cfg1.idle w (grid1.coords t) = false := by decide +kernel
theorem idle_out : ∀ t : Fin cfg1.N, t.val < 25 → cfg1.idle 5 (grid1.coords t) = true := by decide +kernel
theorem noflush_out : ∀ t : Fin cfg1.N, t.val < 25 → (cfg1.win 5).flush t = false := by decide +kernel
theorem live_out : ∀ t : Fin cfg1.N, 25 ≤ t.val → cfg1.idle 5 (grid1.coords t) = false := by decide +kernel
theorem flush_out : ∀ t : Fin cfg1.N, 25 ≤ t.val → (cfg1.win 5).flush t = true := by decide +kernel

/-! ## The windows' blocks, under their literal types -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first layer's product `A = x · W1`, whole. -/
abbrev ablk (c : Dev nD) (t : Fin cfg1.N) : Vec F S10000x64 .f32 := iblk1 V c 0 t
/-- The 400 rows of `norm` the window holds at point `t`. -/
abbrev nblk (c : Dev nD) (t : Fin cfg1.N) : Vec F S400x10000 .f32 := iblk1 V c 1 t
/-- `b1` as a row. -/
abbrev b1blk (c : Dev nD) (t : Fin cfg1.N) : Vec F S1x64 .f32 := iblk1 V c 2 t
/-- `W2`. -/
abbrev w2blk (c : Dev nD) (t : Fin cfg1.N) : Vec F S64x16 .f32 := iblk1 V c 3 t
/-- `b2` as a row. -/
abbrev b2blk (c : Dev nD) (t : Fin cfg1.N) : Vec F S1x16 .f32 := iblk1 V c 4 t

/-! ## What the two scratch buffers come to hold -/

/-- The 400 rows of `B` computed at a phase-0 point: `relu(norm rows · A + b1) · W2`. -/
def Bat (c : Dev nD) (t : Fin cfg1.N) : Vec F S400x16 .f32 :=
  k1_pay1 (nblk V c t) (ablk V c t) (b1blk V c t) (w2blk V c t)

/-- `B`, whole: row `r` is row `r % 400` of the block computed at point `r / 400`. -/
def Bfull (c : Dev nD) : Vec F S10000x16 .f32 := fun j =>
  Bat V c (pt ((j 0).val / 400) (by have := idx2_lt0 j; omega)) (ix2 ⟨(j 0).val % 400, Nat.mod_lt _ (by decide)⟩ ⟨(j 1).val, idx2_lt1 j⟩)

/-- The rows of `norm` phase 1 multiplies at point `t`: the window's own, but at point 26 the copy made at point 23. -/
def srcPt (t : Fin cfg1.N) : Fin cfg1.N := if t.val = 26 then pt 23 (by decide) else t

/-- The output block a phase-1 point writes: the row-wise log-softmax of `norm rows · B + b2`. -/
def outAt (c : Dev nD) (t : Fin cfg1.N) : Vec F S400x16 .f32 :=
  k1_pay3 (nblk V c (srcPt t)) (Bfull V c) (b2blk V c t)

/-- The rectangle of scratch rows a phase-0 point writes. -/
abbrev rectB (i : grid1.Coords) (h1 : k1_cond1 i = 1#1) : Rect S10000x16 :=
  Rect.unit (s := S10000x16) (k1_off1 i) S400x16.size (k1_off1_inb i h1)

/-- What is known of the scratch contents `d` (for `B`) and `e` (the norm copy) before point `n`: the rows of `B`
    below `400 n` are in place, and from point 24 on the copy is the norm block of point 23. -/
def Inv (c : Dev nD) (n : ℕ) (d : Vec F S10000x16 .f32) (e : Vec F S400x10000 .f32) : Prop :=
  (∀ j : S10000x16.Idx, (j 0).val < 400 * n → d j = Bfull V c j) ∧ (24 ≤ n → e = nblk V c (pt 23 (by decide)))

theorem Inv_zero (c : Dev nD) (d : Vec F S10000x16 .f32) (e : Vec F S400x10000 .f32) : Inv V c 0 d e :=
  ⟨fun j h => absurd h (by omega), fun h => absurd h (by omega)⟩

/-- From point 25 on the scratch IS `B`. -/
theorem Inv_full (c : Dev nD) (n : ℕ) (hn : 25 ≤ n) (d : Vec F S10000x16 .f32) (e : Vec F S400x10000 .f32) (h : Inv V c n d e) :
    d = Bfull V c ∧ e = nblk V c (pt 23 (by decide)) :=
  ⟨funext fun j => h.1 j (by have := idx2_lt0 j; omega), h.2 (by omega)⟩

/-- Phase 1 changes neither scratch. -/
theorem Inv_keep (c : Dev nD) (n : ℕ) (hn : 25 ≤ n) (d : Vec F S10000x16 .f32) (e : Vec F S400x10000 .f32) (h : Inv V c n d e) :
    Inv V c (n + 1) d e :=
  ⟨fun j _ => (Inv_full V c n hn d e h).1 ▸ rfl, fun _ => (Inv_full V c n hn d e h).2⟩

/-! ## The scratch operands as memrefs, and the region invariant -/

abbrev scB : Memref sig .tc .vmem S10000x16 .f32 := Memref.whole cc1_scratch0
abbrev scN : Memref sig .tc .vmem S400x10000 .f32 := Memref.whole cc1_scratch1

/-- Before point `n`: the two scratch buffers at contents the invariant describes, every other scoped buffer that is
    no staging buffer of this call at anything, the generator register at some state. -/
def PhiS (c : Dev nD) (n : ℕ) : sProp 𝕄 :=
  iprop((∃ d e, ⌜Inv V c n d e⌝ ∗ owns (c : Thread nD τ) scB fullShare d ∗ owns (c : Thread nD τ) scN fullShare e)
    ∗ Pipeline.scopedRestBut (Ix := Unit) (Name := ℕ) (U := UR sig nD τ) (Lvl := ℕ) (Val := Elt F) spec1 c [cc1_scratch0, cc1_scratch1]
    ∗ ∃ r, prngReg c r)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt V c t
  Φ t := PhiS V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt V c t := by dsimp only [dat1]

theorem Phi_eq (c : Dev nD) (t : Fin (cfg1.N + 1)) : (dat1 V c).Φ t = PhiS V c t.val := by dsimp only [dat1]

end Cert.KernelIdeal.Gcn

end
-- ==== Proof.KI.Boundary.lean ====
/-
  The buffers' contents at the boundaries of @main: the launch memory; after the first pallas_call, its arrays at what
  its write-backs leave and every other buffer as entered; after the two reshapes of the biases; after the second
  pallas_call likewise.  What the second region finds in each of its operands is read back through these: `A`'s array
  at the first region's result, `norm` and `W2` as launched, the two bias rows the reshapes of the launched biases.
-/
import proofs.«146261_g85014582657441_cont_9to1_m_926_22_alg».proof.Proof.KI.XW
import proofs.«146261_g85014582657441_cont_9to1_m_926_22_alg».proof.Proof.KI.Gcn

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the first region's entry). -/
abbrev W0 : Dev nD → Valuation τ sig (Elt F) := fun c b => m (c, b)
/-- The same read at the TensorCore's references. -/
abbrev Vin0 : (c : Dev nD) → (b : Ref sig .tc) → Buf (Elt F) ((c : Thread nD τ).loc b) := fun c b => W0 m c b
/-- At the first region's exit: its arrays at what the pipeline leaves, every other buffer as entered. -/
def W1 (c : Dev nD) : Valuation τ sig (Elt F) :=
  Pipeline.withArrays spec0 c (W0 m c) fun w => (XW.dat0 (Vin0 m) c).arrAt w cfg0.N
/-- After the two reshapes (the second region's entry). -/
abbrev W2 : Dev nD → Valuation τ sig (Elt F) := fun c => StableHlo.after hostOps1 (W1 m c)
/-- The same read at the TensorCore's references. -/
abbrev Vin1 : (c : Dev nD) → (b : Ref sig .tc) → Buf (Elt F) ((c : Thread nD τ).loc b) := fun c b => W2 m c b
/-- At the second region's exit. -/
def W3 (c : Dev nD) : Valuation τ sig (Elt F) :=
  Pipeline.withArrays spec1 c (W2 m c) fun w => (Gcn.dat1 (Vin1 m) c).arrAt w cfg1.N

/-! ## The boundary contents at a region's arrays and off them -/

theorem W1_arr (c : Dev nD) (w : Fin cfg0.W) :
    W1 m c (Proc.devRef .tc (Pipeline.arrRef spec0 w)) = (XW.dat0 (Vin0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W3_arr (c : Dev nD) (w : Fin cfg1.W) :
    W3 m c (Proc.devRef .tc (Pipeline.arrRef spec1 w)) = (Gcn.dat1 (Vin1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb

/-- The two reshapes write only the two rows: any other buffer keeps its contents through them. -/
theorem reshapes_keep (V : Valuation τ sig (Elt F)) (b : Ref sig .tc) (h1 : b ≠ main_v1) (h2 : b ≠ main_v2) :
    StableHlo.after (hostOps1 (F := F)) V (Proc.devRef .tc b) = V (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2⟩))

/-! ## What the second region finds in its operands -/

theorem Vin0_main_arg0 (c : Dev nD) : Vin0 m c main_arg0 = m ((c : Thread nD τ).loc main_arg0) := rfl
theorem Vin0_main_arg2 (c : Dev nD) : Vin0 m c main_arg2 = m ((c : Thread nD τ).loc main_arg2) := rfl

/-- `A`'s array holds what the first region's write-back left. -/
theorem Vin1_main_v0 (c : Dev nD) : Vin1 m c main_v0 = (XW.dat0 (Vin0 m) c).arrAt 2 cfg0.N :=
  (reshapes_keep (W1 m c) main_v0 (by decide) (by decide)).trans (W1_arr m c 2)
theorem Vin1_main_arg1 (c : Dev nD) : Vin1 m c main_arg1 = m ((c : Thread nD τ).loc main_arg1) :=
  (reshapes_keep (W1 m c) main_arg1 (by decide) (by decide)).trans (W1_of_ne m c main_arg1 (by decide))
theorem Vin1_main_arg4 (c : Dev nD) : Vin1 m c main_arg4 = m ((c : Thread nD τ).loc main_arg4) :=
  (reshapes_keep (W1 m c) main_arg4 (by decide) (by decide)).trans (W1_of_ne m c main_arg4 (by decide))
/-- `b1` as a row: the reshape of the argument. -/
theorem Vin1_main_v1 (c : Dev nD) :
    (Vin1 m c main_v1 : S1x64.Idx → Elt F .f32) = shapeCast S1x64 (m ((c : Thread nD τ).loc main_arg3) : S64.Idx → Elt F .f32) shapeCasts_S64_S1x64 := by
  dsimp only [Vin1, W2, hostOps1]
  after_results
  rw [W1_of_ne m c main_arg3 (by decide)]
  rfl
/-- `b2` as a row. -/
theorem Vin1_main_v2 (c : Dev nD) :
    (Vin1 m c main_v2 : S1x16.Idx → Elt F .f32) = shapeCast S1x16 (m ((c : Thread nD τ).loc main_arg5) : S16.Idx → Elt F .f32) shapeCasts_S16_S1x16 := by
  dsimp only [Vin1, W2, hostOps1]
  after_results
  rw [W1_of_ne m c main_arg5 (by decide)]
  rfl

end Cert.KernelIdeal.Whole

end
-- ==== Proof.KI.GcnWindows.lean ====
/-
  The second pallas_call's windows and invariant.  Each input window's staging buffer holds, when the body runs at a
  point, the block the point's index map names: fetched there, or left in place since the index did not move.  The
  region's invariant starts from the scoped rest at anything (nothing is known of the scratch before the first point)
  and can always forget what it knows.
-/
import proofs.«146261_g85014582657441_cont_9to1_m_926_22_alg».proof.Proof.KI.Gcn

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- The scoped rest split at the two scratch buffers, each as its memref owned at some contents. -/
theorem scoped1_split (c : Dev nD) :
    (Pipeline.scopedRest (Ix := Unit) (Name := ℕ) (U := UR sig nD τ) (Lvl := ℕ) (Val := Elt F) spec1 c : sProp 𝕄)
      = iprop(((∃ d, owns (c : Thread nD τ) scB fullShare d) ∗ (∃ e, owns (c : Thread nD τ) scN fullShare e))
          ∗ Pipeline.scopedRestBut (Ix := Unit) (Name := ℕ) (U := UR sig nD τ) (Lvl := ℕ) (Val := Elt F) spec1 c [cc1_scratch0, cc1_scratch1]) := by
  rw [Pipeline.scopedRest_split_of_list spec1 c [cc1_scratch0, cc1_scratch1] (by decide) (by decide)]
  simp only [scB, scN, owns_whole]; try rfl

/-- What the launch hands the region is the invariant before the first point. -/
theorem Phi_in (c : Dev nD) : (Pipeline.ΦA spec1 c : sProp 𝕄) ⊢ PhiS V c 0 := by
  unfold Pipeline.ΦA PhiS
  rw [scoped1_split]
  iintro ⟨⟨⟨⟨%d, Hd⟩, ⟨%e, He⟩⟩, Hrest⟩, Hr⟩
  isplitl [Hd He]
  · iexists d; iexists e
    isplitr; · ipureintro; exact Inv_zero V c d e
    isplitl [Hd]; · iexact Hd
    iexact He
  isplitl [Hrest]; · iexact Hrest
  iexact Hr

/-- Before or after any point the invariant gives the scoped rest back: what it knows of the scratch is forgotten. -/
theorem Phi_out (c : Dev nD) (n : ℕ) : PhiS V c n ⊢ (Pipeline.ΦA spec1 c : sProp 𝕄) := by
  unfold Pipeline.ΦA PhiS
  rw [scoped1_split]
  iintro ⟨⟨%d, %e, %_h, Hd, He⟩, Hrest, Hr⟩
  isplitr [Hr]
  · isplitl [Hd He]
    · isplitl [Hd]; · iexists d; iexact Hd
      iexists e; iexact He
    iexact Hrest
  iexact Hr

end Cert.KernelIdeal.Gcn

end
-- ==== Proof.KI.GcnStep.lean ====
/-
  One phase-0 point stores its 400 rows of `B` at rows `400 t .. 400 t + 400` of the scratch: the rows below are
  untouched and already in place, the rows stored are by definition `B`'s, so the rows below `400 (t + 1)` are in
  place afterwards.  At point 23 the norm block is copied too, and the copy is the block itself.
-/
import proofs.«146261_g85014582657441_cont_9to1_m_926_22_alg».proof.Proof.KI.Gcn
import Idealize.ShloMosaic.Lib.Pipeline.Value

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The offset of the rows stored at a phase-0 point, one axis at a time. -/
theorem off1_0 (t : Fin cfg1.N) (ht : t.val < 25) : k1_off1 (grid1.coords t) 0 = 400 * t.val := by
  rw [off1_eq t ht]; rfl

theorem off1_1 (t : Fin cfg1.N) (ht : t.val < 25) : k1_off1 (grid1.coords t) 1 = 0 := by
  rw [off1_eq t ht]; rfl

/-- Element `x` of the block stored at point `t` lands at row `400 t + x₀`, column `x₁`; `B` read there is
    row `x₀` of the block of point `(400 t + x₀) / 400 = t`: the element stored. -/
theorem Bfull_emb (c : Dev nD) (t : Fin cfg1.N) (ht : t.val < 25) (h1 : k1_cond1 (grid1.coords t) = 1#1)
    (x : (rectB (grid1.coords t) h1).shape.Idx) :
    Bfull V c ((rectB (grid1.coords t) h1).emb x) = Bat V c t x := by
  have hx0 : (x 0).val < 400 := (x 0).isLt
  have hx1 : (x 1).val < 16 := (x 1).isLt
  have e0 : (((rectB (grid1.coords t) h1).emb x) 0).val = 400 * t.val + (x 0).val := by
    rw [Rect.emb_apply, Rect.off_unit, Rect.stride_unit, off1_0 t ht, Nat.one_mul]
  have e1 : (((rectB (grid1.coords t) h1).emb x) 1).val = (x 1).val := by
    rw [Rect.emb_apply, Rect.off_unit, Rect.stride_unit, off1_1 t ht, Nat.one_mul, Nat.zero_add]
  unfold Bfull
  refine congrArg₂ (fun a b => Bat V c a b) (Fin.ext ?_) (funext fun a => ?_)
  · show (((rectB (grid1.coords t) h1).emb x) 0).val / 400 = t.val
    rw [e0]; omega
  · match a with
    | ⟨0, _⟩ =>
      refine Fin.ext ?_
      show (((rectB (grid1.coords t) h1).emb x) 0).val % 400 = (x 0).val
      rw [e0]; omega
    | ⟨1, _⟩ =>
      refine Fin.ext ?_
      show (((rectB (grid1.coords t) h1).emb x) 1).val = (x 1).val
      exact e1

/-- After the store the rows below `400 (t + 1)` are `B`'s: those stored by the computation above, those below
    `400 t` because the store leaves them alone. -/
theorem rows_step (c : Dev nD) (t : Fin cfg1.N) (ht : t.val < 25) (h1 : k1_cond1 (grid1.coords t) = 1#1)
    (d : Vec F S10000x16 .f32) (h : ∀ j : S10000x16.Idx, (j 0).val < 400 * t.val → d j = Bfull V c j) :
    ∀ j : S10000x16.Idx, (j 0).val < 400 * (t.val + 1) →
      (rectB (grid1.coords t) h1).overlay d (Bat V c t) j = Bfull V c j := by
  intro j hj
  by_cases hmem : j ∈ (rectB (grid1.coords t) h1).set
  · obtain ⟨x, rfl⟩ := (rectB (grid1.coords t) h1).exists_idx_of_mem hmem
    show (rectB (grid1.coords t) h1).overlay d (Bat V c t) ((rectB (grid1.coords t) h1).emb x) = _
    rw [Rect.overlay_emb]
    exact (Bfull_emb V c t ht h1 x).symm
  · rw [Rect.overlay_of_not_mem _ _ _ hmem]
    refine h j ?_
    by_contra hge
    refine hmem (Rect.mem_set_unit.mpr fun a => ?_)
    have hj1 : (j 1).val < 16 := idx2_lt1 j
    match a with
    | ⟨0, _⟩ =>
      show k1_off1 (grid1.coords t) 0 ≤ (j 0).val ∧ (j 0).val < k1_off1 (grid1.coords t) 0 + 400
      rw [off1_0 t ht]; omega
    | ⟨1, _⟩ =>
      show k1_off1 (grid1.coords t) 1 ≤ (j 1).val ∧ (j 1).val < k1_off1 (grid1.coords t) 1 + 16
      rw [off1_1 t ht]; omega

theorem Inv_step (c : Dev nD) (t : Fin cfg1.N) (ht : t.val < 25) (h1 : k1_cond1 (grid1.coords t) = 1#1)
    (d : Vec F S10000x16 .f32) (e : Vec F S400x10000 .f32) (h : Inv V c t.val d e) (ht23 : t.val ≠ 23) :
    Inv V c (t.val + 1) ((rectB (grid1.coords t) h1).overlay d (Bat V c t)) e :=
  ⟨rows_step V c t ht h1 d h.1, fun h24 => h.2 (by omega)⟩

theorem Inv_step23 (c : Dev nD) (t : Fin cfg1.N) (ht : t.val = 23) (h1 : k1_cond1 (grid1.coords t) = 1#1)
    (d : Vec F S10000x16 .f32) (e : Vec F S400x10000 .f32) (h : Inv V c t.val d e) :
    Inv V c (t.val + 1) ((rectB (grid1.coords t) h1).overlay d (Bat V c t)) (k1_pay2 (nblk V c t)) := by
  refine ⟨rows_step V c t (by omega) h1 d h.1, fun _ => ?_⟩
  have htp : t = pt 23 (by decide) := Fin.ext ht
  show shapeCast S400x10000 (nblk V c t) shapeCasts_S400x10000_S400x10000 = nblk V c (pt 23 (by decide))
  rw [shapeCast_self, htp]

end Cert.KernelIdeal.Gcn

end
-- ==== Proof.KI.GcnFill.lean ====
/-
  The body at a phase-0 point, on any whole memrefs: it reads the norm rows, `A`, `b1` and `W2`, and stores
  `relu(norm rows · A + b1) · W2` into 400 rows of the `B` scratch, leaving every other row of it; at step 23 it also
  stores the norm rows into the second scratch.  Nothing else is written.
-/
import proofs.«146261_g85014582657441_cont_9to1_m_926_22_alg».proof.Proof.KI.Gcn

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Three facts about loads and stores through a whole memref -/

theorem zero2 : (![0, 0] : Fin 2 → ℕ) = fun _ => 0 := funext fun a => by fin_cases a <;> rfl

section Whole

variable {Val : EltTy → Type} {κ : Kind} {sp : Space} {s : Shape} {e : EltTy}

/-- A load of the whole shape (the unit rectangle at zero offsets) through a whole memref held at the contents that
    read `X` reads `X`. -/
theorem readAt_full {m : Memref sig κ sp s e} (h : m.IsWhole) (X : s.Idx → Val e) {off : Fin s.rank → ℕ}
    (ho : off = fun _ => 0) (inb : ∀ a, off a + s.size a ≤ s.size a) :
    View.readAt Val m.view (Rect.unit (s := s) off s.size inb).toLoadRect (h.unread X) = X := by
  subst ho
  rw [View.readAt_eq_ld, h.read_unread]
  funext x; show X ((Rect.whole s).emb x) = X x; rw [Rect.emb_whole_apply]

/-- After one store through the rectangle `r`, a whole memref that read `X` reads `X` with its part on `r` replaced by
    the payload: under the rectangle the payload, elsewhere what was there. -/
theorem read_writes_one {m : Memref sig κ sp s e} (h : m.IsWhole) (X : s.Idx → Val e) (r : Rect s) (w : r.shape.Idx → Val e) :
    m.view.read Val (m.view.writes Val (h.unread X) [(⟨r, w⟩ : View.Piece Val s e)]) = r.overlay X w := by
  funext y
  by_cases hy : y ∈ r.set
  · obtain ⟨x, rfl⟩ : ∃ x, r.emb x = y := r.exists_idx_of_mem hy
    rw [View.read_writes_cons_emb, Rect.overlay_emb]
  · rw [View.read_writes_apply_of_forall_not_mem _ _ y _ (fun p hp => by rw [List.mem_singleton.mp hp]; exact hy),
      h.read_unread, Rect.overlay_of_not_mem _ _ _ hy]

/-- One store of the whole shape leaves its payload, whatever the buffer held. -/
theorem read_writes_full (v : View sig κ sp s e) (f : v.ty.Contents Val) {off : Fin s.rank → ℕ} (ho : off = fun _ => 0)
    (inb : ∀ a, off a + s.size a ≤ s.size a) (w : s.Idx → Val e) :
    v.read Val (v.writes Val f [(⟨Rect.unit (s := s) off s.size inb, w⟩ : View.Piece Val s e)]) = w := by
  subst ho; funext y
  have hr := View.read_writes_cons_emb v f (Rect.whole s) w [] y
  rw [Rect.emb_whole_apply] at hr; exact hr

end Whole

set_option maxHeartbeats 1000000 in
/-- Phase 0 off step 23: only the first branch is taken. -/
theorem run_fill (c : Dev nD) (E : Set ℕ) (i : grid1.Coords) (h1 : k1_cond1 i = 1#1) (h2 : ¬ cond2 i) (h3 : ¬ k1_cond3 i = 1#1) (h4 : ¬ k1_cond4 i = 1#1)
    (arg2 : Memref sig .tc .vmem S10000x64 .f32) (harg2 : arg2.IsWhole) (arg3 : Memref sig .tc .vmem S400x10000 .f32) (harg3 : arg3.IsWhole)
    (arg4 : Memref sig .tc .vmem S1x64 .f32) (harg4 : arg4.IsWhole) (arg5 : Memref sig .tc .vmem S64x16 .f32) (harg5 : arg5.IsWhole)
    (arg6 : Memref sig .tc .vmem S1x16 .f32) (harg6 : arg6.IsWhole) (arg7 : Memref sig .tc .vmem S400x16 .f32) (harg7 : arg7.IsWhole)
    (arg8 : Memref sig .tc .vmem S10000x16 .f32) (harg8 : arg8.IsWhole) (arg9 : Memref sig .tc .vmem S400x10000 .f32) (harg9 : arg9.IsWhole)
    (x2 : Vec F S10000x64 .f32) (x3 : Vec F S400x10000 .f32) (x4 : Vec F S1x64 .f32) (x5 : Vec F S64x16 .f32) (d : Vec F S10000x16 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg8 fullShare d
        ∗ (iprop(owns (c : Thread nD τ) arg2 fullShare x2 ∗ owns (c : Thread nD τ) arg3 fullShare x3 ∗ owns (c : Thread nD τ) arg4 fullShare x4
            ∗ owns (c : Thread nD τ) arg5 fullShare x5
            ∗ owns (c : Thread nD τ) arg8 fullShare ((rectB i h1).overlay d (k1_pay1 x3 x2 x4 x5))) -∗ K ⟨⟩))
      ⊢ wp frame (wpE (defs₀ (F := F)) Variants.none c none) E (cc1__gcn_body i arg2 harg2 arg3 harg3 arg4 harg4 arg5 harg5 arg6 harg6 arg7 harg7 arg8 harg8 arg9 harg9) K := by
  simp only [cc1__gcn_body_eq_skeleton]; unfold cc1__gcn_body_skel
  unfold owns
  iintro ⟨⟨%f2, %hf2, H2⟩, ⟨%f3, %hf3, H3⟩, ⟨%f4, %hf4, H4⟩, ⟨%f5, %hf5, H5⟩, ⟨%f8, %hf8, H8⟩, Hk⟩
  obtain rfl := harg2.eq_unread hf2; obtain rfl := harg3.eq_unread hf3; obtain rfl := harg4.eq_unread hf4
  obtain rfl := harg5.eq_unread hf5; obtain rfl := harg8.eq_unread hf8
  sl_exec (disch := first | exact h1 | exact h2 | exact h3 | exact h4)
  -- each whole-shape load read the contents its memref holds
  rw [readAt_full harg3 x3 zero2, readAt_full harg2 x2 zero2, readAt_full harg4 x4 zero2, readAt_full harg5 x5 zero2]
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  iexists _; isplitr; · ipureintro; exact read_writes_one harg8 d (rectB i h1) (k1_pay1 x3 x2 x4 x5)
  iexact H8

set_option maxHeartbeats 1000000 in
/-- Phase 0 at step 23: the first two branches are taken. -/
theorem run_fill_copy (c : Dev nD) (E : Set ℕ) (i : grid1.Coords) (h1 : k1_cond1 i = 1#1) (h2 : cond2 i) (h3 : ¬ k1_cond3 i = 1#1) (h4 : ¬ k1_cond4 i = 1#1)
    (arg2 : Memref sig .tc .vmem S10000x64 .f32) (harg2 : arg2.IsWhole) (arg3 : Memref sig .tc .vmem S400x10000 .f32) (harg3 : arg3.IsWhole)
    (arg4 : Memref sig .tc .vmem S1x64 .f32) (harg4 : arg4.IsWhole) (arg5 : Memref sig .tc .vmem S64x16 .f32) (harg5 : arg5.IsWhole)
    (arg6 : Memref sig .tc .vmem S1x16 .f32) (harg6 : arg6.IsWhole) (arg7 : Memref sig .tc .vmem S400x16 .f32) (harg7 : arg7.IsWhole)
    (arg8 : Memref sig .tc .vmem S10000x16 .f32) (harg8 : arg8.IsWhole) (arg9 : Memref sig .tc .vmem S400x10000 .f32) (harg9 : arg9.IsWhole)
    (x2 : Vec F S10000x64 .f32) (x3 : Vec F S400x10000 .f32) (x4 : Vec F S1x64 .f32) (x5 : Vec F S64x16 .f32) (d : Vec F S10000x16 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg8 fullShare d ∗ (∃ e, owns (c : Thread nD τ) arg9 fullShare e)
        ∗ (iprop(owns (c : Thread nD τ) arg2 fullShare x2 ∗ owns (c : Thread nD τ) arg3 fullShare x3 ∗ owns (c : Thread nD τ) arg4 fullShare x4
            ∗ owns (c : Thread nD τ) arg5 fullShare x5
            ∗ owns (c : Thread nD τ) arg8 fullShare ((rectB i h1).overlay d (k1_pay1 x3 x2 x4 x5))
            ∗ owns (c : Thread nD τ) arg9 fullShare (k1_pay2 x3)) -∗ K ⟨⟩))
      ⊢ wp frame (wpE (defs₀ (F := F)) Variants.none c none) E (cc1__gcn_body i arg2 harg2 arg3 harg3 arg4 harg4 arg5 harg5 arg6 harg6 arg7 harg7 arg8 harg8 arg9 harg9) K := by
  simp only [cc1__gcn_body_eq_skeleton]; unfold cc1__gcn_body_skel
  unfold owns
  iintro ⟨⟨%f2, %hf2, H2⟩, ⟨%f3, %hf3, H3⟩, ⟨%f4, %hf4, H4⟩, ⟨%f5, %hf5, H5⟩, ⟨%f8, %hf8, H8⟩, ⟨%e9, %f9, -, H9⟩, Hk⟩
  obtain rfl := harg2.eq_unread hf2; obtain rfl := harg3.eq_unread hf3; obtain rfl := harg4.eq_unread hf4
  obtain rfl := harg5.eq_unread hf5; obtain rfl := harg8.eq_unread hf8
  sl_exec (disch := first | exact h1 | exact h2 | exact h3 | exact h4)
  -- each whole-shape load read the contents its memref holds
  rw [readAt_full harg3 x3 zero2, readAt_full harg2 x2 zero2, readAt_full harg4 x4 zero2, readAt_full harg5 x5 zero2]
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H8]
  · iexists _; isplitr; · ipureintro; exact read_writes_one harg8 d (rectB i h1) (k1_pay1 x3 x2 x4 x5)
    iexact H8
  iexists _; isplitr; · ipureintro; exact read_writes_full arg9.view f9 zero2 inb_S400x10000_S400x10000_0_0 (k1_pay2 x3)
  iexact H9

end Cert.KernelIdeal.Gcn

end
-- ==== Proof.KI.GcnEmit.lean ====
/-
  The body at a phase-1 point, on any whole memrefs: it reads 400 rows of `norm` (the window's, or at step 1 the copy
  in the second scratch), the whole `B` scratch and `b2`, and stores the row-wise log-softmax of `rows · B + b2` into the
  output block.  Neither scratch is written.
-/
import proofs.«146261_g85014582657441_cont_9to1_m_926_22_alg».proof.Proof.KI.Gcn
import Idealize.ShloMosaic.Lib.Pipeline.Value

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Full-rectangle loads and stores -/

namespace Emit

/-- The offsets `![0, 0]` are the zero offsets. -/
theorem zeros2 : (![0, 0] : Fin 2 → ℕ) = fun _ => 0 := by
  funext a; match a with
  | ⟨0, _⟩ => rfl
  | ⟨1, _⟩ => rfl

/-- A load through the full rectangle of a whole memref held at the contents that read `X` reads `X`. -/
theorem readAt_full {s : Shape} {e : EltTy} {m : Memref sig .tc .vmem s e} (h : m.IsWhole) (X : s.Idx → Elt F e)
    {off : Fin s.rank → ℕ} (hz : off = fun _ => 0) (inb : ∀ a, off a + s.size a ≤ s.size a) :
    View.readAt (Elt F) m.view (Rect.unit (s := s) off s.size inb).toLoadRect (h.unread X) = X := by
  rw [View.readAt_eq_ld, h.read_unread]; exact View.ld_unit_zero hz inb X

/-- One store through the full rectangle of a buffer leaves its payload there, whatever the buffer held. -/
theorem read_writes_full {s : Shape} {e : EltTy} {κ : Kind} {sp : Space} (v : View sig κ sp s e) (f : v.ty.Contents (Elt F))
    {off : Fin s.rank → ℕ} (hz : off = fun _ => 0) (inb : ∀ a, off a + s.size a ≤ s.size a) (w : s.Idx → Elt F e) :
    v.read (Elt F) (v.writes (Elt F) f [(⟨Rect.unit (s := s) off s.size inb, w⟩ : View.Piece (Elt F) s e)]) = w := by
  rw [View.read_writes_eq_canon v f _ (fun y => ⟨_, List.mem_singleton_self _, View.mem_set_unit_zero hz inb y⟩),
    View.canon_unit_zero hz]

end Emit

/-! ## The body at a phase-1 point -/

set_option maxHeartbeats 1000000 in
/-- Phase 1 off step 1: only the third branch is taken. -/
theorem run_emit (c : Dev nD) (E : Set ℕ) (i : grid1.Coords) (h1 : ¬ k1_cond1 i = 1#1) (h2 : ¬ cond2 i) (h3 : k1_cond3 i = 1#1) (h4 : ¬ k1_cond4 i = 1#1)
    (arg2 : Memref sig .tc .vmem S10000x64 .f32) (harg2 : arg2.IsWhole) (arg3 : Memref sig .tc .vmem S400x10000 .f32) (harg3 : arg3.IsWhole)
    (arg4 : Memref sig .tc .vmem S1x64 .f32) (harg4 : arg4.IsWhole) (arg5 : Memref sig .tc .vmem S64x16 .f32) (harg5 : arg5.IsWhole)
    (arg6 : Memref sig .tc .vmem S1x16 .f32) (harg6 : arg6.IsWhole) (arg7 : Memref sig .tc .vmem S400x16 .f32) (harg7 : arg7.IsWhole)
    (arg8 : Memref sig .tc .vmem S10000x16 .f32) (harg8 : arg8.IsWhole) (arg9 : Memref sig .tc .vmem S400x10000 .f32) (harg9 : arg9.IsWhole)
    (x3 : Vec F S400x10000 .f32) (x6 : Vec F S1x16 .f32) (d : Vec F S10000x16 .f32)
    (K : PUnit → sProp 𝕄) :
    iprop(owns (c : Thread nD τ) arg3 fullShare x3 ∗ owns (c : Thread nD τ) arg6 fullShare x6 ∗ owns (c : Thread nD τ) arg8 fullShare d
        ∗ (∃ o, owns (c : Thread nD τ) arg7 fullShare o)
        ∗ (iprop(owns (c : Thread nD τ) arg3 fullShare x3 ∗ owns (c : Thread nD τ) arg6 fullShare x6 ∗ owns (c : Thread nD τ) arg8 fullShare d
            ∗ owns (c : Thread nD τ) arg7 fullShare (k1_pay3 x3 d x6)) -∗ K ⟨⟩))
      ⊢ wp frame (wpE (defs₀ (F := F)) Variants.none c none) E (cc1__gcn_body i arg2 harg2 arg3 harg3 arg4 harg4 arg5 harg5 arg6 harg6 arg7 harg7 arg8 harg8 arg9 harg9) K := by
  simp only [cc1__gcn_body_eq_skeleton]; unfold cc1__gcn_body_skel
  unfold owns
  iintro ⟨⟨%f3, %hf3, H3⟩, ⟨%f6, %hf6, H6⟩, ⟨%f8, %hf8, H8⟩, ⟨%o, %fo, -, H7⟩, Hk⟩
  obtain rfl := harg3.eq_unread hf3; obtain rfl := harg6.eq_unread hf6; obtain rfl := harg8.eq_unread hf8
  sl_exec (disch := first | exact h1 | exact h2 | exact h3 | exact h4)
  sl_step
  iapply Hk
  isplitl [H3]
  · iexists _; isplitr; · ipureintro; exact harg3.read_unread _
    iexact H3
  isplitl [H6]
  · iexists _; isplitr; · ipureintro; exact harg6.read_unread _
    iexact H6
  isplitl [H8]
  · iexists _; isplitr; · ipureintro; exact harg8.read_unread _
    iexact H8
  iexists _; isplitr
  swap; · iexact H7
  ipureintro
  rw [Emit.read_writes_full (s := S400x16) _ _ Emit.zeros2, Emit.readAt_full harg3 x3 Emit.zeros2, Emit.readAt_full harg8 d Emit.zeros2,
    Emit.readAt_full harg6 x6 Emit.zeros2]

set_option maxHeartbeats 1000000 in
/-- Phase 1 at step 1: only the fourth branch is taken; the norm rows are read from the second scratch. -/
theorem run_emit_cached (c : Dev nD) (E : Set ℕ) (i : grid1.Coords) (h1 : ¬ k1_cond1 i = 1#1) (h2 : ¬ cond2 i) (h3 : ¬ k1_cond3 i = 1#1) (h4 : k1_cond4 i = 1#1)
    (arg2 : Memref sig .tc .vmem S10000x64 .f32) (harg2 : arg2.IsWhole) (arg3 : Memref sig .tc .vmem S400x10000 .f32) (harg3 : arg3.IsWhole)
    (arg4 : Memref sig .tc .vmem S1x64 .f32) (harg4 : arg4.IsWhole) (arg5 : Memref sig .tc .vmem S64x16 .f32) (harg5 : arg5.IsWhole)
    (arg6 : Memref sig .tc .vmem S1x16 .f32) (harg6 : arg6.IsWhole) (arg7 : Memref sig .tc .vmem S400x16 .f32) (harg7 : arg7.IsWhole)
    (arg8 : Memref sig .tc .vmem S10000x16 .f32) (harg8 : arg8.IsWhole) (arg9 : Memref sig .tc .vmem S400x10000 .f32) (harg9 : arg9.IsWhole)
    (e : Vec F S400x10000 .f32) (x6 : Vec F S1x16 .f32) (d : Vec F S10000x16 .f32)
    (K : PUnit → sProp 𝕄) :
    iprop(owns (c : Thread nD τ) arg9 fullShare e ∗ owns (c : Thread nD τ) arg6 fullShare x6 ∗ owns (c : Thread nD τ) arg8 fullShare d
        ∗ (∃ o, owns (c : Thread nD τ) arg7 fullShare o)
        ∗ (iprop(owns (c : Thread nD τ) arg9 fullShare e ∗ owns (c : Thread nD τ) arg6 fullShare x6 ∗ owns (c : Thread nD τ) arg8 fullShare d
            ∗ owns (c : Thread nD τ) arg7 fullShare (k1_pay4 e d x6)) -∗ K ⟨⟩))
      ⊢ wp frame (wpE (defs₀ (F := F)) Variants.none c none) E (cc1__gcn_body i arg2 harg2 arg3 harg3 arg4 harg4 arg5 harg5 arg6 harg6 arg7 harg7 arg8 harg8 arg9 harg9) K := by
  simp only [cc1__gcn_body_eq_skeleton]; unfold cc1__gcn_body_skel
  unfold owns
  iintro ⟨⟨%f9, %hf9, H9⟩, ⟨%f6, %hf6, H6⟩, ⟨%f8, %hf8, H8⟩, ⟨%o, %fo, -, H7⟩, Hk⟩
  obtain rfl := harg9.eq_unread hf9; obtain rfl := harg6.eq_unread hf6; obtain rfl := harg8.eq_unread hf8
  sl_exec (disch := first | exact h1 | exact h2 | exact h3 | exact h4)
  sl_step
  iapply Hk
  isplitl [H9]
  · iexists _; isplitr; · ipureintro; exact harg9.read_unread _
    iexact H9
  isplitl [H6]
  · iexists _; isplitr; · ipureintro; exact harg6.read_unread _
    iexact H6
  isplitl [H8]
  · iexists _; isplitr; · ipureintro; exact harg8.read_unread _
    iexact H8
  iexists _; isplitr
  swap; · iexact H7
  ipureintro
  rw [Emit.read_writes_full (s := S400x16) _ _ Emit.zeros2, Emit.readAt_full harg9 e Emit.zeros2, Emit.readAt_full harg8 d Emit.zeros2,
    Emit.readAt_full harg6 x6 Emit.zeros2]

end Cert.KernelIdeal.Gcn

end
-- ==== Proof.KI.GcnBody.lean ====
/-
  The second pallas_call's body obligation.  The point's number decides which branch of the body runs; in phase 0 the
  output window is idle and its buffer goes back as found, and the `B` scratch gains 400 rows (at point 23 the norm
  block is copied as well); in phase 1 both scratches are known, so the block written is the log-softmax block the
  proof data names.
-/
import proofs.«146261_g85014582657441_cont_9to1_m_926_22_alg».proof.Proof.KI.Gcn
import proofs.«146261_g85014582657441_cont_9to1_m_926_22_alg».proof.Proof.KI.GcnStep
import proofs.«146261_g85014582657441_cont_9to1_m_926_22_alg».proof.Proof.KI.GcnFill
import proofs.«146261_g85014582657441_cont_9to1_m_926_22_alg».proof.Proof.KI.GcnEmit
import proofs.«146261_g85014582657441_cont_9to1_m_926_22_alg».proof.Proof.KI.GcnWindows

set_option maxRecDepth 16384

noncomputable section

namespace Cert.KernelIdeal.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [Phi_eq V c t.castSucc, Phi_eq V c t.succ, Fin.coe_castSucc, Fin.val_succ]
  rw [show (dat1 V c).leavesExact 0 t = owns (c : Thread nD τ) (st1_0 t) fullShare (iblk1 V c 0 t) from by
    unfold Dat.leavesExact; rw [live_in 0 (by decide) t, after1_0]]
  rw [show (dat1 V c).leavesExact 1 t = owns (c : Thread nD τ) (st1_1 t) fullShare (iblk1 V c 1 t) from by
    unfold Dat.leavesExact; rw [live_in 1 (by decide) t, after1_1]]
  rw [show (dat1 V c).leavesExact 2 t = owns (c : Thread nD τ) (st1_2 t) fullShare (iblk1 V c 2 t) from by
    unfold Dat.leavesExact; rw [live_in 2 (by decide) t, after1_2]]
  rw [show (dat1 V c).leavesExact 3 t = owns (c : Thread nD τ) (st1_3 t) fullShare (iblk1 V c 3 t) from by
    unfold Dat.leavesExact; rw [live_in 3 (by decide) t, after1_3]]
  rw [show (dat1 V c).leavesExact 4 t = owns (c : Thread nD τ) (st1_4 t) fullShare (iblk1 V c 4 t) from by
    unfold Dat.leavesExact; rw [live_in 4 (by decide) t, after1_4]]
  unfold PhiS
  by_cases h25 : t.val < 25
  · rw [Dat.leavesExact_idle (dat1 V c) 5 t (idle_out t h25) (noflush_out t h25)]
    have h1 : k1_cond1 (grid1.coords t) = 1#1 := (hcond1 t).mpr h25
    have h3 : ¬ k1_cond3 (grid1.coords t) = 1#1 := fun h => absurd ((hcond3 t).mp h).1 (by omega)
    have h4 : ¬ k1_cond4 (grid1.coords t) = 1#1 := fun h => absurd ((hcond4 t).mp h) (by omega)
    by_cases h23 : t.val = 23
    · have h2 : cond2 (grid1.coords t) := (hcond2 t).mpr h23
      iintro ⟨⟨⟨%d, %e, %hInv, HB, HN⟩, Hrest, Hg⟩, Ho, ⟨%d0, H0⟩, ⟨%d1, H1⟩, ⟨%d2, H2⟩, ⟨%d3, H3⟩, ⟨%d4, H4⟩, H5⟩
      iapply (run_fill_copy c Set.univ (grid1.coords t) h1 h2 h3 h4 _ _ _ _ _ _ _ _ _ _ _ _ _ _ _ _
        (ablk V c t) (nblk V c t) (b1blk V c t) (w2blk V c t) d _)
      isplitl [H0]; · iexact H0
      isplitl [H1]; · iexact H1
      isplitl [H2]; · iexact H2
      isplitl [H3]; · iexact H3
      isplitl [HB]; · iexact HB
      isplitl [HN]; · iexists e; iexact HN
      iintro ⟨H0, H1, H2, H3, HB, HN⟩
      isplitl [HB HN Hrest Hg]
      · isplitl [HB HN]
        · iexists ((rectB (grid1.coords t) h1).overlay d (Bat V c t)), (k1_pay2 (nblk V c t))
          isplitr
          · ipureintro; exact Inv_step23 V c t h23 h1 d e hInv
          isplitl [HB]; · iexact HB
          iexact HN
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · have h2 : ¬ cond2 (grid1.coords t) := fun h => h23 ((hcond2 t).mp h)
      iintro ⟨⟨⟨%d, %e, %hInv, HB, HN⟩, Hrest, Hg⟩, Ho, ⟨%d0, H0⟩, ⟨%d1, H1⟩, ⟨%d2, H2⟩, ⟨%d3, H3⟩, ⟨%d4, H4⟩, H5⟩
      iapply (run_fill c Set.univ (grid1.coords t) h1 h2 h3 h4 _ _ _ _ _ _ _ _ _ _ _ _ _ _ _ _
        (ablk V c t) (nblk V c t) (b1blk V c t) (w2blk V c t) d _)
      isplitl [H0]; · iexact H0
      isplitl [H1]; · iexact H1
      isplitl [H2]; · iexact H2
      isplitl [H3]; · iexact H3
      isplitl [HB]; · iexact HB
      iintro ⟨H0, H1, H2, H3, HB⟩
      isplitl [HB HN Hrest Hg]
      · isplitl [HB HN]
        · iexists ((rectB (grid1.coords t) h1).overlay d (Bat V c t)), e
          isplitr
          · ipureintro; exact Inv_step V c t h25 h1 d e hInv h23
          isplitl [HB]; · iexact HB
          iexact HN
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
  · have h25' : 25 ≤ t.val := by omega
    rw [show (dat1 V c).leavesExact 5 t = owns (c : Thread nD τ) (st1_5 t) fullShare (outAt V c t) from by
      unfold Dat.leavesExact; rw [live_out t h25', after1_5]]
    have h1 : ¬ k1_cond1 (grid1.coords t) = 1#1 := fun h => h25 ((hcond1 t).mp h)
    have h2 : ¬ cond2 (grid1.coords t) := fun h => absurd ((hcond2 t).mp h) (by omega)
    by_cases h26 : t.val = 26
    · have h3 : ¬ k1_cond3 (grid1.coords t) = 1#1 := fun h => ((hcond3 t).mp h).2 h26
      have h4 : k1_cond4 (grid1.coords t) = 1#1 := (hcond4 t).mpr h26
      have hout : outAt V c t = k1_pay4 (nblk V c (pt 23 (by decide))) (Bfull V c) (b2blk V c t) := by
        unfold outAt srcPt; rw [if_pos h26]; rfl
      rw [hout]
      iintro ⟨⟨⟨%d, %e, %hInv, HB, HN⟩, Hrest, Hg⟩, Ho, ⟨%d0, H0⟩, ⟨%d1, H1⟩, ⟨%d2, H2⟩, ⟨%d3, H3⟩, ⟨%d4, H4⟩, ⟨%d5, H5⟩⟩
      obtain ⟨rfl, rfl⟩ := Inv_full V c t.val h25' d e hInv
      iapply (run_emit_cached c Set.univ (grid1.coords t) h1 h2 h3 h4 _ _ _ _ _ _ _ _ _ _ _ _ _ _ _ _
        (nblk V c (pt 23 (by decide))) (b2blk V c t) (Bfull V c) _)
      isplitl [HN]; · iexact HN
      isplitl [H4]; · iexact H4
      isplitl [HB]; · iexact HB
      isplitl [H5]; · iexists _; iexact H5
      iintro ⟨HN, H4, HB, H5⟩
      isplitl [HB HN Hrest Hg]
      · isplitl [HB HN]
        · iexists (Bfull V c), (nblk V c (pt 23 (by decide)))
          isplitr
          · ipureintro; exact Inv_keep V c t.val h25' _ _ hInv
          isplitl [HB]; · iexact HB
          iexact HN
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · have h3 : k1_cond3 (grid1.coords t) = 1#1 := (hcond3 t).mpr ⟨h25', h26⟩
      have h4 : ¬ k1_cond4 (grid1.coords t) = 1#1 := fun h => h26 ((hcond4 t).mp h)
      have hout : outAt V c t = k1_pay3 (nblk V c t) (Bfull V c) (b2blk V c t) := by
        unfold outAt srcPt; rw [if_neg h26]
      rw [hout]
      iintro ⟨⟨⟨%d, %e, %hInv, HB, HN⟩, Hrest, Hg⟩, Ho, ⟨%d0, H0⟩, ⟨%d1, H1⟩, ⟨%d2, H2⟩, ⟨%d3, H3⟩, ⟨%d4, H4⟩, ⟨%d5, H5⟩⟩
      obtain ⟨rfl, rfl⟩ := Inv_full V c t.val h25' d e hInv
      iapply (run_emit c Set.univ (grid1.coords t) h1 h2 h3 h4 _ _ _ _ _ _ _ _ _ _ _ _ _ _ _ _
        (nblk V c t) (b2blk V c t) (Bfull V c) _)
      isplitl [H1]; · iexact H1
      isplitl [H4]; · iexact H4
      isplitl [HB]; · iexact HB
      isplitl [H5]; · iexists _; iexact H5
      iintro ⟨H1, H4, HB, H5⟩
      isplitl [HB HN Hrest Hg]
      · isplitl [HB HN]
        · iexists (Bfull V c), (nblk V c (pt 23 (by decide)))
          isplitr
          · ipureintro; exact Inv_keep V c t.val h25' _ _ hInv
          isplitl [HB]; · iexact HB
          iexact HN
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gcn

end
-- ==== Proof.KI.WholeRun.lean ====
/-
  @main, whole: the first pallas_call, the two reshapes of the biases, the second pallas_call.  The buffers' contents at
  the three boundaries are named (the launch memory; each region's arrays at what its write-backs leave, every other
  buffer as entered; a host stretch's results), each region is a segment of the run entered from the contents before it
  and left at the contents after it, and the last contents are read against the final memory: the result array holds
  what the second region's proof data compute, and no argument array has changed.
-/
import proofs.«146261_g85014582657441_cont_9to1_m_926_22_alg».proof.Proof.KI.Boundary
import proofs.«146261_g85014582657441_cont_9to1_m_926_22_alg».proof.Proof.KI.GcnWindows
import proofs.«146261_g85014582657441_cont_9to1_m_926_22_alg».proof.Proof.KI.GcnBody

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

/-- The contents at each region's exit, read at the TensorCore's references. -/
abbrev Vout0 : (c : Dev nD) → (b : Ref sig .tc) → Buf (Elt F) ((c : Thread nD τ).loc b) := fun c b => W1 m c b
abbrev Vout1 : (c : Dev nD) → (b : Ref sig .tc) → Buf (Elt F) ((c : Thread nD τ).loc b) := fun c b => W3 m c b

/-- At a region's exit each of its arrays holds what the pipeline leaves and every other buffer what it held at entry. -/
theorem hF0 (c : Dev nD) (w : Fin cfg0.W) : (XW.dat0 (Vin0 m) c).arrAt w cfg0.N = Vout0 m c (Pipeline.arrRef spec0 w) :=
  (W1_arr m c w).symm
theorem hrest0 (c : Dev nD) : ∀ b, b ∉ Finset.univ.image (Pipeline.arrRef spec0) → Vout0 m c b = Vin0 m c b :=
  fun b hb => W1_of_ne m c b fun w e => hb (Finset.mem_image.mpr ⟨w, Finset.mem_univ _, e⟩)
theorem hF1 (c : Dev nD) (w : Fin cfg1.W) : (Gcn.dat1 (Vin1 m) c).arrAt w cfg1.N = Vout1 m c (Pipeline.arrRef spec1 w) :=
  (W3_arr m c w).symm
theorem hrest1 (c : Dev nD) : ∀ b, b ∉ Finset.univ.image (Pipeline.arrRef spec1) → Vout1 m c b = Vin1 m c b :=
  fun b hb => W3_of_ne m c b fun w e => hb (Finset.mem_image.mpr ⟨w, Finset.mem_univ _, e⟩)

/-! ### The last contents at the result and at each argument

The result is the second region's output array.  No host operation and no region writes an argument: a region reads
it through an input window, whose array ends as entered, or does not touch it, and the reshapes write the two rows
only; so the last contents at an argument walk back to the launch memory. -/

theorem W3_main_v3 (c : Dev nD) : W3 m c (Proc.devRef .tc main_v3) = (Gcn.dat1 (Vin1 m) c).arrAt 5 cfg1.N :=
  W3_arr m c 5

/-- A buffer neither region has as an array and no reshape writes ends as launched. -/
theorem W3_untouched (c : Dev nD) (b : Ref sig .tc) (h0 : ∀ w, Pipeline.arrRef spec0 w ≠ b) (h1 : ∀ w, Pipeline.arrRef spec1 w ≠ b)
    (hv1 : b ≠ main_v1) (hv2 : b ≠ main_v2) : W3 m c (Proc.devRef .tc b) = m ((c : Thread nD τ).loc b) :=
  calc W3 m c (Proc.devRef .tc b)
    _ = W2 m c (Proc.devRef .tc b) := W3_of_ne m c b h1
    _ = W1 m c (Proc.devRef .tc b) := reshapes_keep (W1 m c) b hv1 hv2
    _ = W0 m c (Proc.devRef .tc b) := W1_of_ne m c b h0
    _ = m ((c : Thread nD τ).loc b) := rfl

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := reshapes_keep (W1 m c) main_arg0 (by decide) (by decide)
    _ = W0 m c (Proc.devRef .tc main_arg0) := (W1_arr m c 0).trans (((XW.dat0 (Vin0 m) c).arrAt_in 0 rfl _).trans (XW.A_eq0 (Vin0 m) c 0))
    _ = m ((c : Thread nD τ).loc main_arg0) := rfl
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := reshapes_keep (W1 m c) main_arg2 (by decide) (by decide)
    _ = W0 m c (Proc.devRef .tc main_arg2) := (W1_arr m c 1).trans (((XW.dat0 (Vin0 m) c).arrAt_in 1 rfl _).trans (XW.A_eq0 (Vin0 m) c 1))
    _ = m ((c : Thread nD τ).loc main_arg2) := rfl
theorem W3_main_arg1 (c : Dev nD) : W3 m c (Proc.devRef .tc main_arg1) = m ((c : Thread nD τ).loc main_arg1) :=
  ((W3_arr m c 1).trans (((Gcn.dat1 (Vin1 m) c).arrAt_in 1 rfl _).trans (Gcn.A_eq1 (Vin1 m) c 1))).trans (Vin1_main_arg1 m c)
theorem W3_main_arg4 (c : Dev nD) : W3 m c (Proc.devRef .tc main_arg4) = m ((c : Thread nD τ).loc main_arg4) :=
  ((W3_arr m c 3).trans (((Gcn.dat1 (Vin1 m) c).arrAt_in 3 rfl _).trans (Gcn.A_eq1 (Vin1 m) c 3))).trans (Vin1_main_arg4 m c)
theorem W3_main_arg3 (c : Dev nD) : W3 m c (Proc.devRef .tc main_arg3) = m ((c : Thread nD τ).loc main_arg3) :=
  W3_untouched m c main_arg3 (by decide) (by decide) (by decide) (by decide)
theorem W3_main_arg5 (c : Dev nD) : W3 m c (Proc.devRef .tc main_arg5) = m ((c : Thread nD τ).loc main_arg5) :=
  W3_untouched m c main_arg5 (by decide) (by decide) (by decide) (by decide)

/-! ## The proof data family and the thread state -/

/-- The prefetched tables' admissible contents: no pipeline has a table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => XW.dat0 (Vin0 m) c
  | ⟨1, _⟩ => fun c => Gcn.dat1 (Vin1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- Neither reshape allocates a buffer. -/
theorem hostOps1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The two reshapes as a segment: from every unscoped buffer at the first region's exit contents to the same buffers
    at the reshapes' results. -/
abbrev reshapeSeg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

/-- The last thread state without the debt: every unscoped buffer at the last contents, the generator register at
    some state. -/
abbrev Tlast (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The first pallas_call: entered from the launch memory, left at its arrays' final contents beside every other
    buffer as entered.  Its arrays are split out of the unscoped buffers and put back; the generator register goes
    into the invariant and comes out; nothing is owed. -/
def regXW : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (XW.body_obligation0 (Vin0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered from the reshapes' results, left at the last contents.  Its invariant is entered
    from the scoped rest at anything (nothing is known of the scratch before the first point) and, after the last
    point, forgets what it knows of the scratch. -/
def regGcn : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Gcn.body_obligation1 (Vin1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Gcn.PhiS (Vin1 m) c 0 from rfl]
    refine .trans ?_ (Gcn.Phi_in (Vin1 m) c)
    unfold Pipeline.ΦA
    iintro ⟨Hp, -, Hr⟩
    isplitl [Hr]; · iexact Hr
    iexact Hp
  hout c := by
    rw [Pipeline.ownSems0_none, show (pdats m 1 c).Φ (Fin.last _) = Gcn.PhiS (Vin1 m) c (Fin.last cfg1.N).val from rfl]
    refine (Gcn.Phi_out (Vin1 m) c _).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (Vout1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order: the first pallas_call, the two reshapes, the second pallas_call. -/
abbrev segs : List (Pipeline.Seg (pcfgs (F := F)) adm (pdats m) () defs₀ 𝒱₀ L lv) :=
  [ .region (regXW m), .host (reshapeSeg m), .region (regGcn m) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting; the result
    array ends at what the second region's proof data compute from its entry contents, and every argument as launched. -/
theorem run_all : θ_run defs (onTc (τ := τ) (main (F := F))) ⟨m, fun _ => 0, ρ⟩ (fun r => ∀ c : Dev nD,
      r.2.mem ((c.tc : Thread nD τ).loc main_v3) = (Gcn.dat1 (Vin1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v3 (by decide))).trans (W3_main_v3 m c),
       (h c _ (mem_uc main_arg0 (by decide))).trans (W3_main_arg0 m c),
       (h c _ (mem_uc main_arg1 (by decide))).trans (W3_main_arg1 m c),
       (h c _ (mem_uc main_arg2 (by decide))).trans (W3_main_arg2 m c),
       (h c _ (mem_uc main_arg3 (by decide))).trans (W3_main_arg3 m c),
       (h c _ (mem_uc main_arg4 (by decide))).trans (W3_main_arg4 m c),
       (h c _ (mem_uc main_arg5 (by decide))).trans (W3_main_arg5 m c)⟩)

/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_all m ρ)

end Cert.KernelIdeal.Whole

end
-- ==== Proof.Spec.lean ====
/-
  The function both programs compute, over the extended reals, index by index.  With `x : [10000,128]`, `norm :
  [10000,10000]`, `W1 : [128,64]`, `b1 : [64]`, `W2 : [64,16]`, `b2 : [16]`:
    A[l,j]  = Σ_f x[l,f] · W1[f,j]
    H[k,j]  = max (Σ_l norm[k,l] · A[l,j] + b1[j]) 0
    B[k,c]  = Σ_j H[k,j] · W2[j,c]
    Z[r,c]  = Σ_k norm[r,k] · B[k,c] + b2[c]
    M[r]    = the maximum of Z[r,·], folded from -∞
    out[r,c] = log (exp (Z[r,c] - M[r]) / (0 + Σ_c' exp (Z[r,c'] - M[r])))
  Every sum is a finite sum in a fixed index type, so neither side's order of summation or tiling shows.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev Sx : Shape := ⟨2, ![10000, 128]⟩
abbrev Sn : Shape := ⟨2, ![10000, 10000]⟩
abbrev Sw1 : Shape := ⟨2, ![128, 64]⟩
abbrev Sb1 : Shape := ⟨1, ![64]⟩
abbrev Sw2 : Shape := ⟨2, ![64, 16]⟩
abbrev Sb2 : Shape := ⟨1, ![16]⟩
abbrev So : Shape := ⟨2, ![10000, 16]⟩

variable (x : Sx.Idx → EReal) (norm : Sn.Idx → EReal) (W1 : Sw1.Idx → EReal) (b1 : Sb1.Idx → EReal)
  (W2 : Sw2.Idx → EReal) (b2 : Sb2.Idx → EReal)

/-- The first layer's product `x · W1`. -/
def A (l : Fin 10000) (j : Fin 64) : EReal := ∑ f : Fin 128, x (ix2 l f) * W1 (ix2 f j)

/-- The hidden layer `relu (norm · A + b1)`. -/
def H (k : Fin 10000) (j : Fin 64) : EReal :=
  max ((∑ l : Fin 10000, norm (ix2 k l) * A x W1 l j) + b1 (ix1 j)) (Ideal.ofBits .f32 0x00000000#32)

/-- `H · W2`. -/
def B (k : Fin 10000) (c : Fin 16) : EReal := ∑ j : Fin 64, H x norm W1 b1 k j * W2 (ix2 j c)

/-- The logits `norm · B + b2`. -/
def Z (r : Fin 10000) (c : Fin 16) : EReal := (∑ k : Fin 10000, norm (ix2 r k) * B x norm W1 b1 W2 k c) + b2 (ix1 c)

/-- A row's largest logit, folded from `-∞`. -/
def M (r : Fin 10000) : EReal :=
  (Finset.univ : Finset (Fin 16)).fold max (Ideal.ofBits .f32 0xFF800000#32) (fun c => Z x norm W1 b1 W2 b2 r c)

/-- The shifted exponentials. -/
def Ex (r : Fin 10000) (c : Fin 16) : EReal := Ideal.exp (Z x norm W1 b1 W2 b2 r c - M x norm W1 b1 W2 b2 r)

/-- The row-wise log-softmax of the logits, as both programs spell it. -/
def G : So.Idx → EReal := fun i =>
  Ideal.log (Ideal.div (Ex x norm W1 b1 W2 b2 (i 0) (i 1))
    (Ideal.ofBits .f32 0x00000000#32 + (∑ c : Fin 16, Ex x norm W1 b1 W2 b2 (i 0) c)))

end Cert.Spec

end
-- ==== Proof.RefIsSpec.lean ====
import proofs.«146261_g85014582657441_cont_9to1_m_926_22_alg».proof.Defs
import proofs.«146261_g85014582657441_cont_9to1_m_926_22_alg».proof.Proof.Gen.ReferenceIdeal.Run
import proofs.«146261_g85014582657441_cont_9to1_m_926_22_alg».proof.Proof.Gen.ReferenceIdeal.Read
import proofs.«146261_g85014582657441_cont_9to1_m_926_22_alg».proof.Proof.Spec
import Idealize.ShloMosaic.PureOps.Reduce
import Idealize.ShloMosaic.PureOps.Ideal.Laws
import Idealize.ShloMosaic.Lib.ValueIdx
import Mathlib.Data.Finset.Fold

/-!
  The reference program's result, read index by index, is the specification `Cert.Spec.G` of its six argument arrays:
  the same finite sums over the same index types, the same maximum folded from -∞ (the reference joins that fold with
  -∞ once more, which changes nothing), the same exponentials, quotient and logarithm on the extended reals.
-/

noncomputable section

open scoped BigOperators

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem

variable (x0 : (⟨S10000x128, .f32⟩ : BufTy).Contents (Elt Ideal)) (x1 : (⟨S10000x10000, .f32⟩ : BufTy).Contents (Elt Ideal))
  (x2 : (⟨S128x64, .f32⟩ : BufTy).Contents (Elt Ideal)) (x3 : (⟨S64, .f32⟩ : BufTy).Contents (Elt Ideal))
  (x4 : (⟨S64x16, .f32⟩ : BufTy).Contents (Elt Ideal)) (x5 : (⟨S16, .f32⟩ : BufTy).Contents (Elt Ideal))

/-! ## The first layer -/

/-- `x · W1` at (l, j). -/
theorem v0_eq (l : Fin 10000) (j : Fin 64) : val_main_v0 (F := Ideal) x0 x2 (ix2 l j) = Cert.Spec.A x0 x2 l j := by
  rw [val_main_v0_apply]
  unfold Cert.Spec.A
  refine Finset.sum_congr rfl fun f _ => ?_
  have el : lidx_main_v0 (ix2 l j) f = ix2 l f := funext fun a => Fin.ext (by match a with | ⟨0, _⟩ => rfl | ⟨1, _⟩ => rfl)
  have er : ridx_main_v0 (ix2 l j) f = ix2 f j := funext fun a => Fin.ext (by match a with | ⟨0, _⟩ => rfl | ⟨1, _⟩ => rfl)
  rw [el, er]

/-- The bias `b1` broadcast over the rows, at (k, j). -/
theorem v3_eq (k : Fin 10000) (j : Fin 64) : val_main_v3 (F := Ideal) x3 (ix2 k j) = x3 (ix1 j) := by
  rw [val_main_v3_apply, val_main_v2_apply]
  exact congrArg x3 (funext fun a => Fin.ext (by match a with | ⟨0, _⟩ => rfl))

/-- The hidden layer `relu (norm · A + b1)` at (k, j). -/
theorem v5_eq (k : Fin 10000) (j : Fin 64) :
    val_main_v5 (F := Ideal) x0 x1 x2 x3 (ix2 k j) = Cert.Spec.H x0 x1 x2 x3 k j := by
  rw [val_main_v5_apply, val_main_v4_apply, val_main_v1_apply, v3_eq, val_main_call0_v0_apply, val_main_call0_cst_apply]
  unfold Cert.Spec.H
  simp only [Ideal.maximumf_def, Ideal.addf_def, Ideal.ofBits_def]
  refine congrArg (fun s => max (s + x3 (ix1 j)) (Ideal.ofBits .f32 0x00000000#32)) (Finset.sum_congr rfl fun l _ => ?_)
  have el : lidx_main_v1 (ix2 k j) l = ix2 k l := funext fun a => Fin.ext (by match a with | ⟨0, _⟩ => rfl | ⟨1, _⟩ => rfl)
  have er : ridx_main_v1 (ix2 k j) l = ix2 l j := funext fun a => Fin.ext (by match a with | ⟨0, _⟩ => rfl | ⟨1, _⟩ => rfl)
  rw [el, er, v0_eq]

/-! ## The second layer -/

/-- `H · W2` at (k, c). -/
theorem v6_eq (k : Fin 10000) (c : Fin 16) :
    val_main_v6 (F := Ideal) x0 x1 x2 x3 x4 (ix2 k c) = Cert.Spec.B x0 x1 x2 x3 x4 k c := by
  rw [val_main_v6_apply]
  unfold Cert.Spec.B
  refine Finset.sum_congr rfl fun j _ => ?_
  have el : lidx_main_v6 (ix2 k c) j = ix2 k j := funext fun a => Fin.ext (by match a with | ⟨0, _⟩ => rfl | ⟨1, _⟩ => rfl)
  have er : ridx_main_v6 (ix2 k c) j = ix2 j c := funext fun a => Fin.ext (by match a with | ⟨0, _⟩ => rfl | ⟨1, _⟩ => rfl)
  rw [el, er, v5_eq]

/-- The bias `b2` broadcast over the rows, at (r, c). -/
theorem v9_eq (r : Fin 10000) (c : Fin 16) : val_main_v9 (F := Ideal) x5 (ix2 r c) = x5 (ix1 c) := by
  rw [val_main_v9_apply, val_main_v8_apply]
  exact congrArg x5 (funext fun a => Fin.ext (by match a with | ⟨0, _⟩ => rfl))

/-- The logits `norm · B + b2` at (r, c). -/
theorem v10_eq (r : Fin 10000) (c : Fin 16) :
    val_main_v10 (F := Ideal) x0 x1 x2 x3 x4 x5 (ix2 r c) = Cert.Spec.Z x0 x1 x2 x3 x4 x5 r c := by
  rw [val_main_v10_apply, val_main_v7_apply, v9_eq]
  unfold Cert.Spec.Z
  simp only [Ideal.addf_def]
  refine congrArg (fun s => s + x5 (ix1 c)) (Finset.sum_congr rfl fun k _ => ?_)
  have el : lidx_main_v7 (ix2 r c) k = ix2 r k := funext fun a => Fin.ext (by match a with | ⟨0, _⟩ => rfl | ⟨1, _⟩ => rfl)
  have er : ridx_main_v7 (ix2 r c) k = ix2 k c := funext fun a => Fin.ext (by match a with | ⟨0, _⟩ => rfl | ⟨1, _⟩ => rfl)
  rw [el, er, v6_eq]

/-! ## The row maximum -/

/-- The reduced index `r` with column `k` put back is (r, k). -/
theorem lift_ix2 (h : S10000x16.Reduces [1] S10000) (r : Fin 10000) (k : Fin (S10000x16.size 1)) :
    h.lift (ix1 r) k = ix2 r (⟨k.val, k.isLt⟩ : Fin 16) := by
  funext a; apply Fin.ext
  match a with
  | ⟨0, _⟩ => rfl
  | ⟨1, _⟩ => rfl

/-- The reduce with a maximum body along the columns, from -∞, is the row's folded maximum. -/
theorem v11_eq (r : Fin 10000) :
    val_main_v11 (F := Ideal) x0 x1 x2 x3 x4 x5 (ix1 r) = Cert.Spec.M x0 x1 x2 x3 x4 x5 r := by
  have hy : ∀ c : Fin 16, val_main_v10 (F := Ideal) x0 x1 x2 x3 x4 x5 (ix2 r c) = Cert.Spec.Z x0 x1 x2 x3 x4 x5 r c :=
    fun c => v10_eq x0 x1 x2 x3 x4 x5 r c
  unfold val_main_v11
  generalize val_main_v10 (F := Ideal) x0 x1 x2 x3 x4 x5 = y at hy
  have h : S10000x16.Reduces [1] S10000 := by decide
  refine (Host.reduce_eq_fold_single (α := Ideal .f32) (s := S10000x16) (t := S10000) (a := 1) (u := S_)
    (FloatOps.maximumf (F := Ideal) (φ := .f32)) y (val_main_cst (F := Ideal)) reducesTo_S10000x16_S10000_d1 h h_S_ (ix1 r)).trans ?_
  unfold Cert.Spec.M
  have hf : (y ∘ h.lift (ix1 r)) = fun c : Fin 16 => Cert.Spec.Z x0 x1 x2 x3 x4 x5 r c :=
    funext fun c => (congrArg y (lift_ix2 h r c)).trans (hy c)
  exact congrArg (fun f => Finset.fold max (Ideal.ofBits .f32 0xFF800000#32) f (Finset.univ : Finset (Fin 16))) hf

/-- Joined once more with -∞ the folded maximum is itself. -/
theorem v13_eq (r : Fin 10000) :
    val_main_v13 (F := Ideal) x0 x1 x2 x3 x4 x5 (ix1 r) = Cert.Spec.M x0 x1 x2 x3 x4 x5 r := by
  rw [val_main_v13_apply, val_main_v12_apply, val_main_cst_0_apply, v11_eq]
  simp only [Ideal.maximumf_def, Ideal.ofBits_def]
  unfold Cert.Spec.M
  exact max_eq_right ((Finset.le_fold_max _).2 (Or.inl le_rfl))

/-- The row maximum broadcast along the columns, at (r, c). -/
theorem v15_eq (r : Fin 10000) (c : Fin 16) :
    val_main_v15 (F := Ideal) x0 x1 x2 x3 x4 x5 (ix2 r c) = Cert.Spec.M x0 x1 x2 x3 x4 x5 r := by
  rw [val_main_v15_apply, val_main_v14_apply]
  have e : idx_main_v14 (idx_main_v15 (ix2 r c)) = ix1 r := funext fun a => Fin.ext (by match a with | ⟨0, _⟩ => rfl)
  rw [e, v13_eq]

/-! ## The shifted exponentials, their row sum, and the result -/

/-- `exp (Z - M)` at (r, c). -/
theorem v17_eq (r : Fin 10000) (c : Fin 16) :
    val_main_v17 (F := Ideal) x0 x1 x2 x3 x4 x5 (ix2 r c) = Cert.Spec.Ex x0 x1 x2 x3 x4 x5 r c := by
  rw [val_main_v17_apply, val_main_v16_apply, v10_eq, v15_eq]
  simp only [Ideal.hostUnary_exp_def, Ideal.subf_def]
  rfl

/-- The row sum of the exponentials, from zero, broadcast along the columns, at (r, c). -/
theorem v20_eq (r : Fin 10000) (c : Fin 16) :
    val_main_v20 (F := Ideal) x0 x1 x2 x3 x4 x5 (ix2 r c)
      = Ideal.ofBits .f32 0x00000000#32 + ∑ c' : Fin 16, Cert.Spec.Ex x0 x1 x2 x3 x4 x5 r c' := by
  rw [val_main_v20_apply, val_main_v19_apply]
  have e : idx_main_v19 (idx_main_v20 (ix2 r c)) = ix1 r := funext fun a => Fin.ext (by match a with | ⟨0, _⟩ => rfl)
  rw [e, val_main_v18_apply, val_main_cst_1_apply]
  simp only [Ideal.ofBits_def]
  refine congrArg (fun s => Ideal.ofBits .f32 0x00000000#32 + s) (Finset.sum_congr rfl fun k _ => ?_)
  have ek : idx_main_v18 (ix1 r) k = ix2 r k := funext fun a => Fin.ext (by match a with | ⟨0, _⟩ => rfl | ⟨1, _⟩ => rfl)
  rw [ek, v17_eq]

/-- The reference's result is the specification of its six argument arrays. -/
theorem ref_is_spec :
    Cert.ReferenceIdeal.Read.val_main_v22 (F := Ideal) x0 x1 x2 x3 x4 x5 = Cert.Spec.G x0 x1 x2 x3 x4 x5 := by
  funext i
  obtain ⟨r, c, rfl⟩ : ∃ (r : Fin 10000) (c : Fin 16), i = ix2 r c := ⟨i 0, i 1, eq_ix2 i⟩
  rw [val_main_v22_apply, val_main_v21_apply, v17_eq, v20_eq]
  simp only [Ideal.hostUnary_log_def, Ideal.hostDivf_def]
  rfl

/-! ## The run -/

/-- Every weakly fair execution of the reference terminates with its result at the specification of the launch
    contents of the six arguments, and the arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v22)
          = Cert.Spec.G (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run (Cert.ReferenceIdeal.defs (F := Ideal)) _ _).mono
    (fun _ h c => ⟨(h c).1.trans ((val_main_v22_eq (F := Ideal) m c).trans (ref_is_spec _ _ _ _ _ _)), (h c).2⟩)
    (Cert.ReferenceIdeal.Value.run (F := Ideal) m ρ)

end Cert.ReferenceIdeal.RefValue

end
-- ==== Proof.AtIndex.lean ====
/-
  The kernel's three stored values read at one index, over the extended reals.  A `tpu.matmul` into a zero
  accumulator is the sum over the contracted axis of the operands' products; a lane maximum is the fold of `max` from
  `-∞` and a lane sum the finite sum over the lane axis; a row's bias is broadcast along the rows; every other
  operation is pointwise.  So the first kernel stores `x · W1`, a phase-0 point stores `relu (rows · A + b1) · W2`, and a
  phase-1 point stores `log (exp (z - max z) / Σ exp (z - max z))` with `z = rows · B + b2`.
-/
import proofs.«146261_g85014582657441_cont_9to1_m_926_22_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.AtIndex

open Idealize.ShloMosaic Idealize.ShloMosaic.ValueIdx Cert.KernelIdeal Cert.KernelIdeal.Gen

/-! ## A column kept by a lane reduction, put back along the lanes -/

section Column
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row value `[a]`, viewed `[a, 1]` and broadcast to `[a, b]`, reads the row's value at every lane. -/
theorem column_apply {a b : ℕ} (r : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ r h1) h2 (ix2 p c) = r (ix1 p) :=
  (broadcastTo_a1_ab_apply _ h2 p c).trans (shapeCast_a_a1_apply r h1 p 0)

/-- A bias row `[1, b]`, recast to its own shape and broadcast down `a` rows, reads the row at the lane. -/
theorem biasRow_apply {a b : ℕ} (v : (⟨2, ![1, b]⟩ : Shape).Idx → α) (h1 : (⟨2, ![1, b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix2 (0 : Fin 1) c) := by
  rw [shapeCast_self]
  exact broadcastTo_1b_ab_apply v h2 p c

end Column

/-! ## The four products' operand indices

For each of the kernel's four contractions (rows by columns, one contracted axis): the left operand is read at
`(row, k)` and the right at `(k, column)`. -/

theorem lhs_xw_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_xw_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_xw_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_xw_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- `x · W1` into the zero accumulator, at `(l, j)`. -/
theorem xw_at (x : FVec Ideal S10000x128 .f32) (w : FVec Ideal S128x64 .f32) (l : Fin 10000) (j : Fin 64) :
    matmul dot_S10000x128_S128x64_S10000x64_1_0_0_1_n_n none x w (constant (F := Ideal) S10000x64 .f32 0x00000000#32) (ix2 l j)
      = ∑ f : Fin 128, x (ix2 l f) * w (ix2 f j) := by
  show FloatOps.matmul dot_S10000x128_S128x64_S10000x64_1_0_0_1_n_n none x w (constant (F := Ideal) S10000x64 .f32 0x00000000#32) (ix2 l j) = _
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 l j) ((contrEquiv1 dot_S10000x128_S128x64_S10000x64_1_0_0_1_n_n 128 rfl rfl).symm k) = ix2 l k := funext fun a => Fin.ext (by
    match a with
    | ⟨0, _⟩ => exact lhs_xw_0 _ _
    | ⟨1, _⟩ => exact (lhs_xw_1 _ _).trans hk)
  have er : dot_S10000x128_S128x64_S10000x64_1_0_0_1_n_n.rhsIdx (ix2 l j) ((contrEquiv1 dot_S10000x128_S128x64_S10000x64_1_0_0_1_n_n 128 rfl rfl).symm k) = ix2 k j := funext fun a => Fin.ext (by
    match a with
    | ⟨0, _⟩ => exact (rhs_xw_0 _ _).trans hk
    | ⟨1, _⟩ => exact rhs_xw_1 _ _)
  rw [el, er]

theorem lhs_na_0 (i : S400x64.Idx) (q : dot_S400x10000_S10000x64_S400x64_1_0_0_1_n_n.contr.Idx) :
    (dot_S400x10000_S10000x64_S400x64_1_0_0_1_n_n.lhsIdx i q 0).val = (i 0).val := by
  unfold DotDims.lhsIdx
  rw [dif_neg (show ¬(0 : Fin S400x10000.rank) ∈ dot_S400x10000_S10000x64_S400x64_1_0_0_1_n_n.lhsBatch by decide), dif_pos (show (0 : Fin S400x10000.rank) ∈ dot_S400x10000_S10000x64_S400x64_1_0_0_1_n_n.lhsNonContracting by decide)]
  rfl
theorem lhs_na_1 (i : S400x64.Idx) (q : dot_S400x10000_S10000x64_S400x64_1_0_0_1_n_n.contr.Idx) :
    (dot_S400x10000_S10000x64_S400x64_1_0_0_1_n_n.lhsIdx i q 1).val = (q ⟨0, by decide⟩).val :=
  dot_S400x10000_S10000x64_S400x64_1_0_0_1_n_n.lhsIdx_val_of_single rfl i q
theorem rhs_na_0 (i : S400x64.Idx) (q : dot_S400x10000_S10000x64_S400x64_1_0_0_1_n_n.contr.Idx) :
    (dot_S400x10000_S10000x64_S400x64_1_0_0_1_n_n.rhsIdx i q 0).val = (q ⟨0, by decide⟩).val :=
  dot_S400x10000_S10000x64_S400x64_1_0_0_1_n_n.rhsIdx_val_of_single rfl i q
theorem rhs_na_1 (i : S400x64.Idx) (q : dot_S400x10000_S10000x64_S400x64_1_0_0_1_n_n.contr.Idx) :
    (dot_S400x10000_S10000x64_S400x64_1_0_0_1_n_n.rhsIdx i q 1).val = (i 1).val := by
  unfold DotDims.rhsIdx
  rw [dif_neg (show ¬(1 : Fin S10000x64.rank) ∈ dot_S400x10000_S10000x64_S400x64_1_0_0_1_n_n.rhsBatch by decide), dif_pos (show (1 : Fin S10000x64.rank) ∈ dot_S400x10000_S10000x64_S400x64_1_0_0_1_n_n.rhsNonContracting by decide)]
  rfl

/-- `rows · A` into the zero accumulator, at `(p, j)`. -/
theorem na_at (X : FVec Ideal S400x10000 .f32) (A : FVec Ideal S10000x64 .f32) (p : Fin 400) (j : Fin 64) :
    matmul dot_S400x10000_S10000x64_S400x64_1_0_0_1_n_n none X A (constant (F := Ideal) S400x64 .f32 0x00000000#32) (ix2 p j)
      = ∑ l : Fin 10000, X (ix2 p l) * A (ix2 l j) := by
  show FloatOps.matmul dot_S400x10000_S10000x64_S400x64_1_0_0_1_n_n none X A (constant (F := Ideal) S400x64 .f32 0x00000000#32) (ix2 p j) = _
  rw [Ideal.matmul_constant_zero_apply, ← Equiv.sum_comp (contrEquiv1 dot_S400x10000_S10000x64_S400x64_1_0_0_1_n_n 10000 rfl rfl).symm]
  refine Finset.sum_congr rfl fun k _ => ?_
  have hk := contrEquiv1_symm_val dot_S400x10000_S10000x64_S400x64_1_0_0_1_n_n 10000 rfl rfl k
  have el : dot_S400x10000_S10000x64_S400x64_1_0_0_1_n_n.lhsIdx (ix2 p j) ((contrEquiv1 dot_S400x10000_S10000x64_S400x64_1_0_0_1_n_n 10000 rfl rfl).symm k) = ix2 p k := funext fun a => Fin.ext (by
    match a with
    | ⟨0, _⟩ => exact lhs_na_0 _ _
    | ⟨1, _⟩ => exact (lhs_na_1 _ _).trans hk)
  have er : dot_S400x10000_S10000x64_S400x64_1_0_0_1_n_n.rhsIdx (ix2 p j) ((contrEquiv1 dot_S400x10000_S10000x64_S400x64_1_0_0_1_n_n 10000 rfl rfl).symm k) = ix2 k j := funext fun a => Fin.ext (by
    match a with
    | ⟨0, _⟩ => exact (rhs_na_0 _ _).trans hk
    | ⟨1, _⟩ => exact rhs_na_1 _ _)
  rw [el, er]

theorem lhs_hw_0 (i : S400x16.Idx) (q : dot_S400x64_S64x16_S400x16_1_0_0_1_n_n.contr.Idx) :
    (dot_S400x64_S64x16_S400x16_1_0_0_1_n_n.lhsIdx i q 0).val = (i 0).val := by
  unfold DotDims.lhsIdx
  rw [dif_neg (show ¬(0 : Fin S400x64.rank) ∈ dot_S400x64_S64x16_S400x16_1_0_0_1_n_n.lhsBatch by decide), dif_pos (show (0 : Fin S400x64.rank) ∈ dot_S400x64_S64x16_S400x16_1_0_0_1_n_n.lhsNonContracting by decide)]
  rfl
theorem lhs_hw_1 (i : S400x16.Idx) (q : dot_S400x64_S64x16_S400x16_1_0_0_1_n_n.contr.Idx) :
    (dot_S400x64_S64x16_S400x16_1_0_0_1_n_n.lhsIdx i q 1).val = (q ⟨0, by decide⟩).val :=
  dot_S400x64_S64x16_S400x16_1_0_0_1_n_n.lhsIdx_val_of_single rfl i q
theorem rhs_hw_0 (i : S400x16.Idx) (q : dot_S400x64_S64x16_S400x16_1_0_0_1_n_n.contr.Idx) :
    (dot_S400x64_S64x16_S400x16_1_0_0_1_n_n.rhsIdx i q 0).val = (q ⟨0, by decide⟩).val :=
  dot_S400x64_S64x16_S400x16_1_0_0_1_n_n.rhsIdx_val_of_single rfl i q
theorem rhs_hw_1 (i : S400x16.Idx) (q : dot_S400x64_S64x16_S400x16_1_0_0_1_n_n.contr.Idx) :
    (dot_S400x64_S64x16_S400x16_1_0_0_1_n_n.rhsIdx i q 1).val = (i 1).val := by
  unfold DotDims.rhsIdx
  rw [dif_neg (show ¬(1 : Fin S64x16.rank) ∈ dot_S400x64_S64x16_S400x16_1_0_0_1_n_n.rhsBatch by decide), dif_pos (show (1 : Fin S64x16.rank) ∈ dot_S400x64_S64x16_S400x16_1_0_0_1_n_n.rhsNonContracting by decide)]
  rfl

/-- `hidden · W2` into the zero accumulator, at `(p, q)`. -/
theorem hw_at (H : FVec Ideal S400x64 .f32) (W : FVec Ideal S64x16 .f32) (p : Fin 400) (q : Fin 16) :
    matmul dot_S400x64_S64x16_S400x16_1_0_0_1_n_n none H W (constant (F := Ideal) S400x16 .f32 0x00000000#32) (ix2 p q)
      = ∑ j : Fin 64, H (ix2 p j) * W (ix2 j q) := by
  show FloatOps.matmul dot_S400x64_S64x16_S400x16_1_0_0_1_n_n none H W (constant (F := Ideal) S400x16 .f32 0x00000000#32) (ix2 p q) = _
  rw [Ideal.matmul_constant_zero_apply, ← Equiv.sum_comp (contrEquiv1 dot_S400x64_S64x16_S400x16_1_0_0_1_n_n 64 rfl rfl).symm]
  refine Finset.sum_congr rfl fun k _ => ?_
  have hk := contrEquiv1_symm_val dot_S400x64_S64x16_S400x16_1_0_0_1_n_n 64 rfl rfl k
  have el : dot_S400x64_S64x16_S400x16_1_0_0_1_n_n.lhsIdx (ix2 p q) ((contrEquiv1 dot_S400x64_S64x16_S400x16_1_0_0_1_n_n 64 rfl rfl).symm k) = ix2 p k := funext fun a => Fin.ext (by
    match a with
    | ⟨0, _⟩ => exact lhs_hw_0 _ _
    | ⟨1, _⟩ => exact (lhs_hw_1 _ _).trans hk)
  have er : dot_S400x64_S64x16_S400x16_1_0_0_1_n_n.rhsIdx (ix2 p q) ((contrEquiv1 dot_S400x64_S64x16_S400x16_1_0_0_1_n_n 64 rfl rfl).symm k) = ix2 k q := funext fun a => Fin.ext (by
    match a with
    | ⟨0, _⟩ => exact (rhs_hw_0 _ _).trans hk
    | ⟨1, _⟩ => exact rhs_hw_1 _ _)
  rw [el, er]

theorem lhs_nb_0 (i : S400x16.Idx) (q : dot_S400x10000_S10000x16_S400x16_1_0_0_1_n_n.contr.Idx) :
    (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem lhs_nb_1 (i : S400x16.Idx) (q : dot_S400x10000_S10000x16_S400x16_1_0_0_1_n_n.contr.Idx) :
    (dot_S400x10000_S10000x16_S400x16_1_0_0_1_n_n.lhsIdx i q 1).val = (q ⟨0, by decide⟩).val :=
  dot_S400x10000_S10000x16_S400x16_1_0_0_1_n_n.lhsIdx_val_of_single rfl i q
theorem rhs_nb_0 (i : S400x16.Idx) (q : dot_S400x10000_S10000x16_S400x16_1_0_0_1_n_n.contr.Idx) :
    (dot_S400x10000_S10000x16_S400x16_1_0_0_1_n_n.rhsIdx i q 0).val = (q ⟨0, by decide⟩).val :=
  dot_S400x10000_S10000x16_S400x16_1_0_0_1_n_n.rhsIdx_val_of_single rfl i q
theorem rhs_nb_1 (i : S400x16.Idx) (q : dot_S400x10000_S10000x16_S400x16_1_0_0_1_n_n.contr.Idx) :
    (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

/-- `rows · B` into the zero accumulator, at `(p, c)`. -/
theorem nb_at (X : FVec Ideal S400x10000 .f32) (Bm : FVec Ideal S10000x16 .f32) (p : Fin 400) (c : Fin 16) :
    matmul dot_S400x10000_S10000x16_S400x16_1_0_0_1_n_n none X Bm (constant (F := Ideal) S400x16 .f32 0x00000000#32) (ix2 p c)
      = ∑ k : Fin 10000, X (ix2 p k) * Bm (ix2 k c) := by
  show FloatOps.matmul dot_S400x10000_S10000x16_S400x16_1_0_0_1_n_n none X Bm (constant (F := Ideal) S400x16 .f32 0x00000000#32) (ix2 p c) = _
  rw [Ideal.matmul_constant_zero_apply, ← Equiv.sum_comp (contrEquiv1 dot_S400x10000_S10000x16_S400x16_1_0_0_1_n_n 10000 rfl rfl).symm]
  refine Finset.sum_congr rfl fun k _ => ?_
  have hk := contrEquiv1_symm_val dot_S400x10000_S10000x16_S400x16_1_0_0_1_n_n 10000 rfl rfl k
  have el : dot_S400x10000_S10000x16_S400x16_1_0_0_1_n_n.lhsIdx (ix2 p c) ((contrEquiv1 dot_S400x10000_S10000x16_S400x16_1_0_0_1_n_n 10000 rfl rfl).symm k) = ix2 p k := funext fun a => Fin.ext (by
    match a with
    | ⟨0, _⟩ => exact lhs_nb_0 _ _
    | ⟨1, _⟩ => exact (lhs_nb_1 _ _).trans hk)
  have er : dot_S400x10000_S10000x16_S400x16_1_0_0_1_n_n.rhsIdx (ix2 p c) ((contrEquiv1 dot_S400x10000_S10000x16_S400x16_1_0_0_1_n_n 10000 rfl rfl).symm k) = ix2 k c := funext fun a => Fin.ext (by
    match a with
    | ⟨0, _⟩ => exact (rhs_nb_0 _ _).trans hk
    | ⟨1, _⟩ => exact rhs_nb_1 _ _)
  rw [el, er]

/-! ## The lane reductions of a 400 × 16 block -/

/-- A row's maximum over its 16 lanes: the fold of `max` from the accumulator's value. -/
theorem laneMax_at (v : FVec Ideal S400x16 .f32) (h : S400x16.Reduces [1] S400) (hφ : FKind.Formats .f32)
    (hacc : (0xFF800000#32 : BitVec 32) = FKind.maximumf.neutral .f32 hφ) (p : Fin 400) :
    multiReduction (F := Ideal) .maximumf [1] S400 v 0xFF800000#32 h hφ hacc (ix1 p)
      = (Finset.univ : Finset (Fin 16)).fold max (Ideal.ofBits .f32 0xFF800000#32) (fun c => v (ix2 p c)) := by
  refine (Ideal.multiReduction_maximumf_single v 0xFF800000#32 h hφ hacc (ix1 p)).trans ?_
  show (Finset.univ : Finset (Fin 16)).fold max (Ideal.ofBits .f32 0xFF800000#32) (fun c => v (h.lift (ix1 p) c)) = _
  refine congrArg (fun f => (Finset.univ : Finset (Fin 16)).fold max (Ideal.ofBits .f32 0xFF800000#32) f) (funext fun c => congrArg v ?_)
  exact funext fun a => Fin.ext (by match a with | ⟨0, _⟩ => rfl | ⟨1, _⟩ => rfl)

/-- A row's sum over its 16 lanes (the accumulator is the sum's neutral element, so no initial term). -/
theorem laneSum_at (v : FVec Ideal S400x16 .f32) (h : S400x16.Reduces [1] S400) (hφ : FKind.Formats .f32)
    (hacc : (0x00000000#32 : BitVec 32) = FKind.add.neutral .f32 hφ) (p : Fin 400) :
    multiReduction (F := Ideal) .add [1] S400 v 0x00000000#32 h hφ hacc (ix1 p) = ∑ c : Fin 16, v (ix2 p c) := by
  refine (Ideal.multiReduction_add_single v 0x00000000#32 h hφ hacc (ix1 p)).trans ?_
  show ∑ c : Fin 16, v (h.lift (ix1 p) c) = _
  refine Finset.sum_congr rfl fun c _ => congrArg v ?_
  exact funext fun a => Fin.ext (by match a with | ⟨0, _⟩ => rfl | ⟨1, _⟩ => rfl)

/-! ## The first kernel -/

/-- The first kernel's product at `(l, j)`. -/
theorem pay_xw (x : Vec Ideal S10000x128 .f32) (w : Vec Ideal S128x64 .f32) (l : Fin 10000) (j : Fin 64) :
    k0_pay1 x w (ix2 l j) = ∑ f : Fin 128, x (ix2 l f) * w (ix2 f j) := by
  unfold k0_pay1
  exact xw_at x w l j

/-! ## A phase-0 point -/

/-- The hidden row `relu (rows · A + b1)` at `(p, j)`, as the phase-0 payload uses it. -/
def hid (X : Vec Ideal S400x10000 .f32) (A : Vec Ideal S10000x64 .f32) (b : Vec Ideal S1x64 .f32) (p : Fin 400) (j : Fin 64) : EReal :=
  max ((∑ l : Fin 10000, X (ix2 p l) * A (ix2 l j)) + b (ix2 (0 : Fin 1) j)) (Ideal.ofBits .f32 0x00000000#32)

/-- The payload's hidden block, with its recasts and the splat of zero it is clamped against, is `hid` at `(p, j)`. -/
theorem hid_at (X : FVec Ideal S400x10000 .f32) (A : FVec Ideal S10000x64 .f32) (b : FVec Ideal S1x64 .f32)
    (h0 : S10000x64.ShapeCasts S10000x64) (h1 : S1x64.ShapeCasts S1x64) (h2 : S1x64.Broadcasts S400x64) (p : Fin 400) (j : Fin 64) :
    maximumf (addf (matmul dot_S400x10000_S10000x64_S400x64_1_0_0_1_n_n none X (shapeCast S10000x64 A h0) (constant (F := Ideal) S400x64 .f32 0x00000000#32))
        (broadcastTo S400x64 (shapeCast S1x64 b h1) h2)) (broadcast S400x64 (Scalar.ofBits (F := Ideal) .f32 0x00000000#32)) (ix2 p j)
      = hid X A b p j := by
  rw [shapeCast_self A h0]
  show max (matmul dot_S400x10000_S10000x64_S400x64_1_0_0_1_n_n none X A (constant (F := Ideal) S400x64 .f32 0x00000000#32) (ix2 p j)
      + broadcastTo S400x64 (shapeCast S1x64 b h1) h2 (ix2 p j)) (Ideal.ofBits .f32 0x00000000#32) = _
  rw [na_at X A p j, biasRow_apply b h1 h2 p j]
  rfl

/-- A phase-0 point's 400 rows of `B` at `(p, q)`. -/
theorem pay_fill (X : Vec Ideal S400x10000 .f32) (A : Vec Ideal S10000x64 .f32) (b : Vec Ideal S1x64 .f32) (W : Vec Ideal S64x16 .f32)
    (p : Fin 400) (q : Fin 16) :
    k1_pay1 X A b W (ix2 p q) = ∑ j : Fin 64, hid X A b p j * W (ix2 j q) := by
  unfold k1_pay1
  rw [shapeCast_self]
  refine (hw_at _ W p q).trans ?_
  exact Finset.sum_congr rfl fun j _ => congrArg (· * W (ix2 j q)) (hid_at X A b _ _ _ p j)

/-! ## A phase-1 point -/

/-- The logit `rows · B + b2` at `(p, c)`. -/
def logit (X : Vec Ideal S400x10000 .f32) (Bm : Vec Ideal S10000x16 .f32) (b : Vec Ideal S1x16 .f32) (p : Fin 400) (c : Fin 16) : EReal :=
  (∑ k : Fin 10000, X (ix2 p k) * Bm (ix2 k c)) + b (ix2 (0 : Fin 1) c)

/-- A row's largest logit, folded from `-∞`. -/
def rowMax (X : Vec Ideal S400x10000 .f32) (Bm : Vec Ideal S10000x16 .f32) (b : Vec Ideal S1x16 .f32) (p : Fin 400) : EReal :=
  (Finset.univ : Finset (Fin 16)).fold max (Ideal.ofBits .f32 0xFF800000#32) (fun c => logit X Bm b p c)

/-- The payload's block of logits, with the bias row's recast and broadcast, is `logit` at `(p, c)`. -/
theorem logit_at (X : FVec Ideal S400x10000 .f32) (Bm : FVec Ideal S10000x16 .f32) (b : FVec Ideal S1x16 .f32)
    (h1 : S1x16.ShapeCasts S1x16) (h2 : S1x16.Broadcasts S400x16) (p : Fin 400) (c : Fin 16) :
    addf (matmul dot_S400x10000_S10000x16_S400x16_1_0_0_1_n_n none X Bm (constant (F := Ideal) S400x16 .f32 0x00000000#32))
        (broadcastTo S400x16 (shapeCast S1x16 b h1) h2) (ix2 p c)
      = logit X Bm b p c := by
  show matmul dot_S400x10000_S10000x16_S400x16_1_0_0_1_n_n none X Bm (constant (F := Ideal) S400x16 .f32 0x00000000#32) (ix2 p c)
      + broadcastTo S400x16 (shapeCast S1x16 b h1) h2 (ix2 p c) = _
  rw [nb_at X Bm p c, biasRow_apply b h1 h2 p c]
  rfl

/-- The row-wise log-softmax as the payload spells it, over any 400 × 16 block `z`, at `(p, q)`: the row's maximum is
    subtracted, the exponentials are divided by their row's sum, and the logarithm is taken. -/
theorem logSoftmax_at (z : FVec Ideal S400x16 .f32) (h : S400x16.Reduces [1] S400) (hφ : FKind.Formats .f32)
    (hm : (0xFF800000#32 : BitVec 32) = FKind.maximumf.neutral .f32 hφ) (hs : (0x00000000#32 : BitVec 32) = FKind.add.neutral .f32 hφ)
    (h1 : S400.ShapeCasts S400x1) (h2 : S400x1.Broadcasts S400x16) (p : Fin 400) (q : Fin 16) :
    log (divf
        (exp (subf z (broadcastTo S400x16 (shapeCast S400x1 (multiReduction (F := Ideal) .maximumf [1] S400 z 0xFF800000#32 h hφ hm) h1) h2)))
        (broadcastTo S400x16 (shapeCast S400x1 (multiReduction (F := Ideal) .add [1] S400
          (exp (subf z (broadcastTo S400x16 (shapeCast S400x1 (multiReduction (F := Ideal) .maximumf [1] S400 z 0xFF800000#32 h hφ hm) h1) h2)))
          0x00000000#32 h hφ hs) h1) h2)) (ix2 p q)
      = Ideal.log (Ideal.div
          (Ideal.exp (z (ix2 p q) - (Finset.univ : Finset (Fin 16)).fold max (Ideal.ofBits .f32 0xFF800000#32) (fun c => z (ix2 p c))))
          (∑ c : Fin 16, Ideal.exp (z (ix2 p c) - (Finset.univ : Finset (Fin 16)).fold max (Ideal.ofBits .f32 0xFF800000#32) (fun c => z (ix2 p c))))) := by
  -- the shifted exponentials at a lane of row `p`
  have he : ∀ c : Fin 16,
      exp (subf z (broadcastTo S400x16 (shapeCast S400x1 (multiReduction (F := Ideal) .maximumf [1] S400 z 0xFF800000#32 h hφ hm) h1) h2)) (ix2 p c)
        = Ideal.exp (z (ix2 p c) - (Finset.univ : Finset (Fin 16)).fold max (Ideal.ofBits .f32 0xFF800000#32) (fun c => z (ix2 p c))) := fun c => by
    show Ideal.exp (z (ix2 p c)
      - broadcastTo S400x16 (shapeCast S400x1 (multiReduction (F := Ideal) .maximumf [1] S400 z 0xFF800000#32 h hφ hm) h1) h2 (ix2 p c)) = _
    rw [column_apply _ h1 h2 p c, laneMax_at z h hφ hm p]
  show Ideal.log (Ideal.div
      (exp (subf z (broadcastTo S400x16 (shapeCast S400x1 (multiReduction (F := Ideal) .maximumf [1] S400 z 0xFF800000#32 h hφ hm) h1) h2)) (ix2 p q))
      (broadcastTo S400x16 (shapeCast S400x1 (multiReduction (F := Ideal) .add [1] S400
          (exp (subf z (broadcastTo S400x16 (shapeCast S400x1 (multiReduction (F := Ideal) .maximumf [1] S400 z 0xFF800000#32 h hφ hm) h1) h2)))
          0x00000000#32 h hφ hs) h1) h2 (ix2 p q))) = _
  rw [column_apply _ h1 h2 p q, laneSum_at _ h hφ hs p, he q]
  exact congrArg (fun t => Ideal.log (Ideal.div _ t)) (Finset.sum_congr rfl fun c _ => he c)

/-- A phase-1 point's output block at `(p, q)`: the row-wise log-softmax of the logits. -/
theorem pay_emit (X : Vec Ideal S400x10000 .f32) (Bm : Vec Ideal S10000x16 .f32) (b : Vec Ideal S1x16 .f32) (p : Fin 400) (q : Fin 16) :
    k1_pay3 X Bm b (ix2 p q)
      = Ideal.log (Ideal.div (Ideal.exp (logit X Bm b p q - rowMax X Bm b p))
          (∑ c : Fin 16, Ideal.exp (logit X Bm b p c - rowMax X Bm b p))) := by
  unfold k1_pay3
  refine (logSoftmax_at _ _ _ _ _ _ _ p q).trans ?_
  have hz : ∀ c : Fin 16,
      addf (matmul dot_S400x10000_S10000x16_S400x16_1_0_0_1_n_n none X Bm (constant (F := Ideal) S400x16 .f32 0x00000000#32))
          (broadcastTo S400x16 (shapeCast S1x16 b shapeCasts_S1x16_S1x16) broadcasts_S1x16_S400x16) (ix2 p c)
        = logit X Bm b p c := fun c => logit_at X Bm b _ _ p c
  unfold rowMax
  simp only [hz]

end Cert.KernelIdeal.AtIndex

end
-- ==== Proof.Blocks.lean ====
/-
  What the second pallas_call's windows hold, in terms of the launch memory, over the extended reals.  The first
  region's one write-back leaves `x · W1` in `A`'s array; the whole-array windows read their arrays unchanged (the
  biases through a reshape to one row); the norm window at a point holds rows `400 b .. 400 b + 400` of `norm` for the
  block index `b` the point's index map names; and the scratch's final contents are `relu (norm · A + b1) · W2`.
-/
import proofs.«146261_g85014582657441_cont_9to1_m_926_22_alg».proof.Proof.KI.Boundary
import proofs.«146261_g85014582657441_cont_9to1_m_926_22_alg».proof.Proof.AtIndex
import proofs.«146261_g85014582657441_cont_9to1_m_926_22_alg».proof.Proof.Spec

set_option maxRecDepth 16384

noncomputable section

open scoped BigOperators

namespace Cert.KernelIdeal.IsSpec

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (c : Dev nD)

/-- The six argument arrays as launched. -/
abbrev aX : S10000x128.Idx → EReal := m ((c : Thread nD τ).loc main_arg0)
abbrev aN : S10000x10000.Idx → EReal := m ((c : Thread nD τ).loc main_arg1)
abbrev aW1 : S128x64.Idx → EReal := m ((c : Thread nD τ).loc main_arg2)
abbrev ab1 : S64.Idx → EReal := m ((c : Thread nD τ).loc main_arg3)
abbrev aW2 : S64x16.Idx → EReal := m ((c : Thread nD τ).loc main_arg4)
abbrev ab2 : S16.Idx → EReal := m ((c : Thread nD τ).loc main_arg5)

/-! ## The first call: `A`'s array after its one write-back -/

/-- At the first call's one point the `x` window reads its whole array. -/
theorem xblk_is (t : Fin cfg0.N) : XW.xblk (Whole.Vin0 m) c t = aX m c := by
  funext y
  show Whole.Vin0 m c main_arg0 (((cfg0.win 0).blk t).view.emb y) = aX m c y
  rw [Whole.Vin0_main_arg0]
  refine congrArg (aX m c) (funext fun a => Fin.ext ?_)
  match a with
  | ⟨0, _⟩ => show 0 * 10000 + 1 * (y 0).val = (y 0).val; omega
  | ⟨1, _⟩ => show 0 * 128 + 1 * (y 1).val = (y 1).val; omega
/-- And the `W1` window its whole array. -/
theorem w1blk_is (t : Fin cfg0.N) : XW.w1blk (Whole.Vin0 m) c t = aW1 m c := by
  funext y
  show Whole.Vin0 m c main_arg2 (((cfg0.win 1).blk t).view.emb y) = aW1 m c y
  rw [Whole.Vin0_main_arg2]
  refine congrArg (aW1 m c) (funext fun a => Fin.ext ?_)
  match a with
  | ⟨0, _⟩ => show 0 * 128 + 1 * (y 0).val = (y 0).val; omega
  | ⟨1, _⟩ => show 0 * 64 + 1 * (y 1).val = (y 1).val; omega

/-- The first call has one point, whose block of the output window is the whole array: after the run the array holds
    what that point's body stored. -/
theorem A_arr : (XW.dat0 (Whole.Vin0 m) c).arrAt 2 cfg0.N = XW.Aout (Whole.Vin0 m) c t0_0 := by
  refine (XW.dat0 (Whole.Vin0 m) c).arrAt_eq_of_cover 2 (XW.Aout (Whole.Vin0 m) c t0_0) (fun t _ => ?_) (fun i => ⟨t0_0, flush0_2 t0_0, ?_⟩)
  · rw [fin_N0 t]
    show (cfg0.win 2).cut (grid0.coords t0_0) ((XW.dat0 (Whole.Vin0 m) c).after 2 t0_0) = _
    rw [XW.after0_2]
    funext y
    show XW.Aout (Whole.Vin0 m) c t0_0 ((cfg0.win 2).xinj (grid0.coords t0_0) y) = XW.Aout (Whole.Vin0 m) c t0_0 (((cfg0.win 2).blk t0_0).view.emb y)
    refine congrArg (XW.Aout (Whole.Vin0 m) c t0_0) (funext fun a => Fin.ext ?_)
    match a with
    | ⟨0, _⟩ => show (y 0).val = 0 * 10000 + 1 * (y 0).val; omega
    | ⟨1, _⟩ => show (y 1).val = 0 * 64 + 1 * (y 1).val; omega
  · have e : ((cfg0.win 2).blk t0_0).view.emb i = i := funext fun a => Fin.ext (by
      match a with
      | ⟨0, _⟩ => show 0 * 10000 + 1 * (i 0).val = (i 0).val; omega
      | ⟨1, _⟩ => show 0 * 64 + 1 * (i 1).val = (i 1).val; omega)
    rw [← e]
    exact View.emb_mem_set _ _

/-- `A`'s array, as the second region finds it, is `x · W1`. -/
theorem A_is (l : Fin 10000) (j : Fin 64) :
    (Whole.Vin1 m c main_v0 : S10000x64.Idx → EReal) (ix2 l j) = Cert.Spec.A (aX m c) (aW1 m c) l j := by
  rw [Whole.Vin1_main_v0, A_arr]
  unfold XW.Aout
  rw [xblk_is, w1blk_is]
  exact AtIndex.pay_xw (aX m c) (aW1 m c) l j

/-! ## The whole-array windows

Windows 0, 2, 3, 4 of the second call have the whole array as their block and block index 0 at every point; window 1's
block index on the row axis is the index map's value and 0 on the column axis. -/

/-- Window 0's block index is 0 on both axes at every point. -/
theorem idx_w0 : ∀ t : Fin cfg1.N, win1_0.index t (0 : Fin 2) = 0 ∧ win1_0.index t (1 : Fin 2) = 0 :=
  (by decide +kernel : ∀ t : Fin grid1.N, win1_0.index t (0 : Fin 2) = 0 ∧ win1_0.index t (1 : Fin 2) = 0)
/-- Window 2's block index is 0 on both axes at every point. -/
theorem idx_w2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
/-- Window 3's block index is 0 on both axes at every point. -/
theorem idx_w3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
/-- Window 4's block index is 0 on both axes at every point. -/
theorem idx_w4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
/-- Window 1's block index is the index map's row block, and 0 on the column axis. -/
theorem idx_w1 : ∀ t : Fin cfg1.N, win1_1.index t (0 : Fin 2) = cc1_transform_1 (grid1.coords t) 0 ∧ win1_1.index t (1 : Fin 2) = 0 :=
  (by decide +kernel : ∀ t : Fin grid1.N, win1_1.index t (0 : Fin 2) = cc1_transform_1 (grid1.coords t) 0 ∧ win1_1.index t (1 : Fin 2) = 0)

/-- The whole-array windows read their arrays. -/
theorem ablk_is (t : Fin cfg1.N) : Gcn.ablk (Whole.Vin1 m) c t = (Whole.Vin1 m c main_v0 : S10000x64.Idx → EReal) := by
  funext y
  show Whole.Vin1 m c main_v0 (((cfg1.win 0).blk t).view.emb y) = Whole.Vin1 m c main_v0 y
  refine congrArg (Whole.Vin1 m c main_v0) (funext fun a => Fin.ext ?_)
  obtain ⟨e0, e1⟩ := idx_w0 t
  match a with
  | ⟨0, _⟩ => show win1_0.index t (0 : Fin 2) * 10000 + 1 * (y 0).val = (y 0).val; omega
  | ⟨1, _⟩ => show win1_0.index t (1 : Fin 2) * 64 + 1 * (y 1).val = (y 1).val; omega
theorem w2blk_is (t : Fin cfg1.N) : Gcn.w2blk (Whole.Vin1 m) c t = aW2 m c := by
  funext y
  show Whole.Vin1 m c main_arg4 (((cfg1.win 3).blk t).view.emb y) = aW2 m c y
  rw [Whole.Vin1_main_arg4]
  refine congrArg (aW2 m c) (funext fun a => Fin.ext ?_)
  obtain ⟨e0, e1⟩ := idx_w3 t
  match a with
  | ⟨0, _⟩ => show win1_3.index t (0 : Fin 2) * 64 + 1 * (y 0).val = (y 0).val; omega
  | ⟨1, _⟩ => show win1_3.index t (1 : Fin 2) * 16 + 1 * (y 1).val = (y 1).val; omega

/-- A `[b]` array recast to one row `[1, b]` reads, at `(0, j)`, the operand at `j`. -/
theorem shapeCast_b_1b_apply {α : Type} {b : ℕ} (x : (⟨1, ![b]⟩ : Shape).Idx → α) (h : (⟨1, ![b]⟩ : Shape).ShapeCasts ⟨2, ![1, b]⟩)
    (j : Fin b) : shapeCast ⟨2, ![1, b]⟩ x h (ix2 (0 : Fin 1) j) = x (ix1 j) :=
  shapeCast_apply x h _ _ (by
    rw [Shape.rowMajor_val_two, Shape.rowMajor_val_one]
    show j.val = 0 * b + j.val
    omega)

theorem b1blk_is (t : Fin cfg1.N) (j : Fin 64) : Gcn.b1blk (Whole.Vin1 m) c t (ix2 (0 : Fin 1) j) = ab1 m c (ix1 j) := by
  show (Whole.Vin1 m c main_v1 : S1x64.Idx → EReal) (((cfg1.win 2).blk t).view.emb (ix2 (0 : Fin 1) j)) = ab1 m c (ix1 j)
  rw [Whole.Vin1_main_v1]
  refine Eq.trans (congrArg _ (funext fun a => Fin.ext ?_)) (shapeCast_b_1b_apply (ab1 m c) shapeCasts_S64_S1x64 j)
  obtain ⟨e0, e1⟩ := idx_w2 t
  match a with
  | ⟨0, _⟩ => show win1_2.index t (0 : Fin 2) * 1 + 1 * (0 : Fin 1).val = (0 : Fin 1).val; omega
  | ⟨1, _⟩ => show win1_2.index t (1 : Fin 2) * 64 + 1 * j.val = j.val; omega
theorem b2blk_is (t : Fin cfg1.N) (q : Fin 16) : Gcn.b2blk (Whole.Vin1 m) c t (ix2 (0 : Fin 1) q) = ab2 m c (ix1 q) := by
  show (Whole.Vin1 m c main_v2 : S1x16.Idx → EReal) (((cfg1.win 4).blk t).view.emb (ix2 (0 : Fin 1) q)) = ab2 m c (ix1 q)
  rw [Whole.Vin1_main_v2]
  refine Eq.trans (congrArg _ (funext fun a => Fin.ext ?_)) (shapeCast_b_1b_apply (ab2 m c) shapeCasts_S16_S1x16 q)
  obtain ⟨e0, e1⟩ := idx_w4 t
  match a with
  | ⟨0, _⟩ => show win1_4.index t (0 : Fin 2) * 1 + 1 * (0 : Fin 1).val = (0 : Fin 1).val; omega
  | ⟨1, _⟩ => show win1_4.index t (1 : Fin 2) * 16 + 1 * q.val = q.val; omega

/-- The norm window at point `t` holds the 400 rows of `norm` from row `400 ·` (the point's block index) on. -/
theorem nblk_is (t : Fin cfg1.N) (p : Fin 400) (k : Fin 10000) (r : Fin 10000)
    (hr : r.val = 400 * cc1_transform_1 (grid1.coords t) 0 + p.val) :
    Gcn.nblk (Whole.Vin1 m) c t (ix2 p k) = aN m c (ix2 r k) := by
  show Whole.Vin1 m c main_arg1 (((cfg1.win 1).blk t).view.emb (ix2 p k)) = aN m c (ix2 r k)
  rw [Whole.Vin1_main_arg1]
  refine congrArg (aN m c) (funext fun a => Fin.ext ?_)
  obtain ⟨e0, e1⟩ := idx_w1 t
  match a with
  | ⟨0, _⟩ => show win1_1.index t (0 : Fin 2) * 400 + 1 * p.val = r.val; omega
  | ⟨1, _⟩ => show win1_1.index t (1 : Fin 2) * 10000 + 1 * k.val = k.val; omega

/-! ## The scratch's final contents -/

/-- In phase 0 the norm window's block index is the step itself. -/
theorem tr1_phase0 : ∀ t : Fin cfg1.N, t.val < 25 → cc1_transform_1 (grid1.coords t) 0 = t.val :=
  (by decide +kernel : ∀ t : Fin grid1.N, t.val < 25 → cc1_transform_1 (grid1.coords t) 0 = t.val)

/-- A phase-0 point's block of `B`, at row `p` of the block and lane `q`, is row `400 t + p` of
    `relu (norm · A + b1) · W2`: the block's norm rows are rows `400 t ..` of `norm`, and `A`, `b1`, `W2` are read whole. -/
theorem Bat_is (t : Fin cfg1.N) (ht : t.val < 25) (p : Fin 400) (q : Fin 16) (k : Fin 10000) (hk : k.val = 400 * t.val + p.val) :
    Gcn.Bat (Whole.Vin1 m) c t (ix2 p q) = Cert.Spec.B (aX m c) (aN m c) (aW1 m c) (ab1 m c) (aW2 m c) k q := by
  have hb : cc1_transform_1 (grid1.coords t) 0 = t.val := tr1_phase0 t ht
  unfold Gcn.Bat
  refine (AtIndex.pay_fill _ _ _ _ p q).trans ?_
  unfold Cert.Spec.B
  refine Finset.sum_congr rfl fun j _ => ?_
  rw [w2blk_is m c t]
  refine congrArg (· * aW2 m c (ix2 j q)) ?_
  unfold AtIndex.hid Cert.Spec.H
  rw [b1blk_is m c t j]
  refine congrArg (fun s => max (s + ab1 m c (ix1 j)) (Ideal.ofBits .f32 0x00000000#32)) ?_
  refine Finset.sum_congr rfl fun l _ => ?_
  rw [nblk_is m c t p l k (by rw [hb]; exact hk), ablk_is m c t, A_is m c l j]

/-- The scratch's final contents are `relu (norm · A + b1) · W2`. -/
theorem Bfull_is (k : Fin 10000) (q : Fin 16) :
    Gcn.Bfull (Whole.Vin1 m) c (ix2 k q) = Cert.Spec.B (aX m c) (aN m c) (aW1 m c) (ab1 m c) (aW2 m c) k q := by
  have hk := k.isLt
  unfold Gcn.Bfull
  exact Bat_is m c (Gcn.pt (k.val / 400) (by omega)) (by show k.val / 400 < 25; omega) ⟨k.val % 400, Nat.mod_lt _ (by decide)⟩ q k
    (by show k.val = 400 * (k.val / 400) + k.val % 400; omega)

end Cert.KernelIdeal.IsSpec

end
-- ==== Proof.KernelIsSpec.lean ====
/-
  The kernel's result array is the specification.  A phase-1 point `t` writes back, into output block `24 - (t - 25)`,
  the row-wise log-softmax of `(norm rows of that block) · B + b2`: the rows come from the norm window, whose block
  index at `t` is the output's (at point 26 from the copy of block 23, which is again the output's), and `B` is whole by
  then.  The 25 phase-1 points' blocks cover the array, and every write-back is the specification read through its
  block, so the array ends holding the specification.
-/
import proofs.«146261_g85014582657441_cont_9to1_m_926_22_alg».proof.Proof.Blocks

set_option maxRecDepth 16384

noncomputable section

open scoped BigOperators

namespace Cert.KernelIdeal.IsSpec

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (c : Dev nD)

/-- The norm rows a phase-1 point multiplies are those of the block it writes: the norm window's block index at the
    point the rows come from (point 23 for point 26, the point itself otherwise) is the output's block index. -/
theorem src_block : ∀ t : Fin cfg1.N, 25 ≤ t.val →
    cc1_transform_1 (grid1.coords (Gcn.srcPt t)) 0 = cc1_transform_5 (grid1.coords t) 0 := by
  decide +kernel

/-- The block a phase-1 point writes is the specification's rows `400 b ..`, `b` the output's block index there. -/
theorem out_is (t : Fin cfg1.N) (ht : 25 ≤ t.val) (p : Fin 400) (q : Fin 16) (r : Fin 10000)
    (hr : r.val = 400 * cc1_transform_5 (grid1.coords t) 0 + p.val) :
    Gcn.outAt (Whole.Vin1 m) c t (ix2 p q)
      = Cert.Spec.G (aX m c) (aN m c) (aW1 m c) (ab1 m c) (aW2 m c) (ab2 m c) (ix2 r q) := by
  have hr' : r.val = 400 * cc1_transform_1 (grid1.coords (Gcn.srcPt t)) 0 + p.val := by
    rw [src_block t ht]; exact hr
  -- the logits of row `p` of the block are the specification's of row `r`
  have hz : ∀ c' : Fin 16,
      AtIndex.logit (Gcn.nblk (Whole.Vin1 m) c (Gcn.srcPt t)) (Gcn.Bfull (Whole.Vin1 m) c) (Gcn.b2blk (Whole.Vin1 m) c t) p c'
        = Cert.Spec.Z (aX m c) (aN m c) (aW1 m c) (ab1 m c) (aW2 m c) (ab2 m c) r c' := fun c' => by
    unfold AtIndex.logit Cert.Spec.Z
    rw [b2blk_is m c t c']
    refine congrArg (· + ab2 m c (ix1 c')) (Finset.sum_congr rfl fun k _ => ?_)
    rw [nblk_is m c (Gcn.srcPt t) p k r hr', Bfull_is m c k c']
  -- so the row's maximum is the specification's
  have hM : AtIndex.rowMax (Gcn.nblk (Whole.Vin1 m) c (Gcn.srcPt t)) (Gcn.Bfull (Whole.Vin1 m) c) (Gcn.b2blk (Whole.Vin1 m) c t) p
      = Cert.Spec.M (aX m c) (aN m c) (aW1 m c) (ab1 m c) (aW2 m c) (ab2 m c) r := by
    unfold AtIndex.rowMax Cert.Spec.M
    exact congrArg (fun f => (Finset.univ : Finset (Fin 16)).fold max (Ideal.ofBits .f32 0xFF800000#32) f) (funext hz)
  unfold Gcn.outAt
  rw [AtIndex.pay_emit]
  unfold Cert.Spec.G Cert.Spec.Ex
  show _ = Ideal.log (Ideal.div (Ideal.exp (Cert.Spec.Z (aX m c) (aN m c) (aW1 m c) (ab1 m c) (aW2 m c) (ab2 m c) r q
      - Cert.Spec.M (aX m c) (aN m c) (aW1 m c) (ab1 m c) (aW2 m c) (ab2 m c) r))
    (Ideal.ofBits .f32 0x00000000#32 + ∑ c' : Fin 16, Ideal.exp (Cert.Spec.Z (aX m c) (aN m c) (aW1 m c) (ab1 m c) (aW2 m c) (ab2 m c) r c'
      - Cert.Spec.M (aX m c) (aN m c) (aW1 m c) (ab1 m c) (aW2 m c) (ab2 m c) r)))
  rw [Ideal.ofBits_zero_f32, zero_add, hM, hz q]
  exact congrArg (fun s => Ideal.log (Ideal.div _ s)) (Finset.sum_congr rfl fun c' _ => by rw [hz c'])

/-- The output's block index at a phase-1 point: point `25 + s` writes block `24 - s`, the one block along the columns. -/
theorem out_block : ∀ t : Fin cfg1.N, 25 ≤ t.val →
    cc1_transform_5 (grid1.coords t) 0 = 49 - t.val ∧ cc1_transform_5 (grid1.coords t) 1 = 0 := by
  decide +kernel

/-- What a phase-1 point writes back is its block of the specification. -/
theorem flushed_is (t : Fin cfg1.N) (hf : (cfg1.win 5).flush t = true) :
    (Gcn.dat1 (Whole.Vin1 m) c).flushed 5 t
      = ((cfg1.win 5).blk t).view.read (Elt Ideal)
          (Cert.Spec.G (aX m c) (aN m c) (aW1 m c) (ab1 m c) (aW2 m c) (ab2 m c)) := by
  have ht : 25 ≤ t.val := by
    by_contra h
    rw [Gcn.noflush_out t (by omega)] at hf
    exact Bool.false_ne_true hf
  show (cfg1.win 5).cut (grid1.coords t) ((Gcn.dat1 (Whole.Vin1 m) c).after 5 t) = _
  rw [Gcn.after1_5]
  funext y
  obtain ⟨p, q, rfl⟩ : ∃ (p : Fin 400) (q : Fin 16), y = ix2 p q := ⟨y 0, y 1, eq_ix2 y⟩
  obtain ⟨hb0, hb1⟩ := out_block t ht
  have hN : t.val < 50 := lt_of_lt_of_eq t.isLt Gcn.N50
  have hp : p.val < 400 := p.isLt
  have hr0 : 400 * cc1_transform_5 (grid1.coords t) 0 + p.val < 10000 := by omega
  -- the block's element `(p, q)` sits in the array at row `400 ·` (the block index) `+ p`, column `q`
  have he : ((cfg1.win 5).blk t).view.emb (ix2 p q)
      = ix2 (⟨400 * cc1_transform_5 (grid1.coords t) 0 + p.val, hr0⟩ : Fin 10000) q := by
    funext a; apply Fin.ext
    match a with
    | ⟨0, _⟩ =>
      show cc1_transform_5 (grid1.coords t) 0 * 400 + 1 * p.val = 400 * cc1_transform_5 (grid1.coords t) 0 + p.val
      omega
    | ⟨1, _⟩ =>
      show cc1_transform_5 (grid1.coords t) 1 * 16 + 1 * q.val = q.val
      omega
  rw [View.read_apply]
  show Gcn.outAt (Whole.Vin1 m) c t (ix2 p q)
      = Cert.Spec.G (aX m c) (aN m c) (aW1 m c) (ab1 m c) (aW2 m c) (ab2 m c) (((cfg1.win 5).blk t).view.emb (ix2 p q))
  rw [he]
  exact out_is m c t ht p q _ rfl

/-- Every row of the array is in the block of the phase-1 point that writes the row's block. -/
theorem covered (i : S10000x16.Idx) :
    ∃ t : Fin cfg1.N, (cfg1.win 5).flush t = true ∧ i ∈ ((cfg1.win 5).blk t).view.set := by
  have h0 : (i 0).val < 10000 := idx2_lt0 i
  have h1 : (i 1).val < 16 := idx2_lt1 i
  obtain ⟨t, htv⟩ : ∃ t : Fin cfg1.N, t.val = 49 - (i 0).val / 400 := ⟨Gcn.pt (49 - (i 0).val / 400) (by omega), rfl⟩
  have ht : 25 ≤ t.val := by omega
  obtain ⟨hb0, hb1⟩ := out_block t ht
  refine ⟨t, Gcn.flush_out t ht, ?_⟩
  show i ∈ ((View.whole main_v3).slice (win1_5.rect t)).set
  rw [View.set_slice_whole, Rect.mem_set_unit]
  intro a
  match a with
  | ⟨0, _⟩ =>
    show cc1_transform_5 (grid1.coords t) 0 * 400 ≤ (i 0).val ∧ (i 0).val < cc1_transform_5 (grid1.coords t) 0 * 400 + 400
    omega
  | ⟨1, _⟩ =>
    show cc1_transform_5 (grid1.coords t) 1 * 16 ≤ (i 1).val ∧ (i 1).val < cc1_transform_5 (grid1.coords t) 1 * 16 + 16
    omega

/-- The result array after the run. -/
theorem kernel_is_spec :
    ((Gcn.dat1 (Whole.Vin1 m) c).arrAt 5 cfg1.N : S10000x16.Idx → EReal)
      = Cert.Spec.G (aX m c) (aN m c) (aW1 m c) (ab1 m c) (aW2 m c) (ab2 m c) :=
  (Gcn.dat1 (Whole.Vin1 m) c).arrAt_eq_of_cover 5 (Cert.Spec.G (aX m c) (aN m c) (aW1 m c) (ab1 m c) (aW2 m c) (ab2 m c))
    (flushed_is m c) covered

end Cert.KernelIdeal.IsSpec

end
-- ==== Proof.lean ====
/-
  The certificate.  The kernel is a two-layer graph convolution over a dense normalized adjacency,
  `log_softmax (norm · relu (norm · (x · W1) + b1) · W2 + b2)`, computed by a first pallas_call (`A = x · W1`) and a
  second one on a grid of two phases by 25 blocks of 400 rows: phase 0 fills a scratch with `B = relu (norm · A + b1) · W2`
  block by block, phase 1 walks the blocks in reverse and writes the row-wise log-softmax of `norm · B + b2`.  The
  reference is the same formula in plain array operations.
  Frames: both printed kernel programs run to the end, fault nowhere and leave their arguments alone, by the run of
  @main as three segments (region, two reshapes, region) over each region's body obligation; the reference's frame is
  its run with the result dropped.  The idealization rewrote nothing, so `preserves` is trivial.  Equivalence over the
  extended reals: the kernel's result array and the reference's result are both the function `Cert.Spec.G` of the six
  arguments, index by index; no law beyond re-indexing finite sums and `max (-∞) a = a` is used, so the precondition is
  never opened.
-/
import proofs.«146261_g85014582657441_cont_9to1_m_926_22_alg».proof.Defs
import proofs.«146261_g85014582657441_cont_9to1_m_926_22_alg».proof.Proof.Gen.Kernel
import proofs.«146261_g85014582657441_cont_9to1_m_926_22_alg».proof.Proof.Gen.KernelIdeal
import proofs.«146261_g85014582657441_cont_9to1_m_926_22_alg».proof.Proof.Gen.ReferenceIdeal
import proofs.«146261_g85014582657441_cont_9to1_m_926_22_alg».proof.Proof.Gen.Pre_finite_inputs
import proofs.«146261_g85014582657441_cont_9to1_m_926_22_alg».proof.Proof.K.WholeRun
import proofs.«146261_g85014582657441_cont_9to1_m_926_22_alg».proof.Proof.KI.WholeRun
import proofs.«146261_g85014582657441_cont_9to1_m_926_22_alg».proof.Proof.RefIsSpec
import proofs.«146261_g85014582657441_cont_9to1_m_926_22_alg».proof.Proof.KernelIsSpec

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Whole.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Whole.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.ref_run m ρ)

/-- Both runs end with the result array at the specification of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (Cert.KernelIdeal.IsSpec.aX m c) (Cert.KernelIdeal.IsSpec.aN m c) (Cert.KernelIdeal.IsSpec.aW1 m c)
      (Cert.KernelIdeal.IsSpec.ab1 m c) (Cert.KernelIdeal.IsSpec.aW2 m c) (Cert.KernelIdeal.IsSpec.ab2 m c), ?_, ?_⟩
  · exact (θ_run Cert.KernelIdeal.defs _ _).mono
      (fun _ h c => ⟨(h c).1.trans (Cert.KernelIdeal.IsSpec.kernel_is_spec m c), (h c).2⟩)
      (Cert.KernelIdeal.Whole.run_all (F := Ideal) m ρ)
  · refine (θ_run Cert.ReferenceIdeal.defs _ _).mono (fun _ h c => ⟨(h c).1.trans ?_, (h c).2⟩)
      (Cert.ReferenceIdeal.RefValue.ref_run m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
